-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥
  ∧ IdealRules.named_const.Statement Cert.KernelIdeal.κ "inv_temp" .f32 0x41200000#32 ((134217728 / 13421773 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192 : Shape := ⟨1, ![8192]⟩
abbrev S1024x256 : Shape := ⟨2, ![1024, 256]⟩
abbrev S512x256 : Shape := ⟨2, ![512, 256]⟩
abbrev S1024 : Shape := ⟨1, ![1024]⟩
abbrev S1024x1 : Shape := ⟨2, ![1024, 1]⟩
abbrev S256x512 : Shape := ⟨2, ![256, 512]⟩
abbrev S1024x512 : Shape := ⟨2, ![1024, 512]⟩

abbrev nBuf : Space → Nat
  | .hbm => 41
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096, .f32⟩
  | .hbm, ⟨25, _⟩ => ⟨S8192x256, .f32⟩
  | .hbm, ⟨26, _⟩ => ⟨S8192x256, .bf16⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S512x256, .bf16⟩
  | .local _ .vmem, ⟨3, _⟩ => ⟨S512x256, .bf16⟩
  | .local _ .vmem, ⟨4, _⟩ => ⟨S1024, .f32⟩
  | .local _ .vmem, ⟨5, _⟩ => ⟨S1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v52 : BitVec 1 := Scalar.cmpi .eq arg1 c15_i32
  let v53 : BitVec 32 := Scalar.extui v52
  let c0_i32_24 : BitVec 32 := 0#32
  let v54 : BitVec 1 := Scalar.cmpi .ne v53 c0_i32_24
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  shapeCasts_S1024x1_S1024 : S1024x1.ShapeCasts S1024
  inb_S1024_S1024_0 : ∀ a, (![0] : Fin 1 → Nat) a + S1024.size a ≤ S1024.size a
  h_S1024 : 0 < S1024.numel
  reducesTo_S8192_S_d0 : S8192.ReducesTo [0] S_
  bcast_S_S4096 : S_.BroadcastsInDim S4096 (![] : Fin 0 → Fin S4096.rank)
  reducesTo_S4096_S_d0 : S4096.ReducesTo [0] S_
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v19) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096, .f32⟩
  | .hbm, ⟨25, _⟩ => ⟨S8192x256, .f32⟩
  | .hbm, ⟨26, _⟩ => ⟨S256x8192, .f32⟩
  | .hbm, ⟨27, _⟩ => ⟨S8192x8192, .f32⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v28 : Ref sig .tc := ⟨.hbm, 40, rfl⟩
abbrev main_call1_cst : Ref sig .tc := ⟨.hbm, 41, rfl⟩
abbrev main_call1_v0 : Ref sig .tc := ⟨.hbm, 42, rfl⟩
abbrev main_call1_cst_0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_cst_1 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_v29 : Ref sig .tc := ⟨.hbm, 55, rfl⟩
abbrev main_cst_6 : Ref sig .tc := ⟨.hbm, 56, rfl⟩
abbrev main_call2_v0 : Ref sig .tc := ⟨.hbm, 57, rfl⟩
abbrev main_call2_v1 : Ref sig .tc := ⟨.hbm, 58, rfl⟩
abbrev main_v30 : Ref sig .tc := ⟨.hbm, 59, rfl⟩
abbrev main_cst_7 : Ref sig .tc := ⟨.hbm, 60, rfl⟩
abbrev main_v31 : Ref sig .tc := ⟨.hbm, 61, rfl⟩
abbrev main_cst_8 : Ref sig .tc := ⟨.hbm, 62, rfl⟩
abbrev main_v32 : Ref sig .tc := ⟨.hbm, 63, rfl⟩
abbrev main_cst_9 : Ref sig .tc := ⟨.hbm, 64, rfl⟩
abbrev main_v33 : Ref sig .tc := ⟨.hbm, 65, rfl⟩
abbrev main_v34 : Ref sig .tc := ⟨.hbm, 66, rfl⟩
abbrev main_cst_10 : Ref sig .tc := ⟨.hbm, 67, rfl⟩
abbrev main_v35 : Ref sig .tc := ⟨.hbm, 68, rfl⟩
abbrev main_cst_11 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  reducesTo_S8192x8192_S_d0_1 : S8192x8192.ReducesTo [0, 1] S_
  bcast_S_S4096 : S_.BroadcastsInDim S4096 (![] : Fin 0 → Fin S4096.rank)
  reducesTo_S4096_S_d0 : S4096.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Bits.Shared.lean ====
/-
  What the three control cases of the kernel's body share.

  The grid is 8 × 16: point t has row tile t / 16 and column tile t % 16. The body resets its three
  running quantities (row maximum, rescaled sum of exponentials, plain row sum) at column tile 0, updates
  them at every column tile, and writes the row results at column tile 15. So there are three cases:
  first (column tile 0), middle (1 … 14), last (15); the two conditions are never both true.

  Here: the contents of the core's buffers when the region is entered (after the host lines before it),
  @main as "host lines, region, host lines", a window's block at a point, the two conditions decided over
  the grid, where the output window is idle, and names for the staging and scratch memrefs.
-/
import proofs.«136477_j12128987644289_1_alg».proof.Proof.Gen.Kernel.Launch
import proofs.«136477_j12128987644289_1_alg».proof.Proof.Gen.Kernel.Skeleton
import proofs.«136477_j12128987644289_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host lines before the
    region (normalisation of both inputs, their row-wise products, the concatenation, the format change). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is: the host lines before the region, the region, the host lines after it; it reduces to the
    region continued by the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ hostOps0 from hostOps0_sub)
    (show List.Forall _ hostOps0 from hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not
    (unfetched, its index has not moved), for any proof data whose array is `V`'s and whose body leaves the
    block in place. Window 0: the left operand's row tile. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1: the right operand's column tile. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is column tile 0" as the body computes it. -/
abbrev cond0_0 (i : grid0.Coords) : Prop := (Scalar.cmpi .ne (Scalar.extui (Scalar.cmpi .eq (BitVec.ofNat 32 (i 1).val) 0#32)) 0#32) = 1#1
/-- It holds exactly at the points with t % 16 = 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is column tile 15" as the body computes it. -/
abbrev cond0_1 (i : grid0.Coords) : Prop := k0_cond2 i = 1#1
/-- It holds exactly at the points with t % 16 = 15. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from column tile 15 the body stores nothing into the output window, and the pipeline does not write it back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At column tile 15 it is live. -/
theorem liveAt0_2 : ∀ t : Fin cfg0.N, cond0_1 (grid0.coords t) → cfg0.idle 2 (grid0.coords t) = false := by decide +kernel

/-! ## Names for the memrefs the body is called with -/

/-- One staging buffer of the output window, through which its contents are stated. -/
abbrev VO0_2 : View sig .tc .vmem S1024 .f32 := (Memref.whole cc0_stg2_0 : Memref sig .tc .vmem S1024 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
/-- The three scratch operands: the running row maximum, the rescaled sum of exponentials, the plain row sum. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view

/-- The class's invariant with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.Bits.CaseFirst.lean ====
/-
  The body at column tile 0 (and not 15): the three running quantities are reset, then updated from this
  tile; the output window is not touched. The scratch may hold anything when the body starts.
-/
import proofs.«136477_j12128987644289_1_alg».proof.Proof.Bits.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three scratch buffers at column tile 0, with the proof that the
    body runs: the inputs' staging memrefs at their blocks `x0`, `x1` and handed back so, the output's at `xi2`
    and handed back untouched, each scratch at anything and handed back with its pieces written. -/
noncomputable def runFirst (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .bf16) (x1 : Vec F S512x256 .bf16) :
    Σ' (LS0 : List (View.Piece (Elt F) S1024x1 .f32)) (LS1 : List (View.Piece (Elt F) S1024x1 .f32)), { LS2 : List (View.Piece (Elt F) S1024x1 .f32) //
      ∀ (xi2 : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, ?_, fun xi2 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Hand

end
-- ==== Proof.Bits.CaseMid.lean ====
/-
  The body at a middle column tile (neither 0 nor 15): the three running quantities are updated from this
  tile over what the point before left; the output window is not touched.
-/
import proofs.«136477_j12128987644289_1_alg».proof.Proof.Bits.CaseFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three scratch buffers at a middle column tile, with the proof that
    the body runs from the scratch at `xs0`, `xs1`, `xs2`. -/
noncomputable def runMid (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .bf16) (x1 : Vec F S512x256 .bf16) (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi2 : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, ?_, fun xi2 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Hand

end
-- ==== Proof.Bits.CaseLast.lean ====
/-
  The body at column tile 15 (and not 0): the three running quantities are updated from this tile over what
  the point before left, and the row results are stored into the output window.
-/
import proofs.«136477_j12128987644289_1_alg».proof.Proof.Bits.CaseMid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window and the three scratch buffers at column tile 15, with
    the proof that the body runs from the scratch at `xs0`, `xs1`, `xs2` and the output's memref at anything. -/
noncomputable def runLast (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S512x256 .bf16) (xs0 xs1 xs2 : Vec F S1024x1 .f32) :
    Σ' (L2 : List (View.Piece (Elt F) S1024 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, ?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.Kernel.Hand

end
-- ==== Proof.Bits.Frame.lean ====
/-
  What the kernel's buffers hold point by point, the proof data of its one pipeline, and the body
  obligation at every grid point.

  After the body at point t the three scratch buffers hold what the case of that point leaves in them: at column
  tile 0 computed from the reset values, otherwise computed over what point t − 1 left. The output window's
  staging buffer holds the row results at column tile 15 and is untouched elsewhere. The region invariant carries
  the three scratch buffers at exactly those contents from one point to the next.
-/
import proofs.«136477_j12128987644289_1_alg».proof.Proof.Bits.CaseLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first case's pieces for scratch 0 cover it. -/
theorem scoverFirst_0 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) (y : S1024x1.Idx) :
    ∃ pc ∈ (runFirst c i arg2 harg2 arg3 harg3 arg4 harg4 arg5 harg5 arg6 harg6 arg7 harg7 hc0 hc1 x0 x1).1, y ∈ pc.1.set :=
  View.cover_of_tiledL (runFirst c i arg2 harg2 arg3 harg3 arg4 harg4 arg5 harg5 arg6 harg6 arg7 harg7 hc0 hc1 x0 x1).1 S1024x1.size (by sl_kernel_rfl) y
/-- What the first case leaves in scratch 0: its pieces read back. -/
def soutFirst_0 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) : Vec F S1024x1 .f32 :=
  VS0_0.read (Elt F) (VS0_0.writes (Elt F) VS0_0.junk (runFirst c i arg2 harg2 arg3 harg3 arg4 harg4 arg5 harg5 arg6 harg6 arg7 harg7 hc0 hc1 x0 x1).1)
/-- The middle case's pieces for scratch 0 cover it. -/
theorem scoverMid_0 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) (y : S1024x1.Idx) :
    ∃ pc ∈ (runMid c i arg2 harg2 arg3 harg3 arg4 harg4 arg5 harg5 arg6 harg6 arg7 harg7 hc0 hc1 x0 x1 xs0 xs1 xs2).1, y ∈ pc.1.set :=
  View.cover_of_tiledL (runMid c i arg2 harg2 arg3 harg3 arg4 harg4 arg5 harg5 arg6 harg6 arg7 harg7 hc0 hc1 x0 x1 xs0 xs1 xs2).1 S1024x1.size (by sl_kernel_rfl) y
/-- What the middle case leaves in scratch 0. -/
def soutMid_0 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) : Vec F S1024x1 .f32 :=
  VS0_0.read (Elt F) (VS0_0.writes (Elt F) VS0_0.junk (runMid c i arg2 harg2 arg3 harg3 arg4 harg4 arg5 harg5 arg6 harg6 arg7 harg7 hc0 hc1 x0 x1 xs0 xs1 xs2).1)
/-- The last case's pieces for scratch 0 cover it. -/
theorem scoverLast_0 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) (y : S1024x1.Idx) :
    ∃ pc ∈ (runLast c i arg2 harg2 arg3 harg3 arg4 harg4 arg5 harg5 arg6 harg6 arg7 harg7 hc0 hc1 x0 x1 xs0 xs1 xs2).2.1, y ∈ pc.1.set :=
  View.cover_of_tiledL (runLast c i arg2 harg2 arg3 harg3 arg4 harg4 arg5 harg5 arg6 harg6 arg7 harg7 hc0 hc1 x0 x1 xs0 xs1 xs2).2.1 S1024x1.size (by sl_kernel_rfl) y
/-- What the last case leaves in scratch 0. -/
def soutLast_0 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) : Vec F S1024x1 .f32 :=
  VS0_0.read (Elt F) (VS0_0.writes (Elt F) VS0_0.junk (runLast c i arg2 harg2 arg3 harg3 arg4 harg4 arg5 harg5 arg6 harg6 arg7 harg7 hc0 hc1 x0 x1 xs0 xs1 xs2).2.1)

/-- The first case's pieces for scratch 1 cover it. -/
theorem scoverFirst_1 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) (y : S1024x1.Idx) :
    ∃ pc ∈ (runFirst c i arg2 harg2 arg3 harg3 arg4 harg4 arg5 harg5 arg6 harg6 arg7 harg7 hc0 hc1 x0 x1).2.1, y ∈ pc.1.set :=
  View.cover_of_tiledL (runFirst c i arg2 harg2 arg3 harg3 arg4 harg4 arg5 harg5 arg6 harg6 arg7 harg7 hc0 hc1 x0 x1).2.1 S1024x1.size (by sl_kernel_rfl) y
/-- What the first case leaves in scratch 1: its pieces read back. -/
def soutFirst_1 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) : Vec F S1024x1 .f32 :=
  VS0_1.read (Elt F) (VS0_1.writes (Elt F) VS0_1.junk (runFirst c i arg2 harg2 arg3 harg3 arg4 harg4 arg5 harg5 arg6 harg6 arg7 harg7 hc0 hc1 x0 x1).2.1)
/-- The middle case's pieces for scratch 1 cover it. -/
theorem scoverMid_1 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) (y : S1024x1.Idx) :
    ∃ pc ∈ (runMid c i arg2 harg2 arg3 harg3 arg4 harg4 arg5 harg5 arg6 harg6 arg7 harg7 hc0 hc1 x0 x1 xs0 xs1 xs2).2.1, y ∈ pc.1.set :=
  View.cover_of_tiledL (runMid c i arg2 harg2 arg3 harg3 arg4 harg4 arg5 harg5 arg6 harg6 arg7 harg7 hc0 hc1 x0 x1 xs0 xs1 xs2).2.1 S1024x1.size (by sl_kernel_rfl) y
/-- What the middle case leaves in scratch 1. -/
def soutMid_1 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) : Vec F S1024x1 .f32 :=
  VS0_1.read (Elt F) (VS0_1.writes (Elt F) VS0_1.junk (runMid c i arg2 harg2 arg3 harg3 arg4 harg4 arg5 harg5 arg6 harg6 arg7 harg7 hc0 hc1 x0 x1 xs0 xs1 xs2).2.1)
/-- The last case's pieces for scratch 1 cover it. -/
theorem scoverLast_1 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) (y : S1024x1.Idx) :
    ∃ pc ∈ (runLast c i arg2 harg2 arg3 harg3 arg4 harg4 arg5 harg5 arg6 harg6 arg7 harg7 hc0 hc1 x0 x1 xs0 xs1 xs2).2.2.1, y ∈ pc.1.set :=
  View.cover_of_tiledL (runLast c i arg2 harg2 arg3 harg3 arg4 harg4 arg5 harg5 arg6 harg6 arg7 harg7 hc0 hc1 x0 x1 xs0 xs1 xs2).2.2.1 S1024x1.size (by sl_kernel_rfl) y
/-- What the last case leaves in scratch 1. -/
def soutLast_1 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) : Vec F S1024x1 .f32 :=
  VS0_1.read (Elt F) (VS0_1.writes (Elt F) VS0_1.junk (runLast c i arg2 harg2 arg3 harg3 arg4 harg4 arg5 harg5 arg6 harg6 arg7 harg7 hc0 hc1 x0 x1 xs0 xs1 xs2).2.2.1)

/-- The first case's pieces for scratch 2 cover it. -/
theorem scoverFirst_2 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) (y : S1024x1.Idx) :
    ∃ pc ∈ (runFirst c i arg2 harg2 arg3 harg3 arg4 harg4 arg5 harg5 arg6 harg6 arg7 harg7 hc0 hc1 x0 x1).2.2.1, y ∈ pc.1.set :=
  View.cover_of_tiledL (runFirst c i arg2 harg2 arg3 harg3 arg4 harg4 arg5 harg5 arg6 harg6 arg7 harg7 hc0 hc1 x0 x1).2.2.1 S1024x1.size (by sl_kernel_rfl) y
/-- What the first case leaves in scratch 2: its pieces read back. -/
def soutFirst_2 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) : Vec F S1024x1 .f32 :=
  VS0_2.read (Elt F) (VS0_2.writes (Elt F) VS0_2.junk (runFirst c i arg2 harg2 arg3 harg3 arg4 harg4 arg5 harg5 arg6 harg6 arg7 harg7 hc0 hc1 x0 x1).2.2.1)
/-- The middle case's pieces for scratch 2 cover it. -/
theorem scoverMid_2 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) (y : S1024x1.Idx) :
    ∃ pc ∈ (runMid c i arg2 harg2 arg3 harg3 arg4 harg4 arg5 harg5 arg6 harg6 arg7 harg7 hc0 hc1 x0 x1 xs0 xs1 xs2).2.2.1, y ∈ pc.1.set :=
  View.cover_of_tiledL (runMid c i arg2 harg2 arg3 harg3 arg4 harg4 arg5 harg5 arg6 harg6 arg7 harg7 hc0 hc1 x0 x1 xs0 xs1 xs2).2.2.1 S1024x1.size (by sl_kernel_rfl) y
/-- What the middle case leaves in scratch 2. -/
def soutMid_2 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) : Vec F S1024x1 .f32 :=
  VS0_2.read (Elt F) (VS0_2.writes (Elt F) VS0_2.junk (runMid c i arg2 harg2 arg3 harg3 arg4 harg4 arg5 harg5 arg6 harg6 arg7 harg7 hc0 hc1 x0 x1 xs0 xs1 xs2).2.2.1)
/-- The last case's pieces for scratch 2 cover it. -/
theorem scoverLast_2 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) (y : S1024x1.Idx) :
    ∃ pc ∈ (runLast c i arg2 harg2 arg3 harg3 arg4 harg4 arg5 harg5 arg6 harg6 arg7 harg7 hc0 hc1 x0 x1 xs0 xs1 xs2).2.2.2.1, y ∈ pc.1.set :=
  View.cover_of_tiledL (runLast c i arg2 harg2 arg3 harg3 arg4 harg4 arg5 harg5 arg6 harg6 arg7 harg7 hc0 hc1 x0 x1 xs0 xs1 xs2).2.2.2.1 S1024x1.size (by sl_kernel_rfl) y
/-- What the last case leaves in scratch 2. -/
def soutLast_2 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) : Vec F S1024x1 .f32 :=
  VS0_2.read (Elt F) (VS0_2.writes (Elt F) VS0_2.junk (runLast c i arg2 harg2 arg3 harg3 arg4 harg4 arg5 harg5 arg6 harg6 arg7 harg7 hc0 hc1 x0 x1 xs0 xs1 xs2).2.2.2.1)

/-- The last case's pieces for the output window cover its block. -/
theorem coverLast_out (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) (y : S1024.Idx) :
    ∃ pc ∈ (runLast c i arg2 harg2 arg3 harg3 arg4 harg4 arg5 harg5 arg6 harg6 arg7 harg7 hc0 hc1 x0 x1 xs0 xs1 xs2).1, y ∈ pc.1.set :=
  View.cover_of_tiledL (runLast c i arg2 harg2 arg3 harg3 arg4 harg4 arg5 harg5 arg6 harg6 arg7 harg7 hc0 hc1 x0 x1 xs0 xs1 xs2).1 S1024.size (by sl_kernel_rfl) y
/-- What the last case leaves in the output window's staging buffer: the row results. -/
def outLast (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) : Vec F S1024 .f32 :=
  VO0_2.read (Elt F) (VO0_2.writes (Elt F) VO0_2.junk (runLast c i arg2 harg2 arg3 harg3 arg4 harg4 arg5 harg5 arg6 harg6 arg7 harg7 hc0 hc1 x0 x1 xs0 xs1 xs2).1)
/-- Where the body stores nothing into the output window: a placeholder nothing consults (the window is neither
    written back nor read there). -/
def outIdle : Vec F S1024 .f32 := VO0_2.read (Elt F) VO0_2.junk

/-! ## What the buffers hold after each point -/

/-- THE RECURSION. After the body at position n: the output window's staging buffer, then the three scratch buffers.
    The case is the one the closed forms select at n; the middle and last cases compute over what position n − 1
    left in the scratch. -/
def outsAt0 (c : Dev nD) : (n : ℕ) → n < cfg0.N → Vec F S1024 .f32 × Vec F S1024x1 .f32 × Vec F S1024x1 .f32 × Vec F S1024x1 .f32
  | 0, hn => (outIdle, soutFirst_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), soutFirst_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), soutFirst_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 16 = 0 then
      if h1 : (n + 1) % 16 = 15 then
        False.elim (by omega)
      else
        (outIdle, soutFirst_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), soutFirst_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), soutFirst_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 16 = 15 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, soutLast_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, soutLast_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, soutLast_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (outIdle, soutMid_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, soutMid_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, soutMid_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

/-- At a point of the first case. -/
theorem outsAt0_First (c : Dev nD) (t : Fin cfg0.N) (h0 : t.val % 16 = 0) (h1 : ¬t.val % 16 = 15) :
    outsAt0 m c t.val t.isLt = (outIdle, soutFirst_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), soutFirst_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), soutFirst_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- At a point of the middle case: over what the point before left. -/
theorem outsAt0_Mid (c : Dev nD) (t : Fin cfg0.N) (h0 : ¬t.val % 16 = 0) (h1 : ¬t.val % 16 = 15) :
    outsAt0 m c t.val t.isLt = (outIdle, soutMid_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, soutMid_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, soutMid_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a point of the last case: over what the point before left. -/
theorem outsAt0_Last (c : Dev nD) (t : Fin cfg0.N) (h0 : ¬t.val % 16 = 0) (h1 : t.val % 16 = 15) :
    outsAt0 m c t.val t.isLt = (outLast c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, soutLast_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, soutLast_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, soutLast_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point every scratch at anything; afterwards each
    scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the region finds them; after the body each input's buffer at its block and the output's at the
    recursion's first component; the invariant above; nothing owed. The two input windows read ONE array: each holds
    it at half the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point. The inputs' memrefs hold their blocks; the closed forms say which case the point is in;
    the invariant hands the body the scratch at what the point before left (at anything at the very first point)
    and takes it back at this point's contents; where the output window is idle its buffer goes back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    · -- first case
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_First m c t h0 h1]
      unfold soutFirst_0 soutFirst_1 soutFirst_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩⟩
        iapply ((runFirst c (grid0.coords t) _ _ _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverFirst_0 c _ _ _ _ _ _ _ _ _ _ _ _ _ _ _ _ _ )
            isplitl [HS1]
            · unfold owns; iexists _; isplitr
              swap; · iexact HS1
              ipureintro; exact View.read_writes_of_cover _ _ _ _ _ (scoverFirst_1 c _ _ _ _ _ _ _ _ _ _ _ _ _ _ _ _ _ )
            unfold owns; iexists _; isplitr
            swap; · iexact HS2
            ipureintro; exact View.read_writes_of_cover _ _ _ _ _ (scoverFirst_2 c _ _ _ _ _ _ _ _ _ _ _ _ _ _ _ _ _ )
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((runFirst c (grid0.coords t) _ _ _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverFirst_0 c _ _ _ _ _ _ _ _ _ _ _ _ _ _ _ _ _ )
            isplitl [HS1]
            · unfold owns; iexists _; isplitr
              swap; · iexact HS1
              ipureintro; exact View.read_writes_of_cover _ _ _ _ _ (scoverFirst_1 c _ _ _ _ _ _ _ _ _ _ _ _ _ _ _ _ _ )
            unfold owns; iexists _; isplitr
            swap; · iexact HS2
            ipureintro; exact View.read_writes_of_cover _ _ _ _ _ (scoverFirst_2 c _ _ _ _ _ _ _ _ _ _ _ _ _ _ _ _ _ )
          iexact Hg
        isplitl [Ho]; · iexact Ho
        isplitl [H0]; · iexact H0
        isplitl [H1]; · iexact H1
        iexists _; iexact H2
  · have hz : t.val ≠ 0 := fun hz => h0 (by rw [hz])
    by_cases h1 : t.val % 16 = 15
    · -- last case
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_Last m c t h0 h1]
      unfold outLast soutLast_0 soutLast_1 soutLast_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((runLast c (grid0.coords t) _ _ _ _ _ _ _ _ _ _ _ _ (fun h => h0 ((hcond0_0 t).mp h)) ((hcond0_1 t).mpr h1) (iblk m c 0 t) (iblk m c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverLast_0 c _ _ _ _ _ _ _ _ _ _ _ _ _ _ _ _ _ _ _ _ )
          isplitl [HS1]
          · unfold owns; iexists _; isplitr
            swap; · iexact HS1
            ipureintro; exact View.read_writes_of_cover _ _ _ _ _ (scoverLast_1 c _ _ _ _ _ _ _ _ _ _ _ _ _ _ _ _ _ _ _ _ )
          unfold owns; iexists _; isplitr
          swap; · iexact HS2
          ipureintro; exact View.read_writes_of_cover _ _ _ _ _ (scoverLast_2 c _ _ _ _ _ _ _ _ _ _ _ _ _ _ _ _ _ _ _ _ )
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast_out c _ _ _ _ _ _ _ _ _ _ _ _ _ _ _ _ _ _ _ _ )
    · -- middle case
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_Mid m c t h0 h1]
      unfold soutMid_0 soutMid_1 soutMid_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((runMid c (grid0.coords t) _ _ _ _ _ _ _ _ _ _ _ _ (fun h => h0 ((hcond0_0 t).mp h)) (fun h => h1 ((hcond0_1 t).mp h)) (iblk m c 0 t) (iblk m c 1 t) _ _ _).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverMid_0 c _ _ _ _ _ _ _ _ _ _ _ _ _ _ _ _ _ _ _ _ )
          isplitl [HS1]
          · unfold owns; iexists _; isplitr
            swap; · iexact HS1
            ipureintro; exact View.read_writes_of_cover _ _ _ _ _ (scoverMid_1 c _ _ _ _ _ _ _ _ _ _ _ _ _ _ _ _ _ _ _ _ )
          unfold owns; iexists _; isplitr
          swap; · iexact HS2
          ipureintro; exact View.read_writes_of_cover _ _ _ _ _ (scoverMid_2 c _ _ _ _ _ _ _ _ _ _ _ _ _ _ _ _ _ _ _ _ )
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back, its named contents forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

end Cert.Kernel.Hand

end
-- ==== Proof.Bits.Launch.lean ====
/-
  The launch of the kernel's program: @main's host lines, the region, the host lines after it.

  The two input windows read ONE array. Its full share is split in two halves, one per window, for the length of
  the region; inputs are never written, so both halves come back at the contents the region found. The lines
  after the region read the output array and buffers that bypass the region, never the shared array, so they run
  holding everything but it. The result: every weakly fair execution terminates, the result buffer holds what
  the lines after the region compute from the output array's final contents, and the arguments are unchanged.
-/
import proofs.«136477_j12128987644289_1_alg».proof.Proof.Bits.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The arrays behind the windows -/

theorem image_arr : (Finset.univ.image (arrRef spec0) : Finset (Ref sig .tc)) = {main_v19, main_v20} := by decide

/-- The unscoped buffers that are no window's array. -/
abbrev restSet : Finset (Ref sig .tc) := (Finset.univ.filter fun b : Ref sig .tc => ¬ b.isScoped) \ Finset.univ.image (arrRef spec0)

/-! ## Dealing the shared array to the two input windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The pipeline's arrays at contents F, window by window. -/
theorem arrays_eq3 (c : Dev nD) (Fw : (w : Fin cfg0.W) → Buf (Elt F) ((cfg0.win w).arr.view.loc (c.tc : Thread nD τ))) :
    ((dats m 0 c).arrays Fw : sProp 𝕄)
      = iprop((((c.tc : Thread nD τ).loc main_v19) ↦{fullShare.left} Fw 0) ∗ (((c.tc : Thread nD τ).loc main_v19) ↦{fullShare.right} Fw 1)
          ∗ (((c.tc : Thread nD τ).loc main_v20) ↦{fullShare} Fw 2)) := by
  unfold Dat.arrays
  rw [bigSep_W0]
  rw [(arr_whole0 0).set_eq_univ, (arr_whole0 2).set_eq_univ, share0, share1, share2]

/-- The buffers behind the arrays, each whole at the region-entry contents, make the pipeline's arrays at entry. -/
theorem hsplit (c : Dev nD) : (arrBufs spec0 c (V m c) : sProp 𝕄) ⊢ (dats m 0 c).arrays ((dats m 0 c).arrAt · 0) := by
  rw [arrays_eq3]
  unfold arrBufs
  have e : ∀ Φ : Ref sig .tc → sProp 𝕄, bigSep ({main_v19, main_v20} : Finset (Ref sig .tc)) Φ = iprop(Φ main_v19 ∗ Φ main_v20) := fun Φ => by
    rw [bigSep_insert (by decide), bigSep_singleton]; rfl
  rw [image_arr, e]
  iintro ⟨H19, H20⟩
  ihave H := (pointsTo_share (PosShare.mem_left_op_right fullShare)).1 $$ H19
  icases H with ⟨Hl, Hr⟩
  isplitl [Hl]; · iexact Hl
  isplitl [Hr]; · iexact Hr
  iexact H20

/-! ## The contents after the region and after the lines that follow it -/

/-- After the region: the output array at its final contents, every other buffer as the region found it. -/
def exitW (c : Dev nD) : Valuation τ sig (Elt F) := fun b =>
  if h : Proc.devRef .tc main_v20 = b then
    cast (congrArg (fun b' : DevRef τ sig => b'.ty.Contents (Elt F)) h) ((dats m 0 c).arrAt 2 cfg0.N)
  else V0 m c b

theorem exitW_out (c : Dev nD) : exitW m c (Proc.devRef .tc main_v20) = (dats m 0 c).arrAt 2 cfg0.N := by
  unfold exitW; rw [dif_pos rfl]; rfl

theorem exitW_of_ne (c : Dev nD) (b : Ref sig .tc) (hb : main_v20 ≠ b) : exitW m c (Proc.devRef .tc b) = V0 m c (Proc.devRef .tc b) := by
  unfold exitW; rw [dif_neg fun e => hb (Proc.devRef_injective _ e)]

/-- After the lines that follow the region. -/
abbrev finW (c : Dev nD) : Valuation τ sig (Elt F) := StableHlo.after hostOps1 (exitW m c)

/-- The buffers those lines may touch: every unscoped buffer but the array the two input windows share. -/
abbrev tailSet : Finset (DevRef τ sig) := (insert main_v20 restSet).map ⟨Proc.devRef (sig := sig) .tc, Proc.devRef_injective _⟩

theorem v20_not_rest : main_v20 ∉ restSet := by decide

/-- Held at a valuation W, that set is the output array and the bypassing buffers at W. -/
theorem held_tailSet (c : Dev nD) (W : Valuation τ sig (Elt F)) :
    (StableHlo.held (c.tc : Thread nD τ) tailSet W : sProp 𝕄)
      = iprop((((c.tc : Thread nD τ).loc main_v20) ↦{fullShare} W (Proc.devRef .tc main_v20))
          ∗ bigSep restSet fun b => ((c.tc : Thread nD τ).loc b) ↦{fullShare} W (Proc.devRef .tc b)) := by
  unfold StableHlo.held tailSet
  rw [bigSep_map, bigSep_insert v20_not_rest]
  rfl

/-- Each of those lines names only such buffers. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl | rfl | rfl | rfl | rfl
  all_goals
    intro b hb
    simp only [StableHlo.nullary_bufs, StableHlo.unary_bufs, StableHlo.binary_bufs, Finset.mem_insert, Finset.mem_singleton] at hb
    rcases hb with rfl | rfl | rfl <;> exact Finset.mem_map.mpr ⟨_, by decide, rfl⟩

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-! ## What the lines around the region keep -/

/-- The lines before the region leave the argument arrays as they were. -/
theorem V0_arg0 (c : Dev nD) : V0 m c (Proc.devRef .tc main_arg0) = m ((c : Thread nD τ).loc main_arg0) := by
  show StableHlo.after hostOps0 (fun b => m (c, b)) (Proc.devRef .tc main_arg0) = _
  after_results
theorem V0_arg1 (c : Dev nD) : V0 m c (Proc.devRef .tc main_arg1) = m ((c : Thread nD τ).loc main_arg1) := by
  show StableHlo.after hostOps0 (fun b => m (c, b)) (Proc.devRef .tc main_arg1) = _
  after_results

/-- The lines after the region write neither argument array nor the output array. -/
theorem tail_keeps (b : Ref sig .tc) (hb : b = main_arg0 ∨ b = main_arg1 ∨ b = main_v20) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl | rfl | rfl | rfl | rfl | rfl | rfl
  all_goals
    simp only [StableHlo.nullary_writes, StableHlo.unary_writes, StableHlo.binary_writes, Finset.mem_singleton]
    rcases hb with rfl | rfl | rfl <;> exact StableHlo.devRef_ne_of_ne (by decide)

theorem finW_arg0 (c : Dev nD) : finW m c (Proc.devRef .tc main_arg0) = m ((c : Thread nD τ).loc main_arg0) := by
  rw [show finW m c (Proc.devRef .tc main_arg0) = exitW m c (Proc.devRef .tc main_arg0) from
    StableHlo.after_of_forall_not_mem _ _ (tail_keeps main_arg0 (.inl rfl)), exitW_of_ne m c main_arg0 (by decide), V0_arg0]
theorem finW_arg1 (c : Dev nD) : finW m c (Proc.devRef .tc main_arg1) = m ((c : Thread nD τ).loc main_arg1) := by
  rw [show finW m c (Proc.devRef .tc main_arg1) = exitW m c (Proc.devRef .tc main_arg1) from
    StableHlo.after_of_forall_not_mem _ _ (tail_keeps main_arg1 (.inr (.inl rfl))), exitW_of_ne m c main_arg1 (by decide), V0_arg1]
theorem finW_out (c : Dev nD) : finW m c (Proc.devRef .tc main_v20) = (dats m 0 c).arrAt 2 cfg0.N := by
  rw [show finW m c (Proc.devRef .tc main_v20) = exitW m c (Proc.devRef .tc main_v20) from
    StableHlo.after_of_forall_not_mem _ _ (tail_keeps main_v20 (.inr (.inr rfl))), exitW_out]

/-! ## The lines after the region, from the region's exit -/

/-- The bypassing buffers at the contents after the lines. -/
abbrev restFin (c : Dev nD) : sProp 𝕄 := bigSep restSet fun b => ((c.tc : Thread nD τ).loc b) ↦{fullShare} finW m c (Proc.devRef .tc b)

set_option maxHeartbeats 4000000 in
set_option backward.isDefEq.respectTransparency.types false in
/-- From the region's exit — the boundary, the arrays at their final contents, the bypassing buffers as the region
    found them — the lines run holding the output array and the bypassing buffers, and hand back the arrays as they
    were and the bypassing buffers at the lines' results. -/
theorem htail (c : Dev nD) (Q' : PUnit → sProp 𝕄) :
    iprop((iprop((dats m 0 c).arrays ((dats m 0 c).arrAt · cfg0.N) ∗ restFin m c) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Prefetch.none spec0 c (V m c))
      ⊢ wp frame (wpE (Pipeline.defs (fun q => (cfgs q).toPCfg (Val := Elt F)) defs₀) (Variants.lift Variants.none) (c.tc : Thread nD τ) none) Set.univ
          (chain [StableHlo.seq hostOps1]) Q' := by
  have hW : (StableHlo.held (c.tc : Thread nD τ) tailSet (exitW m c) : sProp 𝕄)
      = iprop((((c.tc : Thread nD τ).loc main_v20) ↦{fullShare} (dats m 0 c).arrAt 2 cfg0.N)
          ∗ bigSep restSet fun b => ((c.tc : Thread nD τ).loc b) ↦{fullShare} V m c b) := by
    have hrest : (bigSep restSet fun b => ((c.tc : Thread nD τ).loc b) ↦{fullShare} exitW m c (Proc.devRef .tc b) : sProp 𝕄)
        = bigSep restSet fun b => ((c.tc : Thread nD τ).loc b) ↦{fullShare} V m c b :=
      bigSep_congr fun b hb => by rw [exitW_of_ne m c b (fun e => v20_not_rest (e ▸ hb))]
    rw [held_tailSet, exitW_out, hrest]
  have hW' : (StableHlo.held (c.tc : Thread nD τ) tailSet (StableHlo.after ([hostOps1] : List (List (HloOp τ sig (Elt F)))).flatten (exitW m c)) : sProp 𝕄)
      = iprop((((c.tc : Thread nD τ).loc main_v20) ↦{fullShare} (dats m 0 c).arrAt 2 cfg0.N) ∗ restFin m c) := by
    show (StableHlo.held (c.tc : Thread nD τ) tailSet (finW m c) : sProp 𝕄) = _
    rw [held_tailSet, finW_out]
  rw [arrays_eq3, unscopedRestP_none]
  unfold unscopedRest
  rw [show (chain [StableHlo.seq hostOps1] : Prog _ PUnit) = chain (([hostOps1] : List (List (HloOp τ sig (Elt F)))).map StableHlo.seq ++ []) from rfl]
  iintro ⟨Hk, Hb, ⟨Hl, Hr, H20⟩, HZ⟩
  ihave Hh : (StableHlo.held (c.tc : Thread nD τ) tailSet (exitW m c) : sProp 𝕄) $$ [H20 HZ]
  · rw [hW]; isplitl [H20] <;> iassumption
  iapply (wp_seqs_then (fun q => (cfgs q).toPCfg (Val := Elt F)) defs₀ Variants.none c tailSet [] [hostOps1] tail_sub tail_fresh (exitW m c)) $$ [Hb Hh]
  · isplitl [Hb] <;> iassumption
  iintro Hb
  rw [chain_nil, wp_pure, hW']
  imodintro
  iapply Hk
  icases Hb with ⟨-, ⟨H20, HZ⟩⟩
  isplitl [Hl Hr H20]
  · isplitl [Hl]; · iexact Hl
    isplitl [Hr]; · iexact Hr
    iexact H20
  iexact HZ

/-! ## The run -/

set_option maxHeartbeats 4000000 in
set_option backward.isDefEq.respectTransparency.types false in
/-- Every weakly fair execution of @main terminates; the result buffer ends at what the lines after the region
    compute from the region's exit, and the argument arrays end unchanged. -/
theorem run_main : θ_run defs (onTc (τ := τ) (main (F := F))) ⟨m, fun _ => 0, ρ⟩ (fun r => ∀ c : Dev nD,
      r.2.mem ((c.tc : Thread nD τ).loc main_v28) = finW m c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact θ_run_region_pf_tail (fun q => (cfgs q).toPCfg (Val := Elt F)) (fun q => (cfgs q).toPCfg_adm) (dats m) () cellOf_inj 0 winFacts₀0
    (OwnSemFacts.none spec0) (PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => restFin m c)
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [ownSems0_none]; unfold ΦA
      iintro ⟨Hr, Hp⟩
      isplitl [Hp]; · iexact Hp
      isplitr; · iempintro
      iexact Hr))
    (htail := fun c Q' => htail m c Q')
    (QY := fun c s => ∀ b ∈ restSet, s.mem ((c.tc : Thread nD τ).loc b) = finW m c (Proc.devRef .tc b))
    (hY := fun c s' => by
      iintro ⟨-, HU, HSI⟩
      imodintro
      iapply (pointsTo_read_all restSet (fun b => (c.tc : Thread nD τ).loc b) (fun b => finW m c (Proc.devRef .tc b)) s')
      isplitl [HU] <;> iassumption)
    (hQ := fun s h c => ⟨(h c).2.2 main_v28 (by decide),
      ((h c).2.2 main_arg0 (by decide)).trans (finW_arg0 m c),
      ((h c).2.2 main_arg1 (by decide)).trans (finW_arg1 m c)⟩)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.Ideal.Shared.lean ====
/-
  What the three control cases of the idealized kernel's body share.

  The grid is 8 × 16: point t has row tile t / 16 and column tile t % 16. The body resets its three
  running quantities (row maximum, rescaled sum of exponentials, plain row sum) at column tile 0, updates
  them at every column tile, and writes the row results at column tile 15. So there are three cases:
  first (column tile 0), middle (1 … 14), last (15); the two conditions are never both true.

  Here: the contents of the core's buffers when the region is entered (after the host lines before it),
  @main as "host lines, region, host lines", a window's block at a point, the two conditions decided over
  the grid, where the output window is idle, and names for the staging and scratch memrefs.
-/
import proofs.«136477_j12128987644289_1_alg».proof.Proof.Gen.KernelIdeal.Launch
import proofs.«136477_j12128987644289_1_alg».proof.Proof.Gen.KernelIdeal.Skeleton
import proofs.«136477_j12128987644289_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host lines before the
    region (normalisation of both inputs, their row-wise products, the concatenation, the format change). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is: the host lines before the region, the region, the host lines after it; it reduces to the
    region continued by the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ hostOps0 from hostOps0_sub)
    (show List.Forall _ hostOps0 from hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not
    (unfetched, its index has not moved), for any proof data whose array is `V`'s and whose body leaves the
    block in place. Window 0: the left operand's row tile. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1: the right operand's column tile. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is column tile 0" as the body computes it. -/
abbrev cond0_0 (i : grid0.Coords) : Prop := (Scalar.cmpi .ne (Scalar.extui (Scalar.cmpi .eq (BitVec.ofNat 32 (i 1).val) 0#32)) 0#32) = 1#1
/-- It holds exactly at the points with t % 16 = 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is column tile 15" as the body computes it. -/
abbrev cond0_1 (i : grid0.Coords) : Prop := k0_cond2 i = 1#1
/-- It holds exactly at the points with t % 16 = 15. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from column tile 15 the body stores nothing into the output window, and the pipeline does not write it back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At column tile 15 it is live. -/
theorem liveAt0_2 : ∀ t : Fin cfg0.N, cond0_1 (grid0.coords t) → cfg0.idle 2 (grid0.coords t) = false := by decide +kernel

/-! ## Names for the memrefs the body is called with -/

/-- One staging buffer of the output window, through which its contents are stated. -/
abbrev VO0_2 : View sig .tc .vmem S1024 .f32 := (Memref.whole cc0_stg2_0 : Memref sig .tc .vmem S1024 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
/-- The three scratch operands: the running row maximum, the rescaled sum of exponentials, the plain row sum. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view

/-- The class's invariant with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.Ideal.CaseFirst.lean ====
/-
  The body at column tile 0 (and not 15): the three running quantities are reset, then updated from this
  tile; the output window is not touched. The scratch may hold anything when the body starts.
-/
import proofs.«136477_j12128987644289_1_alg».proof.Proof.Ideal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three scratch buffers at column tile 0, with the proof that the
    body runs: the inputs' staging memrefs at their blocks `x0`, `x1` and handed back so, the output's at `xi2`
    and handed back untouched, each scratch at anything and handed back with its pieces written. -/
noncomputable def runFirst (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x256 .bf16) (x1 : Vec F S512x256 .bf16) :
    Σ' (LS0 : List (View.Piece (Elt F) S1024x1 .f32)) (LS1 : List (View.Piece (Elt F) S1024x1 .f32)), { LS2 : List (View.Piece (Elt F) S1024x1 .f32) //
      ∀ (xi2 : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, ?_, fun xi2 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.Ideal.CaseMid.lean ====
/-
  The body at a middle column tile (neither 0 nor 15): the three running quantities are updated from this
  tile over what the point before left; the output window is not touched.
-/
import proofs.«136477_j12128987644289_1_alg».proof.Proof.Ideal.CaseFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three scratch buffers at a middle column tile, with the proof that
    the body runs from the scratch at `xs0`, `xs1`, `xs2`. -/
noncomputable def runMid (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x256 .bf16) (x1 : Vec F S512x256 .bf16) (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi2 : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, ?_, fun xi2 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.Ideal.CaseLast.lean ====
/-
  The body at column tile 15 (and not 0): the three running quantities are updated from this tile over what
  the point before left, and the row results are stored into the output window.
-/
import proofs.«136477_j12128987644289_1_alg».proof.Proof.Ideal.CaseMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window and the three scratch buffers at column tile 15, with
    the proof that the body runs from the scratch at `xs0`, `xs1`, `xs2` and the output's memref at anything. -/
noncomputable def runLast (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x256 .bf16) (x1 : Vec F S512x256 .bf16) (xs0 xs1 xs2 : Vec F S1024x1 .f32) :
    Σ' (L2 : List (View.Piece (Elt F) S1024 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, ?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.Ideal.Frame.lean ====
/-
  What the idealized kernel's buffers hold point by point, the proof data of its one pipeline, and the body
  obligation at every grid point.

  After the body at point t the three scratch buffers hold what the case of that point leaves in them: at column
  tile 0 computed from the reset values, otherwise computed over what point t − 1 left. The output window's
  staging buffer holds the row results at column tile 15 and is untouched elsewhere. The region invariant carries
  the three scratch buffers at exactly those contents from one point to the next.
-/
import proofs.«136477_j12128987644289_1_alg».proof.Proof.Ideal.CaseLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first case's pieces for scratch 0 cover it. -/
theorem scoverFirst_0 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) (y : S1024x1.Idx) :
    ∃ pc ∈ (runFirst c i arg2 harg2 arg3 harg3 arg4 harg4 arg5 harg5 arg6 harg6 arg7 harg7 hc0 hc1 x0 x1).1, y ∈ pc.1.set :=
  View.cover_of_tiledL (runFirst c i arg2 harg2 arg3 harg3 arg4 harg4 arg5 harg5 arg6 harg6 arg7 harg7 hc0 hc1 x0 x1).1 S1024x1.size (by sl_kernel_rfl) y
/-- What the first case leaves in scratch 0: its pieces read back. -/
def soutFirst_0 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) : Vec F S1024x1 .f32 :=
  VS0_0.read (Elt F) (VS0_0.writes (Elt F) VS0_0.junk (runFirst c i arg2 harg2 arg3 harg3 arg4 harg4 arg5 harg5 arg6 harg6 arg7 harg7 hc0 hc1 x0 x1).1)
/-- The middle case's pieces for scratch 0 cover it. -/
theorem scoverMid_0 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) (y : S1024x1.Idx) :
    ∃ pc ∈ (runMid c i arg2 harg2 arg3 harg3 arg4 harg4 arg5 harg5 arg6 harg6 arg7 harg7 hc0 hc1 x0 x1 xs0 xs1 xs2).1, y ∈ pc.1.set :=
  View.cover_of_tiledL (runMid c i arg2 harg2 arg3 harg3 arg4 harg4 arg5 harg5 arg6 harg6 arg7 harg7 hc0 hc1 x0 x1 xs0 xs1 xs2).1 S1024x1.size (by sl_kernel_rfl) y
/-- What the middle case leaves in scratch 0. -/
def soutMid_0 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) : Vec F S1024x1 .f32 :=
  VS0_0.read (Elt F) (VS0_0.writes (Elt F) VS0_0.junk (runMid c i arg2 harg2 arg3 harg3 arg4 harg4 arg5 harg5 arg6 harg6 arg7 harg7 hc0 hc1 x0 x1 xs0 xs1 xs2).1)
/-- The last case's pieces for scratch 0 cover it. -/
theorem scoverLast_0 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) (y : S1024x1.Idx) :
    ∃ pc ∈ (runLast c i arg2 harg2 arg3 harg3 arg4 harg4 arg5 harg5 arg6 harg6 arg7 harg7 hc0 hc1 x0 x1 xs0 xs1 xs2).2.1, y ∈ pc.1.set :=
  View.cover_of_tiledL (runLast c i arg2 harg2 arg3 harg3 arg4 harg4 arg5 harg5 arg6 harg6 arg7 harg7 hc0 hc1 x0 x1 xs0 xs1 xs2).2.1 S1024x1.size (by sl_kernel_rfl) y
/-- What the last case leaves in scratch 0. -/
def soutLast_0 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) : Vec F S1024x1 .f32 :=
  VS0_0.read (Elt F) (VS0_0.writes (Elt F) VS0_0.junk (runLast c i arg2 harg2 arg3 harg3 arg4 harg4 arg5 harg5 arg6 harg6 arg7 harg7 hc0 hc1 x0 x1 xs0 xs1 xs2).2.1)

/-- The first case's pieces for scratch 1 cover it. -/
theorem scoverFirst_1 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) (y : S1024x1.Idx) :
    ∃ pc ∈ (runFirst c i arg2 harg2 arg3 harg3 arg4 harg4 arg5 harg5 arg6 harg6 arg7 harg7 hc0 hc1 x0 x1).2.1, y ∈ pc.1.set :=
  View.cover_of_tiledL (runFirst c i arg2 harg2 arg3 harg3 arg4 harg4 arg5 harg5 arg6 harg6 arg7 harg7 hc0 hc1 x0 x1).2.1 S1024x1.size (by sl_kernel_rfl) y
/-- What the first case leaves in scratch 1: its pieces read back. -/
def soutFirst_1 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) : Vec F S1024x1 .f32 :=
  VS0_1.read (Elt F) (VS0_1.writes (Elt F) VS0_1.junk (runFirst c i arg2 harg2 arg3 harg3 arg4 harg4 arg5 harg5 arg6 harg6 arg7 harg7 hc0 hc1 x0 x1).2.1)
/-- The middle case's pieces for scratch 1 cover it. -/
theorem scoverMid_1 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) (y : S1024x1.Idx) :
    ∃ pc ∈ (runMid c i arg2 harg2 arg3 harg3 arg4 harg4 arg5 harg5 arg6 harg6 arg7 harg7 hc0 hc1 x0 x1 xs0 xs1 xs2).2.1, y ∈ pc.1.set :=
  View.cover_of_tiledL (runMid c i arg2 harg2 arg3 harg3 arg4 harg4 arg5 harg5 arg6 harg6 arg7 harg7 hc0 hc1 x0 x1 xs0 xs1 xs2).2.1 S1024x1.size (by sl_kernel_rfl) y
/-- What the middle case leaves in scratch 1. -/
def soutMid_1 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) : Vec F S1024x1 .f32 :=
  VS0_1.read (Elt F) (VS0_1.writes (Elt F) VS0_1.junk (runMid c i arg2 harg2 arg3 harg3 arg4 harg4 arg5 harg5 arg6 harg6 arg7 harg7 hc0 hc1 x0 x1 xs0 xs1 xs2).2.1)
/-- The last case's pieces for scratch 1 cover it. -/
theorem scoverLast_1 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) (y : S1024x1.Idx) :
    ∃ pc ∈ (runLast c i arg2 harg2 arg3 harg3 arg4 harg4 arg5 harg5 arg6 harg6 arg7 harg7 hc0 hc1 x0 x1 xs0 xs1 xs2).2.2.1, y ∈ pc.1.set :=
  View.cover_of_tiledL (runLast c i arg2 harg2 arg3 harg3 arg4 harg4 arg5 harg5 arg6 harg6 arg7 harg7 hc0 hc1 x0 x1 xs0 xs1 xs2).2.2.1 S1024x1.size (by sl_kernel_rfl) y
/-- What the last case leaves in scratch 1. -/
def soutLast_1 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) : Vec F S1024x1 .f32 :=
  VS0_1.read (Elt F) (VS0_1.writes (Elt F) VS0_1.junk (runLast c i arg2 harg2 arg3 harg3 arg4 harg4 arg5 harg5 arg6 harg6 arg7 harg7 hc0 hc1 x0 x1 xs0 xs1 xs2).2.2.1)

/-- The first case's pieces for scratch 2 cover it. -/
theorem scoverFirst_2 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) (y : S1024x1.Idx) :
    ∃ pc ∈ (runFirst c i arg2 harg2 arg3 harg3 arg4 harg4 arg5 harg5 arg6 harg6 arg7 harg7 hc0 hc1 x0 x1).2.2.1, y ∈ pc.1.set :=
  View.cover_of_tiledL (runFirst c i arg2 harg2 arg3 harg3 arg4 harg4 arg5 harg5 arg6 harg6 arg7 harg7 hc0 hc1 x0 x1).2.2.1 S1024x1.size (by sl_kernel_rfl) y
/-- What the first case leaves in scratch 2: its pieces read back. -/
def soutFirst_2 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) : Vec F S1024x1 .f32 :=
  VS0_2.read (Elt F) (VS0_2.writes (Elt F) VS0_2.junk (runFirst c i arg2 harg2 arg3 harg3 arg4 harg4 arg5 harg5 arg6 harg6 arg7 harg7 hc0 hc1 x0 x1).2.2.1)
/-- The middle case's pieces for scratch 2 cover it. -/
theorem scoverMid_2 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) (y : S1024x1.Idx) :
    ∃ pc ∈ (runMid c i arg2 harg2 arg3 harg3 arg4 harg4 arg5 harg5 arg6 harg6 arg7 harg7 hc0 hc1 x0 x1 xs0 xs1 xs2).2.2.1, y ∈ pc.1.set :=
  View.cover_of_tiledL (runMid c i arg2 harg2 arg3 harg3 arg4 harg4 arg5 harg5 arg6 harg6 arg7 harg7 hc0 hc1 x0 x1 xs0 xs1 xs2).2.2.1 S1024x1.size (by sl_kernel_rfl) y
/-- What the middle case leaves in scratch 2. -/
def soutMid_2 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) : Vec F S1024x1 .f32 :=
  VS0_2.read (Elt F) (VS0_2.writes (Elt F) VS0_2.junk (runMid c i arg2 harg2 arg3 harg3 arg4 harg4 arg5 harg5 arg6 harg6 arg7 harg7 hc0 hc1 x0 x1 xs0 xs1 xs2).2.2.1)
/-- The last case's pieces for scratch 2 cover it. -/
theorem scoverLast_2 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) (y : S1024x1.Idx) :
    ∃ pc ∈ (runLast c i arg2 harg2 arg3 harg3 arg4 harg4 arg5 harg5 arg6 harg6 arg7 harg7 hc0 hc1 x0 x1 xs0 xs1 xs2).2.2.2.1, y ∈ pc.1.set :=
  View.cover_of_tiledL (runLast c i arg2 harg2 arg3 harg3 arg4 harg4 arg5 harg5 arg6 harg6 arg7 harg7 hc0 hc1 x0 x1 xs0 xs1 xs2).2.2.2.1 S1024x1.size (by sl_kernel_rfl) y
/-- What the last case leaves in scratch 2. -/
def soutLast_2 (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) : Vec F S1024x1 .f32 :=
  VS0_2.read (Elt F) (VS0_2.writes (Elt F) VS0_2.junk (runLast c i arg2 harg2 arg3 harg3 arg4 harg4 arg5 harg5 arg6 harg6 arg7 harg7 hc0 hc1 x0 x1 xs0 xs1 xs2).2.2.2.1)

/-- The last case's pieces for the output window cover its block. -/
theorem coverLast_out (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) (y : S1024.Idx) :
    ∃ pc ∈ (runLast c i arg2 harg2 arg3 harg3 arg4 harg4 arg5 harg5 arg6 harg6 arg7 harg7 hc0 hc1 x0 x1 xs0 xs1 xs2).1, y ∈ pc.1.set :=
  View.cover_of_tiledL (runLast c i arg2 harg2 arg3 harg3 arg4 harg4 arg5 harg5 arg6 harg6 arg7 harg7 hc0 hc1 x0 x1 xs0 xs1 xs2).1 S1024.size (by sl_kernel_rfl) y
/-- What the last case leaves in the output window's staging buffer: the row results. -/
def outLast (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) : Vec F S1024 .f32 :=
  VO0_2.read (Elt F) (VO0_2.writes (Elt F) VO0_2.junk (runLast c i arg2 harg2 arg3 harg3 arg4 harg4 arg5 harg5 arg6 harg6 arg7 harg7 hc0 hc1 x0 x1 xs0 xs1 xs2).1)
/-- Where the body stores nothing into the output window: a placeholder nothing consults (the window is neither
    written back nor read there). -/
def outIdle : Vec F S1024 .f32 := VO0_2.read (Elt F) VO0_2.junk

/-! ## What the buffers hold after each point -/

/-- THE RECURSION. After the body at position n: the output window's staging buffer, then the three scratch buffers.
    The case is the one the closed forms select at n; the middle and last cases compute over what position n − 1
    left in the scratch. -/
def outsAt0 (c : Dev nD) : (n : ℕ) → n < cfg0.N → Vec F S1024 .f32 × Vec F S1024x1 .f32 × Vec F S1024x1 .f32 × Vec F S1024x1 .f32
  | 0, hn => (outIdle, soutFirst_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), soutFirst_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), soutFirst_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 16 = 0 then
      if h1 : (n + 1) % 16 = 15 then
        False.elim (by omega)
      else
        (outIdle, soutFirst_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), soutFirst_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), soutFirst_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 16 = 15 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, soutLast_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, soutLast_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, soutLast_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (outIdle, soutMid_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, soutMid_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, soutMid_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

/-- At a point of the first case. -/
theorem outsAt0_First (c : Dev nD) (t : Fin cfg0.N) (h0 : t.val % 16 = 0) (h1 : ¬t.val % 16 = 15) :
    outsAt0 m c t.val t.isLt = (outIdle, soutFirst_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), soutFirst_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), soutFirst_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- At a point of the middle case: over what the point before left. -/
theorem outsAt0_Mid (c : Dev nD) (t : Fin cfg0.N) (h0 : ¬t.val % 16 = 0) (h1 : ¬t.val % 16 = 15) :
    outsAt0 m c t.val t.isLt = (outIdle, soutMid_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, soutMid_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, soutMid_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a point of the last case: over what the point before left. -/
theorem outsAt0_Last (c : Dev nD) (t : Fin cfg0.N) (h0 : ¬t.val % 16 = 0) (h1 : t.val % 16 = 15) :
    outsAt0 m c t.val t.isLt = (outLast c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, soutLast_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, soutLast_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, soutLast_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point every scratch at anything; afterwards each
    scratch at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the region finds them; after the body each input's buffer at its block and the output's at the
    recursion's first component; the invariant above; nothing owed. The two input windows read ONE array: each holds
    it at half the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point. The inputs' memrefs hold their blocks; the closed forms say which case the point is in;
    the invariant hands the body the scratch at what the point before left (at anything at the very first point)
    and takes it back at this point's contents; where the output window is idle its buffer goes back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    · -- first case
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_First m c t h0 h1]
      unfold soutFirst_0 soutFirst_1 soutFirst_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩⟩
        iapply ((runFirst c (grid0.coords t) _ _ _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverFirst_0 c _ _ _ _ _ _ _ _ _ _ _ _ _ _ _ _ _ )
            isplitl [HS1]
            · unfold owns; iexists _; isplitr
              swap; · iexact HS1
              ipureintro; exact View.read_writes_of_cover _ _ _ _ _ (scoverFirst_1 c _ _ _ _ _ _ _ _ _ _ _ _ _ _ _ _ _ )
            unfold owns; iexists _; isplitr
            swap; · iexact HS2
            ipureintro; exact View.read_writes_of_cover _ _ _ _ _ (scoverFirst_2 c _ _ _ _ _ _ _ _ _ _ _ _ _ _ _ _ _ )
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((runFirst c (grid0.coords t) _ _ _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverFirst_0 c _ _ _ _ _ _ _ _ _ _ _ _ _ _ _ _ _ )
            isplitl [HS1]
            · unfold owns; iexists _; isplitr
              swap; · iexact HS1
              ipureintro; exact View.read_writes_of_cover _ _ _ _ _ (scoverFirst_1 c _ _ _ _ _ _ _ _ _ _ _ _ _ _ _ _ _ )
            unfold owns; iexists _; isplitr
            swap; · iexact HS2
            ipureintro; exact View.read_writes_of_cover _ _ _ _ _ (scoverFirst_2 c _ _ _ _ _ _ _ _ _ _ _ _ _ _ _ _ _ )
          iexact Hg
        isplitl [Ho]; · iexact Ho
        isplitl [H0]; · iexact H0
        isplitl [H1]; · iexact H1
        iexists _; iexact H2
  · have hz : t.val ≠ 0 := fun hz => h0 (by rw [hz])
    by_cases h1 : t.val % 16 = 15
    · -- last case
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_Last m c t h0 h1]
      unfold outLast soutLast_0 soutLast_1 soutLast_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((runLast c (grid0.coords t) _ _ _ _ _ _ _ _ _ _ _ _ (fun h => h0 ((hcond0_0 t).mp h)) ((hcond0_1 t).mpr h1) (iblk m c 0 t) (iblk m c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverLast_0 c _ _ _ _ _ _ _ _ _ _ _ _ _ _ _ _ _ _ _ _ )
          isplitl [HS1]
          · unfold owns; iexists _; isplitr
            swap; · iexact HS1
            ipureintro; exact View.read_writes_of_cover _ _ _ _ _ (scoverLast_1 c _ _ _ _ _ _ _ _ _ _ _ _ _ _ _ _ _ _ _ _ )
          unfold owns; iexists _; isplitr
          swap; · iexact HS2
          ipureintro; exact View.read_writes_of_cover _ _ _ _ _ (scoverLast_2 c _ _ _ _ _ _ _ _ _ _ _ _ _ _ _ _ _ _ _ _ )
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast_out c _ _ _ _ _ _ _ _ _ _ _ _ _ _ _ _ _ _ _ _ )
    · -- middle case
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_Mid m c t h0 h1]
      unfold soutMid_0 soutMid_1 soutMid_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩⟩
      iapply ((runMid c (grid0.coords t) _ _ _ _ _ _ _ _ _ _ _ _ (fun h => h0 ((hcond0_0 t).mp h)) (fun h => h1 ((hcond0_1 t).mp h)) (iblk m c 0 t) (iblk m c 1 t) _ _ _).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverMid_0 c _ _ _ _ _ _ _ _ _ _ _ _ _ _ _ _ _ _ _ _ )
          isplitl [HS1]
          · unfold owns; iexists _; isplitr
            swap; · iexact HS1
            ipureintro; exact View.read_writes_of_cover _ _ _ _ _ (scoverMid_1 c _ _ _ _ _ _ _ _ _ _ _ _ _ _ _ _ _ _ _ _ )
          unfold owns; iexists _; isplitr
          swap; · iexact HS2
          ipureintro; exact View.read_writes_of_cover _ _ _ _ _ (scoverMid_2 c _ _ _ _ _ _ _ _ _ _ _ _ _ _ _ _ _ _ _ _ )
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back, its named contents forgotten. -/
theorem hout (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

end Cert.KernelIdeal.Hand

end
-- ==== Proof.Ideal.Launch.lean ====
/-
  The launch of the idealized kernel's program: @main's host lines, the region, the host lines after it.

  The two input windows read ONE array. Its full share is split in two halves, one per window, for the length of
  the region; inputs are never written, so both halves come back at the contents the region found. The lines
  after the region read the output array and buffers that bypass the region, never the shared array, so they run
  holding everything but it. The result: every weakly fair execution terminates, the result buffer holds what
  the lines after the region compute from the output array's final contents, and the arguments are unchanged.
-/
import proofs.«136477_j12128987644289_1_alg».proof.Proof.Ideal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The arrays behind the windows -/

theorem image_arr : (Finset.univ.image (arrRef spec0) : Finset (Ref sig .tc)) = {main_v19, main_v20} := by decide

/-- The unscoped buffers that are no window's array. -/
abbrev restSet : Finset (Ref sig .tc) := (Finset.univ.filter fun b : Ref sig .tc => ¬ b.isScoped) \ Finset.univ.image (arrRef spec0)

/-! ## Dealing the shared array to the two input windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The pipeline's arrays at contents F, window by window. -/
theorem arrays_eq3 (c : Dev nD) (Fw : (w : Fin cfg0.W) → Buf (Elt F) ((cfg0.win w).arr.view.loc (c.tc : Thread nD τ))) :
    ((dats m 0 c).arrays Fw : sProp 𝕄)
      = iprop((((c.tc : Thread nD τ).loc main_v19) ↦{fullShare.left} Fw 0) ∗ (((c.tc : Thread nD τ).loc main_v19) ↦{fullShare.right} Fw 1)
          ∗ (((c.tc : Thread nD τ).loc main_v20) ↦{fullShare} Fw 2)) := by
  unfold Dat.arrays
  rw [bigSep_W0]
  rw [(arr_whole0 0).set_eq_univ, (arr_whole0 2).set_eq_univ, share0, share1, share2]

/-- The buffers behind the arrays, each whole at the region-entry contents, make the pipeline's arrays at entry. -/
theorem hsplit (c : Dev nD) : (arrBufs spec0 c (V m c) : sProp 𝕄) ⊢ (dats m 0 c).arrays ((dats m 0 c).arrAt · 0) := by
  rw [arrays_eq3]
  unfold arrBufs
  have e : ∀ Φ : Ref sig .tc → sProp 𝕄, bigSep ({main_v19, main_v20} : Finset (Ref sig .tc)) Φ = iprop(Φ main_v19 ∗ Φ main_v20) := fun Φ => by
    rw [bigSep_insert (by decide), bigSep_singleton]; rfl
  rw [image_arr, e]
  iintro ⟨H19, H20⟩
  ihave H := (pointsTo_share (PosShare.mem_left_op_right fullShare)).1 $$ H19
  icases H with ⟨Hl, Hr⟩
  isplitl [Hl]; · iexact Hl
  isplitl [Hr]; · iexact Hr
  iexact H20

/-! ## The contents after the region and after the lines that follow it -/

/-- After the region: the output array at its final contents, every other buffer as the region found it. -/
def exitW (c : Dev nD) : Valuation τ sig (Elt F) := fun b =>
  if h : Proc.devRef .tc main_v20 = b then
    cast (congrArg (fun b' : DevRef τ sig => b'.ty.Contents (Elt F)) h) ((dats m 0 c).arrAt 2 cfg0.N)
  else V0 m c b

theorem exitW_out (c : Dev nD) : exitW m c (Proc.devRef .tc main_v20) = (dats m 0 c).arrAt 2 cfg0.N := by
  unfold exitW; rw [dif_pos rfl]; rfl

theorem exitW_of_ne (c : Dev nD) (b : Ref sig .tc) (hb : main_v20 ≠ b) : exitW m c (Proc.devRef .tc b) = V0 m c (Proc.devRef .tc b) := by
  unfold exitW; rw [dif_neg fun e => hb (Proc.devRef_injective _ e)]

/-- After the lines that follow the region. -/
abbrev finW (c : Dev nD) : Valuation τ sig (Elt F) := StableHlo.after hostOps1 (exitW m c)

/-- The buffers those lines may touch: every unscoped buffer but the array the two input windows share. -/
abbrev tailSet : Finset (DevRef τ sig) := (insert main_v20 restSet).map ⟨Proc.devRef (sig := sig) .tc, Proc.devRef_injective _⟩

theorem v20_not_rest : main_v20 ∉ restSet := by decide

/-- Held at a valuation W, that set is the output array and the bypassing buffers at W. -/
theorem held_tailSet (c : Dev nD) (W : Valuation τ sig (Elt F)) :
    (StableHlo.held (c.tc : Thread nD τ) tailSet W : sProp 𝕄)
      = iprop((((c.tc : Thread nD τ).loc main_v20) ↦{fullShare} W (Proc.devRef .tc main_v20))
          ∗ bigSep restSet fun b => ((c.tc : Thread nD τ).loc b) ↦{fullShare} W (Proc.devRef .tc b)) := by
  unfold StableHlo.held tailSet
  rw [bigSep_map, bigSep_insert v20_not_rest]
  rfl

/-- Each of those lines names only such buffers. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl | rfl | rfl | rfl | rfl
  all_goals
    intro b hb
    simp only [StableHlo.nullary_bufs, StableHlo.unary_bufs, StableHlo.binary_bufs, Finset.mem_insert, Finset.mem_singleton] at hb
    rcases hb with rfl | rfl | rfl <;> exact Finset.mem_map.mpr ⟨_, by decide, rfl⟩

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-! ## What the lines around the region keep -/

/-- The lines before the region leave the argument arrays as they were. -/
theorem V0_arg0 (c : Dev nD) : V0 m c (Proc.devRef .tc main_arg0) = m ((c : Thread nD τ).loc main_arg0) := by
  show StableHlo.after hostOps0 (fun b => m (c, b)) (Proc.devRef .tc main_arg0) = _
  after_results
theorem V0_arg1 (c : Dev nD) : V0 m c (Proc.devRef .tc main_arg1) = m ((c : Thread nD τ).loc main_arg1) := by
  show StableHlo.after hostOps0 (fun b => m (c, b)) (Proc.devRef .tc main_arg1) = _
  after_results

/-- The lines after the region write neither argument array nor the output array. -/
theorem tail_keeps (b : Ref sig .tc) (hb : b = main_arg0 ∨ b = main_arg1 ∨ b = main_v20) :
    ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl | rfl | rfl | rfl | rfl | rfl | rfl
  all_goals
    simp only [StableHlo.nullary_writes, StableHlo.unary_writes, StableHlo.binary_writes, Finset.mem_singleton]
    rcases hb with rfl | rfl | rfl <;> exact StableHlo.devRef_ne_of_ne (by decide)

theorem finW_arg0 (c : Dev nD) : finW m c (Proc.devRef .tc main_arg0) = m ((c : Thread nD τ).loc main_arg0) := by
  rw [show finW m c (Proc.devRef .tc main_arg0) = exitW m c (Proc.devRef .tc main_arg0) from
    StableHlo.after_of_forall_not_mem _ _ (tail_keeps main_arg0 (.inl rfl)), exitW_of_ne m c main_arg0 (by decide), V0_arg0]
theorem finW_arg1 (c : Dev nD) : finW m c (Proc.devRef .tc main_arg1) = m ((c : Thread nD τ).loc main_arg1) := by
  rw [show finW m c (Proc.devRef .tc main_arg1) = exitW m c (Proc.devRef .tc main_arg1) from
    StableHlo.after_of_forall_not_mem _ _ (tail_keeps main_arg1 (.inr (.inl rfl))), exitW_of_ne m c main_arg1 (by decide), V0_arg1]
theorem finW_out (c : Dev nD) : finW m c (Proc.devRef .tc main_v20) = (dats m 0 c).arrAt 2 cfg0.N := by
  rw [show finW m c (Proc.devRef .tc main_v20) = exitW m c (Proc.devRef .tc main_v20) from
    StableHlo.after_of_forall_not_mem _ _ (tail_keeps main_v20 (.inr (.inr rfl))), exitW_out]

/-! ## The lines after the region, from the region's exit -/

/-- The bypassing buffers at the contents after the lines. -/
abbrev restFin (c : Dev nD) : sProp 𝕄 := bigSep restSet fun b => ((c.tc : Thread nD τ).loc b) ↦{fullShare} finW m c (Proc.devRef .tc b)

set_option maxHeartbeats 4000000 in
set_option backward.isDefEq.respectTransparency.types false in
/-- From the region's exit — the boundary, the arrays at their final contents, the bypassing buffers as the region
    found them — the lines run holding the output array and the bypassing buffers, and hand back the arrays as they
    were and the bypassing buffers at the lines' results. -/
theorem htail (c : Dev nD) (Q' : PUnit → sProp 𝕄) :
    iprop((iprop((dats m 0 c).arrays ((dats m 0 c).arrAt · cfg0.N) ∗ restFin m c) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Prefetch.none spec0 c (V m c))
      ⊢ wp frame (wpE (Pipeline.defs (fun q => (cfgs q).toPCfg (Val := Elt F)) defs₀) (Variants.lift Variants.none) (c.tc : Thread nD τ) none) Set.univ
          (chain [StableHlo.seq hostOps1]) Q' := by
  have hW : (StableHlo.held (c.tc : Thread nD τ) tailSet (exitW m c) : sProp 𝕄)
      = iprop((((c.tc : Thread nD τ).loc main_v20) ↦{fullShare} (dats m 0 c).arrAt 2 cfg0.N)
          ∗ bigSep restSet fun b => ((c.tc : Thread nD τ).loc b) ↦{fullShare} V m c b) := by
    have hrest : (bigSep restSet fun b => ((c.tc : Thread nD τ).loc b) ↦{fullShare} exitW m c (Proc.devRef .tc b) : sProp 𝕄)
        = bigSep restSet fun b => ((c.tc : Thread nD τ).loc b) ↦{fullShare} V m c b :=
      bigSep_congr fun b hb => by rw [exitW_of_ne m c b (fun e => v20_not_rest (e ▸ hb))]
    rw [held_tailSet, exitW_out, hrest]
  have hW' : (StableHlo.held (c.tc : Thread nD τ) tailSet (StableHlo.after ([hostOps1] : List (List (HloOp τ sig (Elt F)))).flatten (exitW m c)) : sProp 𝕄)
      = iprop((((c.tc : Thread nD τ).loc main_v20) ↦{fullShare} (dats m 0 c).arrAt 2 cfg0.N) ∗ restFin m c) := by
    show (StableHlo.held (c.tc : Thread nD τ) tailSet (finW m c) : sProp 𝕄) = _
    rw [held_tailSet, finW_out]
  rw [arrays_eq3, unscopedRestP_none]
  unfold unscopedRest
  rw [show (chain [StableHlo.seq hostOps1] : Prog _ PUnit) = chain (([hostOps1] : List (List (HloOp τ sig (Elt F)))).map StableHlo.seq ++ []) from rfl]
  iintro ⟨Hk, Hb, ⟨Hl, Hr, H20⟩, HZ⟩
  ihave Hh : (StableHlo.held (c.tc : Thread nD τ) tailSet (exitW m c) : sProp 𝕄) $$ [H20 HZ]
  · rw [hW]; isplitl [H20] <;> iassumption
  iapply (wp_seqs_then (fun q => (cfgs q).toPCfg (Val := Elt F)) defs₀ Variants.none c tailSet [] [hostOps1] tail_sub tail_fresh (exitW m c)) $$ [Hb Hh]
  · isplitl [Hb] <;> iassumption
  iintro Hb
  rw [chain_nil, wp_pure, hW']
  imodintro
  iapply Hk
  icases Hb with ⟨-, ⟨H20, HZ⟩⟩
  isplitl [Hl Hr H20]
  · isplitl [Hl]; · iexact Hl
    isplitl [Hr]; · iexact Hr
    iexact H20
  iexact HZ

/-! ## The run -/

set_option maxHeartbeats 4000000 in
set_option backward.isDefEq.respectTransparency.types false in
/-- Every weakly fair execution of @main terminates; the result buffer ends at what the lines after the region
    compute from the region's exit, and the argument arrays end unchanged. -/
theorem run_main : θ_run defs (onTc (τ := τ) (main (F := F))) ⟨m, fun _ => 0, ρ⟩ (fun r => ∀ c : Dev nD,
      r.2.mem ((c.tc : Thread nD τ).loc main_v28) = finW m c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact θ_run_region_pf_tail (fun q => (cfgs q).toPCfg (Val := Elt F)) (fun q => (cfgs q).toPCfg_adm) (dats m) () cellOf_inj 0 winFacts₀0
    (OwnSemFacts.none spec0) (PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => restFin m c)
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [ownSems0_none]; unfold ΦA
      iintro ⟨Hr, Hp⟩
      isplitl [Hp]; · iexact Hp
      isplitr; · iempintro
      iexact Hr))
    (htail := fun c Q' => htail m c Q')
    (QY := fun c s => ∀ b ∈ restSet, s.mem ((c.tc : Thread nD τ).loc b) = finW m c (Proc.devRef .tc b))
    (hY := fun c s' => by
      iintro ⟨-, HU, HSI⟩
      imodintro
      iapply (pointsTo_read_all restSet (fun b => (c.tc : Thread nD τ).loc b) (fun b => finW m c (Proc.devRef .tc b)) s')
      isplitl [HU] <;> iassumption)
    (hQ := fun s h c => ⟨(h c).2.2 main_v28 (by decide),
      ((h c).2.2 main_arg0 (by decide)).trans (finW_arg0 m c),
      ((h c).2.2 main_arg1 (by decide)).trans (finW_arg1 m c)⟩)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.Spec.lean ====
/-
  The mathematics both programs compute, stated once over the extended reals.

  A score matrix s over 8192 rows and columns (pairwise scaled cosine similarities). Row r of the result is

      ∑_{k ≠ r} ( s r k − M_r − log Z_r ),   M_r = max_{k ≠ r} s r k,   Z_r = ∑_{k ≠ r} exp (s r k − M_r),

  the sum over the off-diagonal entries of the row-wise log-softmax of s with its diagonal at −∞. The reference
  computes it in that form (the diagonal masked to −∞ before the softmax and to 0 after it). The kernel walks the
  columns in 16 blocks of 512, keeping a running maximum m, a sum of exponentials l rescaled to the running
  maximum, and the plain sum rs of the off-diagonal scores, and ends with rs − 8191·m − 8191·log l.
  The two agree when every score is a real number: the rescaling telescopes (exp a · exp b = exp (a + b)), the
  first block starts from m = −∞, l = 0 where exp (−∞ − m') · 0 = 0, and the last line is distributivity over the
  8191 off-diagonal entries, every term being real.
-/
import Idealize.ShloMosaic.PureOps.Ideal
import Mathlib.Data.EReal.Operations
import Mathlib.Data.Finset.Lattice.Fold
import Mathlib.Analysis.SpecialFunctions.Log.Basic
import Mathlib.Algebra.BigOperators.Group.Finset.Basic
import Mathlib.Algebra.Order.BigOperators.Group.Finset
import Mathlib.Data.Fintype.Card
import Mathlib.Tactic.Ring
import Mathlib.Tactic.Linarith

noncomputable section

namespace Cert.Spec

open Idealize.ShloMosaic

/-- Rows and columns of the score matrix. -/
abbrev R : Type := Fin 8192

/-- Column 512·j + q: the q-th column of column block j. -/
def col (j : Fin 16) (q : Fin 512) : R := ⟨512 * j.val + q.val, by have := j.isLt; have := q.isLt; omega⟩

/-- The masked scores of row r: the diagonal entry is −∞. -/
def msk (s : R → R → EReal) (r k : R) : EReal := if k = r then ⊥ else s r k

/-! ## The reference's form -/

/-- The row maximum of the masked scores. -/
def rowMax (s : R → R → EReal) (r : R) : EReal := Finset.univ.sup (msk s r)

/-- The row's sum of exponentials of the masked scores shifted by the row maximum. -/
def rowZ (s : R → R → EReal) (r : R) : EReal := ∑ k : R, Ideal.exp (msk s r k - rowMax s r)

/-- Row r of the reference: the off-diagonal log-softmax entries summed, the diagonal counted as 0. -/
def rowRef (s : R → R → EReal) (r : R) : EReal :=
  ∑ k : R, if k = r then (0 : EReal) else (msk s r k - rowMax s r) - Ideal.log (rowZ s r)

/-! ## The kernel's form -/

/-- The running quantities of a row: maximum, rescaled sum of exponentials, plain sum. -/
structure St where
  m : EReal
  l : EReal
  rs : EReal

/-- Before the first column block. -/
def init : St := ⟨⊥, 0, 0⟩

/-- The maximum of the masked scores of row r over column block j. -/
def blkMax (s : R → R → EReal) (r : R) (j : Fin 16) : EReal := Finset.univ.sup fun q : Fin 512 => msk s r (col j q)

/-- One column block: the new maximum, the old sum rescaled to it plus this block's exponentials, the plain sum
    plus this block's off-diagonal scores. -/
def step (s : R → R → EReal) (r : R) (j : Fin 16) (σ : St) : St :=
  ⟨max σ.m (blkMax s r j),
   Ideal.exp (σ.m - max σ.m (blkMax s r j)) * σ.l + ∑ q : Fin 512, Ideal.exp (msk s r (col j q) - max σ.m (blkMax s r j)),
   σ.rs + ∑ q : Fin 512, (if col j q = r then (0 : EReal) else s r (col j q))⟩

/-- The running quantities after the first n column blocks (n ≤ 16; beyond that it stays). -/
def run (s : R → R → EReal) (r : R) : ℕ → St
  | 0 => init
  | n + 1 => if h : n < 16 then step s r ⟨n, h⟩ (run s r n) else run s r n

/-- Row r of the kernel: from the running quantities after all 16 blocks. -/
def rowKer (s : R → R → EReal) (r : R) : EReal :=
  ((run s r 16).rs - ((8191 : ℝ) : EReal) * (run s r 16).m) - ((8191 : ℝ) : EReal) * Ideal.log (run s r 16).l

/-! ## Extended-real arithmetic used below -/

/-- The inclusion of the reals into the extended reals commutes with finite sums. -/
theorem coe_sum {ι : Type*} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- An exponential is never negative. -/
theorem exp_nonneg (a : EReal) : 0 ≤ Ideal.exp a := by
  induction a using EReal.rec with
  | bot => rw [Ideal.exp_bot]
  | coe x => rw [Ideal.exp_coe]; exact EReal.coe_nonneg.mpr (Real.exp_pos x).le
  | top => rw [Ideal.exp_top]; exact le_top

/-- Over the extended reals multiplication distributes over a finite sum of nonnegative terms. -/
theorem mul_sum_nonneg {ι : Type*} (c : EReal) (S : Finset ι) (f : ι → EReal) (hf : ∀ k ∈ S, 0 ≤ f k) :
    c * ∑ k ∈ S, f k = ∑ k ∈ S, c * f k := by
  classical
  induction S using Finset.induction_on with
  | empty => simp
  | insert a S ha ih =>
    rw [Finset.sum_insert ha, Finset.sum_insert ha,
      EReal.left_distrib_of_nonneg (hf a (Finset.mem_insert_self a S))
        (Finset.sum_nonneg fun k hk => hf k (Finset.mem_insert_of_mem hk)),
      ih fun k hk => hf k (Finset.mem_insert_of_mem hk)]

/-- Rescaling an exponential from one maximum m to a later one m': exp (m − m') · exp (a − m) = exp (a − m'),
    for a ≤ m ≤ m' < ∞. At a = −∞ both sides are 0; otherwise all three are real and it is exp's addition law. -/
theorem exp_rescale (a m m' : EReal) (h1 : a ≤ m) (h2 : m ≤ m') (h3 : m' ≠ ⊤) :
    Ideal.exp (m - m') * Ideal.exp (a - m) = Ideal.exp (a - m') := by
  induction a using EReal.rec with
  | bot => rw [EReal.bot_sub, EReal.bot_sub, Ideal.exp_bot, mul_zero]
  | coe x =>
    have hm_top : m ≠ ⊤ := fun h => h3 (top_le_iff.mp (h ▸ h2))
    have hm_bot : m ≠ ⊥ := fun h => EReal.coe_ne_bot x (le_bot_iff.mp (h ▸ h1))
    have hm'_bot : m' ≠ ⊥ := fun h => hm_bot (le_bot_iff.mp (h ▸ h2))
    lift m to ℝ using ⟨hm_top, hm_bot⟩
    lift m' to ℝ using ⟨h3, hm'_bot⟩
    rw [← EReal.coe_sub, ← EReal.coe_sub, ← EReal.coe_sub, Ideal.exp_coe, Ideal.exp_coe, Ideal.exp_coe,
      ← EReal.coe_mul, ← Real.exp_add]
    congr 2; ring
  | top => exact absurd (top_le_iff.mp (h1.trans h2)) h3

/-! ## The columns walked so far -/

/-- Within a block the column number determines the position. -/
theorem col_injective (j : Fin 16) : Function.Injective (col j) := by
  intro q q' h
  have h' : 512 * j.val + q.val = 512 * j.val + q'.val := congrArg Fin.val h
  exact Fin.ext (by omega)

/-- The columns of block j. -/
def blkCols (j : Fin 16) : Finset R := Finset.univ.map ⟨col j, col_injective j⟩

/-- The columns of the first n blocks: those numbered below 512·n. -/
def firstCols (n : ℕ) : Finset R := Finset.univ.filter fun k : R => k.val < 512 * n

theorem firstCols_zero : firstCols 0 = ∅ := by
  apply Finset.filter_false_of_mem
  intro k _
  omega

theorem firstCols_all : firstCols 16 = Finset.univ := by
  apply Finset.filter_true_of_mem
  intro k _
  have := k.isLt
  omega

theorem mem_blkCols (j : Fin 16) (k : R) : k ∈ blkCols j ↔ 512 * j.val ≤ k.val ∧ k.val < 512 * j.val + 512 := by
  constructor
  · intro h
    obtain ⟨q, -, rfl⟩ := Finset.mem_map.mp h
    have := q.isLt
    show 512 * j.val ≤ 512 * j.val + q.val ∧ 512 * j.val + q.val < 512 * j.val + 512
    omega
  · intro h
    refine Finset.mem_map.mpr ⟨⟨k.val - 512 * j.val, by omega⟩, Finset.mem_univ _, ?_⟩
    apply Fin.ext
    show 512 * j.val + (k.val - 512 * j.val) = k.val
    omega

/-- The first n + 1 blocks are the first n blocks and block n. -/
theorem firstCols_succ (n : ℕ) (h : n < 16) : firstCols (n + 1) = firstCols n ∪ blkCols ⟨n, h⟩ := by
  ext k
  rw [Finset.mem_union, mem_blkCols]
  simp only [firstCols, Finset.mem_filter, Finset.mem_univ, true_and]
  omega

theorem firstCols_disjoint (n : ℕ) (h : n < 16) : Disjoint (firstCols n) (blkCols ⟨n, h⟩) := by
  rw [Finset.disjoint_left]
  intro k hk hk'
  rw [mem_blkCols] at hk'
  simp only [firstCols, Finset.mem_filter, Finset.mem_univ, true_and] at hk
  have hk'' : 512 * n ≤ k.val := hk'.1
  omega

/-- A sum over the positions of a block is the sum over the block's columns. -/
theorem sum_blk (j : Fin 16) (F : R → EReal) : ∑ q : Fin 512, F (col j q) = ∑ k ∈ blkCols j, F k := by
  rw [blkCols, Finset.sum_map]
  rfl

/-- A block's maximum is the maximum over the block's columns. -/
theorem blkMax_eq (s : R → R → EReal) (r : R) (j : Fin 16) : blkMax s r j = (blkCols j).sup (msk s r) := by
  rw [blkCols, Finset.sup_map]
  rfl

/-! ## What the running quantities are after n blocks -/

/-- After n blocks the running maximum is the maximum of the masked scores over the columns walked, the running
    sum of exponentials is their sum shifted by that maximum, and the running plain sum is the sum of the
    off-diagonal scores walked. Before the first block the three read −∞, 0 (an empty sum), 0. -/
structure Inv (s : R → R → EReal) (r : R) (n : ℕ) : Prop where
  m : (run s r n).m = (firstCols n).sup (msk s r)
  l : (run s r n).l = ∑ k ∈ firstCols n, Ideal.exp (msk s r k - (firstCols n).sup (msk s r))
  rs : (run s r n).rs = ∑ k ∈ firstCols n, if k = r then (0 : EReal) else s r k

/-- A masked score is never +∞ when the scores are real. -/
theorem msk_ne_top (s : R → R → EReal) (hs : ∀ r k, ∃ x : ℝ, s r k = (x : EReal)) (r k : R) : msk s r k ≠ ⊤ := by
  unfold msk
  split_ifs
  · exact bot_ne_top
  · obtain ⟨x, hx⟩ := hs r k
    rw [hx]
    exact EReal.coe_ne_top x

/-- A maximum of masked scores is never +∞ when the scores are real. -/
theorem sup_msk_ne_top (s : R → R → EReal) (hs : ∀ r k, ∃ x : ℝ, s r k = (x : EReal)) (r : R) (S : Finset R) :
    S.sup (msk s r) ≠ ⊤ :=
  ((Finset.sup_lt_iff bot_lt_top).mpr fun k _ => lt_top_iff_ne_top.mpr (msk_ne_top s hs r k)).ne

theorem inv_run (s : R → R → EReal) (hs : ∀ r k, ∃ x : ℝ, s r k = (x : EReal)) (r : R) :
    ∀ n, n ≤ 16 → Inv s r n := by
  intro n
  induction n with
  | zero =>
    intro _
    refine ⟨?_, ?_, ?_⟩ <;> simp [run, init, firstCols_zero]
  | succ n ih =>
    intro hn1
    have hn : n < 16 := by omega
    obtain ⟨hm, hl, hrs⟩ := ih (by omega)
    have hrun : run s r (n + 1) = step s r ⟨n, hn⟩ (run s r n) := by
      simp only [run, hn, dite_true]
    have hmax : max (run s r n).m (blkMax s r ⟨n, hn⟩) = (firstCols (n + 1)).sup (msk s r) := by
      rw [hm, blkMax_eq, firstCols_succ n hn, Finset.sup_union]
    have hle : (firstCols n).sup (msk s r) ≤ (firstCols (n + 1)).sup (msk s r) := by
      rw [← hmax, hm]
      exact le_max_left _ _
    refine ⟨?_, ?_, ?_⟩
    · rw [hrun]
      exact hmax
    · rw [hrun]
      show Ideal.exp ((run s r n).m - max (run s r n).m (blkMax s r ⟨n, hn⟩)) * (run s r n).l
          + ∑ q : Fin 512, Ideal.exp (msk s r (col ⟨n, hn⟩ q) - max (run s r n).m (blkMax s r ⟨n, hn⟩)) = _
      rw [hmax, hm, hl, sum_blk ⟨n, hn⟩ fun k => Ideal.exp (msk s r k - (firstCols (n + 1)).sup (msk s r)),
        mul_sum_nonneg _ _ _ fun k _ => exp_nonneg _]
      rw [Finset.sum_congr rfl fun k hk =>
        exp_rescale (msk s r k) _ _ (Finset.le_sup hk) hle (sup_msk_ne_top s hs r _)]
      rw [← Finset.sum_union (firstCols_disjoint n hn), ← firstCols_succ n hn]
    · rw [hrun]
      show (run s r n).rs + ∑ q : Fin 512, (if col ⟨n, hn⟩ q = r then (0 : EReal) else s r (col ⟨n, hn⟩ q)) = _
      rw [hrs, sum_blk ⟨n, hn⟩ fun k => if k = r then (0 : EReal) else s r k, firstCols_succ n hn,
        Finset.sum_union (firstCols_disjoint n hn)]

/-! ## The last line -/

/-- Subtracting a constant from each of the 8191 off-diagonal entries subtracts it 8191 times from their sum. -/
theorem sum_offdiag (r : R) (x : R → ℝ) (c : ℝ) :
    ∑ k : R, (if k = r then (0 : ℝ) else x k - c) = (∑ k : R, if k = r then (0 : ℝ) else x k) - 8191 * c := by
  have h : ∀ k : R, (if k = r then (0 : ℝ) else x k - c)
      = (if k = r then (0 : ℝ) else x k) - c + (if k = r then c else 0) := by
    intro k
    split_ifs <;> ring
  rw [Finset.sum_congr rfl fun k _ => h k, Finset.sum_add_distrib, Finset.sum_sub_distrib, Finset.sum_const,
    Finset.sum_ite_eq', Finset.card_univ, Fintype.card_fin]
  simp only [Finset.mem_univ, if_true, nsmul_eq_mul]
  push_cast
  ring

/-- THE LAW. For real scores the kernel's row is the reference's row. -/
theorem rowKer_eq_rowRef (s : R → R → EReal) (hs : ∀ r k, ∃ x : ℝ, s r k = (x : EReal)) (r : R) :
    rowKer s r = rowRef s r := by
  obtain ⟨hm, hl, hrs⟩ := inv_run s hs r 16 le_rfl
  rw [firstCols_all] at hm hl hrs
  choose x hx using hs r
  -- a column off the diagonal: its score is real, so the row maximum is real and the sum of exponentials positive
  obtain ⟨k0, hk0⟩ := exists_ne r
  have hmsk : ∀ k, msk s r k = if k = r then ⊥ else (x k : EReal) := by
    intro k
    unfold msk
    split_ifs
    · rfl
    · exact hx k
  have hM_top : rowMax s r ≠ ⊤ := sup_msk_ne_top s hs r _
  have hM_bot : rowMax s r ≠ ⊥ := by
    intro h
    have hle : msk s r k0 ≤ rowMax s r := Finset.le_sup (Finset.mem_univ k0)
    rw [h, hmsk, if_neg hk0] at hle
    exact EReal.coe_ne_bot _ (le_bot_iff.mp hle)
  obtain ⟨M, hM⟩ : ∃ M : ℝ, rowMax s r = (M : EReal) := ⟨_, (EReal.coe_toReal hM_top hM_bot).symm⟩
  have hterm : ∀ k, Ideal.exp (msk s r k - rowMax s r)
      = ((if k = r then 0 else Real.exp (x k - M) : ℝ) : EReal) := by
    intro k
    rw [hmsk, hM]
    split_ifs
    · rw [EReal.bot_sub, Ideal.exp_bot, EReal.coe_zero]
    · rw [← EReal.coe_sub, Ideal.exp_coe]
  obtain ⟨L, hZ, hLpos⟩ : ∃ L : ℝ, rowZ s r = (L : EReal) ∧ 0 < L := by
    refine ⟨∑ k : R, if k = r then 0 else Real.exp (x k - M), ?_, ?_⟩
    · rw [coe_sum]
      exact Finset.sum_congr rfl fun k _ => hterm k
    · apply Finset.sum_pos'
      · intro k _
        split_ifs
        · exact le_rfl
        · exact (Real.exp_pos _).le
      · exact ⟨k0, Finset.mem_univ _, by rw [if_neg hk0]; exact Real.exp_pos _⟩
  have hlog : Ideal.log (rowZ s r) = (Real.log L : EReal) := by
    rw [hZ, Ideal.log_coe, if_neg (not_le.mpr hLpos)]
  -- both sides are now sums of reals
  have hker : rowKer s r
      = (((∑ k : R, if k = r then 0 else x k) - 8191 * M - 8191 * Real.log L : ℝ) : EReal) := by
    have h1 : (run s r 16).m = rowMax s r := hm
    have h2 : (run s r 16).l = rowZ s r := hl
    have h3 : (run s r 16).rs = ((∑ k : R, if k = r then 0 else x k : ℝ) : EReal) := by
      rw [hrs, coe_sum]
      refine Finset.sum_congr rfl fun k _ => ?_
      split_ifs
      · rfl
      · exact hx k
    unfold rowKer
    rw [h1, h2, h3, hlog, hM, ← EReal.coe_mul, ← EReal.coe_mul, ← EReal.coe_sub, ← EReal.coe_sub]
  have href : rowRef s r = ((∑ k : R, if k = r then 0 else x k - (M + Real.log L) : ℝ) : EReal) := by
    unfold rowRef
    rw [coe_sum]
    refine Finset.sum_congr rfl fun k _ => ?_
    split_ifs with h
    · rfl
    · rw [hmsk, if_neg h, hM, hlog, ← EReal.coe_sub, ← EReal.coe_sub]
      congr 1
      ring
  rw [hker, href, sum_offdiag]
  congr 1
  ring

end Cert.Spec

end
-- ==== Proof.Loss.lean ====
/-
  The loss as ONE function of the two input arrays, over the extended reals, index by index.

  Each input row is divided by max(‖row‖, ε). The positive-pair term is minus the mean over the 4096 rows of the
  inner product of the two normalised rows divided by the temperature. The normalised rows of both inputs, one set
  under the other, give 8192 rows; their pairwise inner products divided by the temperature are the scores; the
  second term is the sum over all rows of the off-diagonal log-softmax row sums (Spec.rowRef) divided by 4·4096².
  Float literals stay the words the programs print; only the temperature is ever needed as a number.
-/
import proofs.«136477_j12128987644289_1_alg».proof.Proof.Spec
import Idealize.ShloMosaic.Lib.ValueIdx

noncomputable section

namespace Cert.Spec

open Idealize.ShloMosaic Idealize.ShloMosaic.ValueIdx

/-- An input array at the ideal instance: 4096 rows of 256 extended reals. -/
abbrev In : Type := (⟨2, ![4096, 256]⟩ : Shape).Idx → EReal

/-- ε = f32 1e-7, the temperature f32 0.1, 4·4096² and 4096, as the words both programs print. -/
def eps : EReal := Ideal.ofBits .f32 0x33D6BF95#32
def temp : EReal := Ideal.ofBits .f32 0x3DCCCCCD#32
def cnt : EReal := Ideal.ofBits .f32 0x4C800000#32
def nRows : EReal := Ideal.ofBits .f32 0x45800000#32

/-- The squared norm of row r. -/
def sq (a : In) (r : Fin 4096) : EReal := ∑ f : Fin 256, a (ix2 r f) * a (ix2 r f)

/-- Entry (r, f) of the normalised array: the entry over max(‖row r‖, ε). -/
def nrm (a : In) (r : Fin 4096) (f : Fin 256) : EReal := Ideal.div (a (ix2 r f)) (max (Ideal.sqrt (sq a r)) eps)

/-- Minus the mean over the rows of ⟨nrm a0 r, nrm a1 r⟩ / temperature. -/
def posTerm (a0 a1 : In) : EReal :=
  -(Ideal.div (∑ r : Fin 4096, Ideal.div (∑ f : Fin 256, nrm a0 r f * nrm a1 r f) temp) nRows)

/-- The 8192 normalised rows: those of a0, then those of a1. -/
def cmb (a0 a1 : In) (r : R) (f : Fin 256) : EReal :=
  if h : r.val < 4096 then nrm a0 ⟨r.val, h⟩ f else nrm a1 ⟨r.val - 4096, by have := r.isLt; omega⟩ f

/-- The score of rows r and k: their inner product over the temperature. -/
def score (a0 a1 : In) (r k : R) : EReal := Ideal.div (∑ f : Fin 256, cmb a0 a1 r f * cmb a0 a1 k f) temp

/-- THE LOSS. -/
def loss (a0 a1 : In) : EReal := posTerm a0 a1 + Ideal.div (∑ r : R, rowRef (score a0 a1) r) cnt

/-- The temperature is the rational the word encodes. -/
theorem temp_eq : temp = ((13421773 / 134217728 : ℝ) : EReal) := by
  simp [temp, Ideal.ofBits, Ideal.ieee, -EReal.coe_mul]; norm_num

/-- ε is the rational its word encodes: sign 0, exponent 103, significand 2²³ + 5685141, so 14073749 · 2⁻⁴⁷. -/
theorem eps_eq : eps = ((14073749 / 140737488355328 : ℝ) : EReal) := by
  simp [eps, Ideal.ofBits, Ideal.ieee, -EReal.coe_mul]; norm_num

/-- ε is a positive real. -/
theorem eps_pos : ∃ e : ℝ, 0 < e ∧ eps = (e : EReal) :=
  ⟨14073749 / 140737488355328, by norm_num, eps_eq⟩

/-- A product of two reals is real. -/
theorem isReal_mul {x y : EReal} (hx : ∃ a : ℝ, x = (a : EReal)) (hy : ∃ b : ℝ, y = (b : EReal)) :
    ∃ c : ℝ, x * y = (c : EReal) := by
  obtain ⟨a, rfl⟩ := hx
  obtain ⟨b, rfl⟩ := hy
  exact ⟨a * b, (EReal.coe_mul a b).symm⟩

/-- A sum of two reals is real. -/
theorem isReal_add {x y : EReal} (hx : ∃ a : ℝ, x = (a : EReal)) (hy : ∃ b : ℝ, y = (b : EReal)) :
    ∃ c : ℝ, x + y = (c : EReal) := by
  obtain ⟨a, rfl⟩ := hx
  obtain ⟨b, rfl⟩ := hy
  exact ⟨a + b, (EReal.coe_add a b).symm⟩

/-- A finite sum of reals is real. -/
theorem isReal_sum {ι : Type} (s : Finset ι) (g : ι → EReal) :
    (∀ i ∈ s, ∃ a : ℝ, g i = (a : EReal)) → ∃ c : ℝ, ∑ i ∈ s, g i = (c : EReal) := by
  classical
  refine Finset.induction_on s ?_ ?_
  · intro _
    exact ⟨0, by simp⟩
  · intro j t hj ih h
    rw [Finset.sum_insert hj]
    exact isReal_add (h j (Finset.mem_insert_self j t)) (ih fun i hi => h i (Finset.mem_insert_of_mem hi))

/-- A finite sum of nonnegative reals is a nonnegative real. -/
theorem isNonneg_sum {ι : Type} (s : Finset ι) (g : ι → EReal) :
    (∀ i ∈ s, ∃ a : ℝ, 0 ≤ a ∧ g i = (a : EReal)) → ∃ c : ℝ, 0 ≤ c ∧ ∑ i ∈ s, g i = (c : EReal) := by
  classical
  refine Finset.induction_on s ?_ ?_
  · intro _
    exact ⟨0, le_refl 0, by simp⟩
  · intro j t hj ih h
    obtain ⟨a, ha, hga⟩ := h j (Finset.mem_insert_self j t)
    obtain ⟨c, hc, hgc⟩ := ih fun i hi => h i (Finset.mem_insert_of_mem hi)
    refine ⟨a + c, add_nonneg ha hc, ?_⟩
    rw [Finset.sum_insert hj, hga, hgc, EReal.coe_add]

/-- Every entry of an input is a real number: what the precondition says of a float input. -/
def Real (a : In) : Prop := ∀ i, ∃ x : ℝ, a i = (x : EReal)

/-- The squared norm of a real row is a nonnegative real: each term is a square. -/
theorem isNonneg_sq (a : In) (h : Real a) (r : Fin 4096) : ∃ c : ℝ, 0 ≤ c ∧ sq a r = (c : EReal) := by
  unfold sq
  refine isNonneg_sum _ _ ?_
  intro f _
  obtain ⟨x, hx⟩ := h (ix2 r f)
  exact ⟨x * x, mul_self_nonneg x, by rw [hx, EReal.coe_mul]⟩

/-- The square root of a nonnegative real is the real square root, a nonnegative real. -/
theorem isNonneg_sqrt {c : ℝ} (hc : 0 ≤ c) : Ideal.sqrt (c : EReal) = ((Real.sqrt c : ℝ) : EReal) := by
  rw [Ideal.sqrt_coe, if_neg (not_lt.mpr hc)]

/-- The maximum of two reals is the real maximum. -/
theorem coe_max' (x y : ℝ) : max (x : EReal) (y : EReal) = ((max x y : ℝ) : EReal) := by
  rcases le_total x y with hxy | hxy
  · rw [max_eq_right hxy, max_eq_right (EReal.coe_le_coe_iff.mpr hxy)]
  · rw [max_eq_left hxy, max_eq_left (EReal.coe_le_coe_iff.mpr hxy)]

/-- The divisor of a real row is a positive real: it is at least ε. -/
theorem isPos_den (a : In) (h : Real a) (r : Fin 4096) :
    ∃ d : ℝ, 0 < d ∧ max (Ideal.sqrt (sq a r)) eps = (d : EReal) := by
  obtain ⟨c, hc, hsq⟩ := isNonneg_sq a h r
  obtain ⟨e, he, hev⟩ := eps_pos
  refine ⟨max (Real.sqrt c) e, lt_max_of_lt_right he, ?_⟩
  rw [hsq, isNonneg_sqrt hc, hev, coe_max']

/-- A real over a nonzero real is real. -/
theorem isReal_div {x : EReal} {d : ℝ} (hx : ∃ a : ℝ, x = (a : EReal)) (hd : d ≠ 0) :
    ∃ c : ℝ, Ideal.div x (d : EReal) = (c : EReal) := by
  rw [Ideal.div_coe hd]
  exact isReal_mul hx ⟨1 / d, rfl⟩

/-- Every entry of the normalised array of a real input is real. -/
theorem isReal_nrm (a : In) (h : Real a) (r : Fin 4096) (f : Fin 256) : ∃ c : ℝ, nrm a r f = (c : EReal) := by
  obtain ⟨d, hd, hden⟩ := isPos_den a h r
  unfold nrm
  rw [hden]
  exact isReal_div (h (ix2 r f)) hd.ne'

/-- Every entry of the 8192 normalised rows of two real inputs is real. -/
theorem isReal_cmb (a0 a1 : In) (h0 : Real a0) (h1 : Real a1) (r : R) (f : Fin 256) :
    ∃ c : ℝ, cmb a0 a1 r f = (c : EReal) := by
  unfold cmb
  split
  · exact isReal_nrm a0 h0 _ f
  · exact isReal_nrm a1 h1 _ f

/-- The scores of real inputs are real: a real over max(√(a real ≥ 0), ε) with ε > 0 is real, and sums and
    products of reals are real. -/
theorem score_real (a0 a1 : In) (h0 : Real a0) (h1 : Real a1) (r k : R) : ∃ x : ℝ, score a0 a1 r k = (x : EReal) := by
  unfold score
  rw [temp_eq]
  refine isReal_div (isReal_sum _ _ fun f _ => isReal_mul (isReal_cmb a0 a1 h0 h1 r f) (isReal_cmb a0 a1 h0 h1 k f)) ?_
  norm_num

end Cert.Spec

end
-- ==== Proof.Ideal.Host.lean ====
/-
  The host lines around the idealized kernel's region, read at an index at the ideal instance.

  Before the region: each input is divided row-wise by max(‖row‖, ε); the row-wise inner products of the two
  normalised inputs are kept; the two normalised inputs are put one under the other and the format is changed,
  which is the identity here. After the region: minus the mean of the inner products over the temperature, plus
  the sum of the region's row results over 4·4096².
-/
import proofs.«136477_j12128987644289_1_alg».proof.Proof.Ideal.Shared
import proofs.«136477_j12128987644289_1_alg».proof.Proof.Loss
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The two input arrays of core c as arrays of extended reals. -/
abbrev inp0 (c : Dev nD) : Cert.Spec.In := m ((c : Thread nD τ).loc main_arg0)
abbrev inp1 (c : Dev nD) : Cert.Spec.In := m ((c : Thread nD τ).loc main_arg1)

/-- The host lines before the region leave the argument arrays as they were. -/
theorem V_main_arg0 (c : Dev nD) : V m c main_arg0 = m ((c : Thread nD τ).loc main_arg0) := by
  show StableHlo.after hostOps0 (fun b => m (c, b)) (Proc.devRef .tc main_arg0) = _
  after_results
theorem V_main_arg1 (c : Dev nD) : V m c main_arg1 = m ((c : Thread nD τ).loc main_arg1) := by
  show StableHlo.after hostOps0 (fun b => m (c, b)) (Proc.devRef .tc main_arg1) = _
  after_results

/-- The sum of an array along its second axis, from the zero word, at row r: the sum of the row's entries. -/
theorem rowSum_apply (y : S4096x256.Idx → EReal) (r : Fin 4096) :
    (Host.reduceAdd (F := Ideal) (φ := .f32) y (constant (F := Ideal) S_ .f32 0x00000000#32) reducesTo_S4096x256_S4096_d1 h_S_ : S4096.Idx → EReal) (ix1 r)
      = ∑ f : Fin 256, y (ix2 r f) := by
  simp only [Host.reduceAdd, Ideal.hostReduceAdd_def]
  rw [Ideal.hostReduceAdd_single reducesTo_S4096x256_S4096_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- An input divided row-wise by max(‖row‖, ε), as the operations spell it. -/
def nrmOps (x : S4096x256.Idx → EReal) : S4096x256.Idx → EReal :=
  Host.divf (F := Ideal) (φ := .f32) x (broadcastInDim S4096x256 ![0, 1] bcast_S4096x1_S4096x256_0_1
    (maximumf (F := Ideal) (φ := .f32) (Host.sqrt (F := Ideal) (φ := .f32) (broadcastInDim S4096x1 ![0] bcast_S4096_S4096x1_0
        (Host.reduceAdd (F := Ideal) (φ := .f32) (mulf (F := Ideal) (φ := .f32) x x) (constant (F := Ideal) S_ .f32 0x00000000#32) reducesTo_S4096x256_S4096_d1 h_S_)))
      (broadcastInDim S4096x1 ![] bcast_S_S4096x1 (constant (F := Ideal) S_ .f32 0x33D6BF95#32))))

/-- Entry (r, f) of it is the target's normalised entry. -/
theorem nrmOps_apply (x : S4096x256.Idx → EReal) (r : Fin 4096) (f : Fin 256) :
    nrmOps x (ix2 r f) = Cert.Spec.nrm x r f := by
  unfold nrmOps Cert.Spec.nrm Cert.Spec.sq Cert.Spec.eps
  show Ideal.div (x (ix2 r f)) _ = _
  refine congrArg (Ideal.div (x (ix2 r f))) ?_
  rw [broadcastInDim_apply _ bcast_S4096x1_S4096x256_0_1 _ (ix2 r f) (ix2 r (0 : Fin 1)) (fun a => match a with
    | ⟨0, _⟩ => by show r.val = if (4096 : Nat) = 1 then 0 else r.val; rw [if_neg (by decide)]
    | ⟨1, _⟩ => by show 0 = if (1 : Nat) = 1 then 0 else f.val; rw [if_pos rfl])]
  show max (Ideal.sqrt _) _ = _
  congr 1
  · refine congrArg Ideal.sqrt ?_
    rw [broadcastInDim_apply _ bcast_S4096_S4096x1_0 _ (ix2 r (0 : Fin 1)) (ix1 r) (fun a => match a with
      | ⟨0, _⟩ => by show r.val = if (4096 : Nat) = 1 then 0 else r.val; rw [if_neg (by decide)])]
    rw [rowSum_apply]
    rfl

/-- Two 4096-row arrays one under the other, read at row r: the first array's row r, or the second's row r − 4096. -/
theorem concat_apply (x₁ x₂ : S4096x256.Idx → EReal) (r : Fin 8192) (f : Fin 256) :
    (concatenate S8192x256 0 [⟨S4096x256, x₁⟩, ⟨S4096x256, x₂⟩] concatenates_S4096x256_S4096x256_S8192x256_d0 : S8192x256.Idx → EReal) (ix2 r f)
      = if h : r.val < 4096 then x₁ (ix2 ⟨r.val, h⟩ f) else x₂ (ix2 ⟨r.val - 4096, by have := r.isLt; omega⟩ f) := by
  by_cases h : r.val < 4096
  · rw [dif_pos h]
    exact concatenate_pair_apply_left (t := S8192x256) (s₁ := S4096x256) (s₂ := S4096x256) 0 x₁ x₂
      concatenates_S4096x256_S4096x256_S8192x256_d0 (ix2 r f) rfl (ix2 ⟨r.val, h⟩ f)
      (fun b => match b with | ⟨0, _⟩ => rfl | ⟨1, _⟩ => rfl)
  · rw [dif_neg h]
    exact concatenate_pair_apply_right (t := S8192x256) (s₁ := S4096x256) (s₂ := S4096x256) 0 x₁ x₂
      concatenates_S4096x256_S4096x256_S8192x256_d0 (ix2 r f) rfl rfl (ix2 ⟨r.val - 4096, by have := r.isLt; omega⟩ f)
      (fun b => match b with | ⟨0, _⟩ => fun hb => absurd rfl hb | ⟨1, _⟩ => fun _ => rfl)
      (by show r.val - 4096 + 4096 = r.val; omega)

/-- The array both input windows read: row r, column f of the normalised inputs one under the other. -/
theorem V_main_v19_apply (c : Dev nD) (r : Fin 8192) (f : Fin 256) :
    ((V m c main_v19 : S8192x256.Idx → EReal) (ix2 r f)) = Cert.Spec.cmb (inp0 m c) (inp1 m c) r f := by
  have e : @Eq (S8192x256.Idx → EReal) (V m c main_v19)
      (truncf (F := Ideal) (φ := .f32) .bf16 (concatenate S8192x256 0 [⟨S4096x256, nrmOps (inp0 m c)⟩, ⟨S4096x256, nrmOps (inp1 m c)⟩]
          concatenates_S4096x256_S4096x256_S8192x256_d0) bitsLt_bf16_f32) := by
    show StableHlo.after hostOps0 (fun b => m (c, b)) (Proc.devRef .tc main_v19) = _
    after_results
    rfl
  refine (congrFun e (ix2 r f)).trans ?_
  rw [truncf_apply, concat_apply]
  unfold Cert.Spec.cmb
  by_cases h : r.val < 4096
  · rw [dif_pos h, dif_pos h, nrmOps_apply]
  · rw [dif_neg h, dif_neg h, nrmOps_apply]

/-- The inner product of the two normalised rows r. -/
theorem V_main_v17_apply (c : Dev nD) (r : Fin 4096) :
    ((V m c main_v17 : S4096.Idx → EReal) (ix1 r)) = ∑ f : Fin 256, Cert.Spec.nrm (inp0 m c) r f * Cert.Spec.nrm (inp1 m c) r f := by
  have e : @Eq (S4096.Idx → EReal) (V m c main_v17)
      (Host.reduceAdd (F := Ideal) (φ := .f32) (mulf (F := Ideal) (φ := .f32) (nrmOps (inp0 m c)) (nrmOps (inp1 m c)))
          (constant (F := Ideal) S_ .f32 0x00000000#32) reducesTo_S4096x256_S4096_d1 h_S_) := by
    show StableHlo.after hostOps0 (fun b => m (c, b)) (Proc.devRef .tc main_v17) = _
    after_results
    rfl
  refine (congrFun e (ix1 r)).trans ((rowSum_apply _ r).trans (Finset.sum_congr rfl fun f _ => ?_))
  rw [mulf_apply, nrmOps_apply, nrmOps_apply]

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _ fun i => congrArg f (eq_ix1 i)

/-- The sum of a 4096-entry array from the zero word: the sum of its entries. -/
theorem sum4096_apply (y : S4096.Idx → EReal) (i : S_.Idx) :
    (Host.reduceAdd (F := Ideal) (φ := .f32) y (constant (F := Ideal) S_ .f32 0x00000000#32) reducesTo_S4096_S_d0 h_S_ : S_.Idx → EReal) i
      = ∑ r : Fin 4096, y (ix1 r) := by
  simp only [Host.reduceAdd, Ideal.hostReduceAdd_def]
  rw [Ideal.hostReduceAdd_total reducesTo_S4096_S_d0 (fun b => b.elim0)]
  rw [constant_apply, Ideal.ofBits_zero_f32, zero_add]
  exact sum_idx1 y

/-- The sum of an 8192-entry array from the zero word: the sum of its entries. -/
theorem sum8192_apply (y : S8192.Idx → EReal) (i : S_.Idx) :
    (Host.reduceAdd (F := Ideal) (φ := .f32) y (constant (F := Ideal) S_ .f32 0x00000000#32) reducesTo_S8192_S_d0 h_S_ : S_.Idx → EReal) i
      = ∑ r : Fin 8192, y (ix1 r) := by
  simp only [Host.reduceAdd, Ideal.hostReduceAdd_def]
  rw [Ideal.hostReduceAdd_total reducesTo_S8192_S_d0 (fun b => b.elim0)]
  rw [constant_apply, Ideal.ofBits_zero_f32, zero_add]
  exact sum_idx1 y

/-- The lines after the region, from any contents W: the result is minus the mean of main_v17's entries over the
    temperature, plus the sum of main_v20's entries over 4·4096². -/
theorem tail_value (W : Valuation τ sig (Elt Ideal)) :
    (StableHlo.after hostOps1 W (Proc.devRef .tc main_v28) : S_.Idx → EReal)
      = fun _ => -(Ideal.div (∑ r : Fin 4096, Ideal.div ((W (Proc.devRef .tc main_v17) : S4096.Idx → EReal) (ix1 r)) Cert.Spec.temp) Cert.Spec.nRows)
          + Ideal.div (∑ r : Fin 8192, (W (Proc.devRef .tc main_v20) : S8192.Idx → EReal) (ix1 r)) Cert.Spec.cnt := by
  after_results
  funext i
  show -(Ideal.div ((Host.reduceAdd (F := Ideal) (φ := .f32) _ _ reducesTo_S4096_S_d0 h_S_ : S_.Idx → EReal) i) _)
      + Ideal.div ((Host.reduceAdd (F := Ideal) (φ := .f32) _ _ reducesTo_S8192_S_d0 h_S_ : S_.Idx → EReal) i) _ = _
  rw [sum4096_apply, sum8192_apply]
  unfold Cert.Spec.temp Cert.Spec.nRows Cert.Spec.cnt
  rfl

/-- The lines after the region write neither argument array. -/
theorem tail_arg0 (W : Valuation τ sig (Elt Ideal)) : StableHlo.after hostOps1 W (Proc.devRef .tc main_arg0) = W (Proc.devRef .tc main_arg0) := by
  after_results
theorem tail_arg1 (W : Valuation τ sig (Elt Ideal)) : StableHlo.after hostOps1 W (Proc.devRef .tc main_arg1) = W (Proc.devRef .tc main_arg1) := by
  after_results

end Cert.KernelIdeal.Hand

end
-- ==== Proof.Ideal.Pieces.lean ====
/-
  What each case of the body leaves in the scratch buffers and the output window, as the body's own arithmetic.

  With m, l, rs the three running quantities a case starts from (the reset values −∞, 0, 0 at column tile 0):
  the new maximum is payload 11, the new rescaled sum payload 12, the new plain sum payload 2 (each then passes a
  shape cast between equal shapes), and at column tile 15 the row result is payload 4 of the three new values.
-/
import proofs.«136477_j12128987644289_1_alg».proof.Proof.Ideal.Frame
import Idealize.ShloMosaic.Lib.Pipeline.Value
import Idealize.ShloMosaic.Lib.Tactic
import Mathlib.Tactic.FinCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The offset of a store or load at the origin of a rank-2 buffer is the zero offset. -/
theorem piecesOff2_eq_zero : (![0, 0] : Fin 2 → Nat) = fun _ => 0 := funext fun a => by fin_cases a <;> rfl
/-- The same at rank 1. -/
theorem piecesOff1_eq_zero : (![0] : Fin 1 → Nat) = fun _ => 0 := funext fun a => by fin_cases a <;> rfl

/-- Column tile 0, scratch 0 (the running maximum). Two stores reach it: the reset to −∞, then the update. The
    update is the later one and covers the whole buffer, so it alone is what reads back; the maximum it was computed
    from is the reset value, which the body loaded back between the two stores. -/
theorem soutFirst_0_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) :
    soutFirst_0 c i arg2 harg2 arg3 harg3 arg4 harg4 arg5 harg5 arg6 harg6 arg7 harg7 hc0 hc1 x0 x1 = k0_pay3 (k0_pay11 i x0 x1 (k0_pay5 (F := F))) := by
  unfold soutFirst_0
  rw [View.read_writes_eq_canon _ _ _ (scoverFirst_0 c i arg2 harg2 arg3 harg3 arg4 harg4 arg5 harg5 arg6 harg6 arg7 harg7 hc0 hc1 x0 x1)]
  unfold runFirst
  dsimp only
  sl_unfold_words
  rw [View.canon_cons_unit_zero (S := S1024x1) piecesOff2_eq_zero]
  simp only [View.readAt_eq_ld, harg2.read_unread, harg3.read_unread, harg4.read_unread, harg5.read_unread, harg6.read_unread, harg7.read_unread, View.ld_unit_zero (S := S1024x1) piecesOff2_eq_zero, View.ld_unit_zero (S := S1024x256) piecesOff2_eq_zero, View.ld_unit_zero (S := S512x256) piecesOff2_eq_zero, View.ld_unit_zero (S := S1024) piecesOff1_eq_zero, View.readCov_unit_zero (S := S1024x1) _ piecesOff2_eq_zero, View.readCov_unit_zero (S := S1024) _ piecesOff1_eq_zero]
/-- Column tile 0, scratch 1 (the rescaled sum): the reset to 0, then the update computed from the reset values of
    the maximum and of this sum. The later, covering store is what reads back. -/
theorem soutFirst_1_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) :
    soutFirst_1 c i arg2 harg2 arg3 harg3 arg4 harg4 arg5 harg5 arg6 harg6 arg7 harg7 hc0 hc1 x0 x1 = k0_pay1 (k0_pay12 i x0 x1 (k0_pay5 (F := F)) (k0_pay5 (F := F)) (k0_pay6 (F := F))) := by
  unfold soutFirst_1
  rw [View.read_writes_eq_canon _ _ _ (scoverFirst_1 c i arg2 harg2 arg3 harg3 arg4 harg4 arg5 harg5 arg6 harg6 arg7 harg7 hc0 hc1 x0 x1)]
  unfold runFirst
  dsimp only
  sl_unfold_words
  rw [View.canon_cons_unit_zero (S := S1024x1) piecesOff2_eq_zero]
  simp only [View.readAt_eq_ld, harg2.read_unread, harg3.read_unread, harg4.read_unread, harg5.read_unread, harg6.read_unread, harg7.read_unread, View.ld_unit_zero (S := S1024x1) piecesOff2_eq_zero, View.ld_unit_zero (S := S1024x256) piecesOff2_eq_zero, View.ld_unit_zero (S := S512x256) piecesOff2_eq_zero, View.ld_unit_zero (S := S1024) piecesOff1_eq_zero, View.readCov_unit_zero (S := S1024x1) _ piecesOff2_eq_zero, View.readCov_unit_zero (S := S1024) _ piecesOff1_eq_zero]
/-- Column tile 0, scratch 2 (the plain sum): the reset to 0, then the update adding this tile's contribution to
    the reset value. The later, covering store is what reads back. -/
theorem soutFirst_2_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x256 .bf16) (x1 : Vec F S512x256 .bf16) :
    soutFirst_2 c i arg2 harg2 arg3 harg3 arg4 harg4 arg5 harg5 arg6 harg6 arg7 harg7 hc0 hc1 x0 x1 = k0_pay2 (k0_pay8 x0 x1) (k0_pay9 i) (k0_pay7 (F := F)) := by
  unfold soutFirst_2
  rw [View.read_writes_eq_canon _ _ _ (scoverFirst_2 c i arg2 harg2 arg3 harg3 arg4 harg4 arg5 harg5 arg6 harg6 arg7 harg7 hc0 hc1 x0 x1)]
  unfold runFirst
  dsimp only
  sl_unfold_words
  rw [View.canon_cons_unit_zero (S := S1024x1) piecesOff2_eq_zero]
  simp only [View.readAt_eq_ld, harg2.read_unread, harg3.read_unread, harg4.read_unread, harg5.read_unread, harg6.read_unread, harg7.read_unread, View.ld_unit_zero (S := S1024x1) piecesOff2_eq_zero, View.ld_unit_zero (S := S1024x256) piecesOff2_eq_zero, View.ld_unit_zero (S := S512x256) piecesOff2_eq_zero, View.ld_unit_zero (S := S1024) piecesOff1_eq_zero, View.readCov_unit_zero (S := S1024x1) _ piecesOff2_eq_zero, View.readCov_unit_zero (S := S1024) _ piecesOff1_eq_zero]

/-- A middle column tile, scratch 0: one store covering the whole buffer, so the buffer reads back as that store's
    payload; the payload's loads all precede the store and read the whole input blocks and the carried maximum. -/
theorem soutMid_0_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) :
    soutMid_0 c i arg2 harg2 arg3 harg3 arg4 harg4 arg5 harg5 arg6 harg6 arg7 harg7 hc0 hc1 x0 x1 xs0 xs1 xs2 = k0_pay3 (k0_pay11 i x0 x1 xs0) := by
  unfold soutMid_0
  rw [View.read_writes_eq_canon _ _ _ (scoverMid_0 c i arg2 harg2 arg3 harg3 arg4 harg4 arg5 harg5 arg6 harg6 arg7 harg7 hc0 hc1 x0 x1 xs0 xs1 xs2)]
  unfold runMid
  dsimp only
  sl_unfold_words
  rw [View.canon_unit_zero (S := S1024x1) piecesOff2_eq_zero]
  simp only [View.readAt_eq_ld, harg2.read_unread, harg3.read_unread, harg4.read_unread, harg5.read_unread, harg6.read_unread, harg7.read_unread, View.ld_unit_zero (S := S1024x1) piecesOff2_eq_zero, View.ld_unit_zero (S := S1024x256) piecesOff2_eq_zero, View.ld_unit_zero (S := S512x256) piecesOff2_eq_zero, View.ld_unit_zero (S := S1024) piecesOff1_eq_zero]
/-- A middle column tile, scratch 1: one covering store, whose payload rescales the carried sum by the change of
    maximum and adds this tile's exponentials. -/
theorem soutMid_1_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) :
    soutMid_1 c i arg2 harg2 arg3 harg3 arg4 harg4 arg5 harg5 arg6 harg6 arg7 harg7 hc0 hc1 x0 x1 xs0 xs1 xs2 = k0_pay1 (k0_pay12 i x0 x1 xs0 xs0 xs1) := by
  unfold soutMid_1
  rw [View.read_writes_eq_canon _ _ _ (scoverMid_1 c i arg2 harg2 arg3 harg3 arg4 harg4 arg5 harg5 arg6 harg6 arg7 harg7 hc0 hc1 x0 x1 xs0 xs1 xs2)]
  unfold runMid
  dsimp only
  sl_unfold_words
  rw [View.canon_unit_zero (S := S1024x1) piecesOff2_eq_zero]
  simp only [View.readAt_eq_ld, harg2.read_unread, harg3.read_unread, harg4.read_unread, harg5.read_unread, harg6.read_unread, harg7.read_unread, View.ld_unit_zero (S := S1024x1) piecesOff2_eq_zero, View.ld_unit_zero (S := S1024x256) piecesOff2_eq_zero, View.ld_unit_zero (S := S512x256) piecesOff2_eq_zero, View.ld_unit_zero (S := S1024) piecesOff1_eq_zero]
/-- A middle column tile, scratch 2: one covering store, the carried plain sum plus this tile's contribution. -/
theorem soutMid_2_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x256 .bf16) (x1 : Vec F S512x256 .bf16) (xs0 xs1 xs2 : Vec F S1024x1 .f32) :
    soutMid_2 c i arg2 harg2 arg3 harg3 arg4 harg4 arg5 harg5 arg6 harg6 arg7 harg7 hc0 hc1 x0 x1 xs0 xs1 xs2 = k0_pay2 (k0_pay8 x0 x1) (k0_pay9 i) xs2 := by
  unfold soutMid_2
  rw [View.read_writes_eq_canon _ _ _ (scoverMid_2 c i arg2 harg2 arg3 harg3 arg4 harg4 arg5 harg5 arg6 harg6 arg7 harg7 hc0 hc1 x0 x1 xs0 xs1 xs2)]
  unfold runMid
  dsimp only
  sl_unfold_words
  rw [View.canon_unit_zero (S := S1024x1) piecesOff2_eq_zero]
  simp only [View.readAt_eq_ld, harg2.read_unread, harg3.read_unread, harg4.read_unread, harg5.read_unread, harg6.read_unread, harg7.read_unread, View.ld_unit_zero (S := S1024x1) piecesOff2_eq_zero, View.ld_unit_zero (S := S1024x256) piecesOff2_eq_zero, View.ld_unit_zero (S := S512x256) piecesOff2_eq_zero, View.ld_unit_zero (S := S1024) piecesOff1_eq_zero]

/-- Column tile 15, scratch 0: as at a middle tile (the extra branch only loads the scratch buffers). -/
theorem soutLast_0_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) :
    soutLast_0 c i arg2 harg2 arg3 harg3 arg4 harg4 arg5 harg5 arg6 harg6 arg7 harg7 hc0 hc1 x0 x1 xs0 xs1 xs2 = k0_pay3 (k0_pay11 i x0 x1 xs0) := by
  unfold soutLast_0
  rw [View.read_writes_eq_canon _ _ _ (scoverLast_0 c i arg2 harg2 arg3 harg3 arg4 harg4 arg5 harg5 arg6 harg6 arg7 harg7 hc0 hc1 x0 x1 xs0 xs1 xs2)]
  unfold runLast
  dsimp only
  sl_unfold_words
  rw [View.canon_unit_zero (S := S1024x1) piecesOff2_eq_zero]
  simp only [View.readAt_eq_ld, harg2.read_unread, harg3.read_unread, harg4.read_unread, harg5.read_unread, harg6.read_unread, harg7.read_unread, View.ld_unit_zero (S := S1024x1) piecesOff2_eq_zero, View.ld_unit_zero (S := S1024x256) piecesOff2_eq_zero, View.ld_unit_zero (S := S512x256) piecesOff2_eq_zero, View.ld_unit_zero (S := S1024) piecesOff1_eq_zero]
/-- Column tile 15, scratch 1: as at a middle tile. -/
theorem soutLast_1_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) :
    soutLast_1 c i arg2 harg2 arg3 harg3 arg4 harg4 arg5 harg5 arg6 harg6 arg7 harg7 hc0 hc1 x0 x1 xs0 xs1 xs2 = k0_pay1 (k0_pay12 i x0 x1 xs0 xs0 xs1) := by
  unfold soutLast_1
  rw [View.read_writes_eq_canon _ _ _ (scoverLast_1 c i arg2 harg2 arg3 harg3 arg4 harg4 arg5 harg5 arg6 harg6 arg7 harg7 hc0 hc1 x0 x1 xs0 xs1 xs2)]
  unfold runLast
  dsimp only
  sl_unfold_words
  rw [View.canon_unit_zero (S := S1024x1) piecesOff2_eq_zero]
  simp only [View.readAt_eq_ld, harg2.read_unread, harg3.read_unread, harg4.read_unread, harg5.read_unread, harg6.read_unread, harg7.read_unread, View.ld_unit_zero (S := S1024x1) piecesOff2_eq_zero, View.ld_unit_zero (S := S1024x256) piecesOff2_eq_zero, View.ld_unit_zero (S := S512x256) piecesOff2_eq_zero, View.ld_unit_zero (S := S1024) piecesOff1_eq_zero]
/-- Column tile 15, scratch 2: as at a middle tile. -/
theorem soutLast_2_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) :
    soutLast_2 c i arg2 harg2 arg3 harg3 arg4 harg4 arg5 harg5 arg6 harg6 arg7 harg7 hc0 hc1 x0 x1 xs0 xs1 xs2 = k0_pay2 (k0_pay8 x0 x1) (k0_pay9 i) xs2 := by
  unfold soutLast_2
  rw [View.read_writes_eq_canon _ _ _ (scoverLast_2 c i arg2 harg2 arg3 harg3 arg4 harg4 arg5 harg5 arg6 harg6 arg7 harg7 hc0 hc1 x0 x1 xs0 xs1 xs2)]
  unfold runLast
  dsimp only
  sl_unfold_words
  rw [View.canon_unit_zero (S := S1024x1) piecesOff2_eq_zero]
  simp only [View.readAt_eq_ld, harg2.read_unread, harg3.read_unread, harg4.read_unread, harg5.read_unread, harg6.read_unread, harg7.read_unread, View.ld_unit_zero (S := S1024x1) piecesOff2_eq_zero, View.ld_unit_zero (S := S1024x256) piecesOff2_eq_zero, View.ld_unit_zero (S := S512x256) piecesOff2_eq_zero, View.ld_unit_zero (S := S1024) piecesOff1_eq_zero]
/-- Column tile 15, the output window: one store covering the whole block. Its payload is computed from the three
    scratch buffers loaded back AFTER this tile's updates, and each of those loads reads a buffer holding exactly one
    covering store, hence that store's payload: the three new running quantities. -/
theorem outLast_eq (c : Dev nD) (i : grid0.Coords) (arg2 : Memref sig .tc .vmem S1024x256 .bf16) (harg2 : arg2.IsWhole) (arg3 : Memref sig .tc .vmem S512x256 .bf16) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x256 .bf16) (x1 : Vec F S512x256 .bf16) (xs0 xs1 xs2 : Vec F S1024x1 .f32) :
    outLast c i arg2 harg2 arg3 harg3 arg4 harg4 arg5 harg5 arg6 harg6 arg7 harg7 hc0 hc1 x0 x1 xs0 xs1 xs2
      = k0_pay4 (k0_pay2 (k0_pay8 x0 x1) (k0_pay9 i) xs2) (k0_pay3 (k0_pay11 i x0 x1 xs0)) (k0_pay1 (k0_pay12 i x0 x1 xs0 xs0 xs1)) := by
  unfold outLast
  rw [View.read_writes_eq_canon _ _ _ (coverLast_out c i arg2 harg2 arg3 harg3 arg4 harg4 arg5 harg5 arg6 harg6 arg7 harg7 hc0 hc1 x0 x1 xs0 xs1 xs2)]
  unfold runLast
  dsimp only
  sl_unfold_words
  rw [View.canon_unit_zero (S := S1024) piecesOff1_eq_zero]
  simp only [View.readAt_eq_ld, harg2.read_unread, harg3.read_unread, harg4.read_unread, harg5.read_unread, harg6.read_unread, harg7.read_unread, View.ld_unit_zero (S := S1024x1) piecesOff2_eq_zero, View.ld_unit_zero (S := S1024x256) piecesOff2_eq_zero, View.ld_unit_zero (S := S512x256) piecesOff2_eq_zero, View.ld_unit_zero (S := S1024) piecesOff1_eq_zero, View.readCov_unit_zero (S := S1024x1) _ piecesOff2_eq_zero, View.readCov_unit_zero (S := S1024) _ piecesOff1_eq_zero]

end Cert.KernelIdeal.Hand

end
-- ==== Proof.Ideal.Payload.lean ====
/-
  The body's arithmetic, one named payload at a time, read at an index at the ideal instance.

  For the tile at grid coordinates i = (i0, i1), with x0 the 1024 × 256 block of left rows and x1 the 512 × 256
  block of right rows: the scaled products (x0 · x1ᵀ)·κ, the diagonal test 1024·i0 + p = 512·i1 + q, the masked
  scores, the new running maximum, the rescaled sum of exponentials, the plain sum, and the row result. A format
  change and a shape cast between equal shapes are the identity; a lane reduction is a finite sum or supremum.
-/
import proofs.«136477_j12128987644289_1_alg».proof.Proof.Gen.KernelIdeal.Skeleton
import proofs.«136477_j12128987644289_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

/-- The named scale at the ideal instance: the reciprocal of the temperature's exact value. -/
def kap : EReal := ((134217728 / 13421773 : ℝ) : EReal)

/-! ## The named constants and the words -/

/-- The mask value's name denotes −∞. -/
theorem pay_neg_big : Named.named (F := Ideal) κ "neg_big" (φ := .f32) 0xFF333332#32 = (⊥ : EReal) :=
  IdealRules.named_const.ideal_named_scalar _ _ _ _ rfl

/-- The scale's name denotes the reciprocal of the temperature's exact value. -/
theorem pay_inv_temp : Named.named (F := Ideal) κ "inv_temp" (φ := .f32) 0x41200000#32 = kap :=
  IdealRules.named_const.ideal_named_scalar _ _ _ _ rfl

/-- The word 0x45FFF800 is the real 8191: sign 0, exponent 139, significand 2²³ + 8386560, so 16775168 · 2⁻¹¹. -/
theorem pay_word_8191 : Ideal.ofBits .f32 0x45FFF800#32 = ((8191 : ℝ) : EReal) := by
  show Ideal.ieee 8 23 (0x45FFF800#32 : BitVec 32) = _
  delta Ideal.ieee
  simp [-EReal.coe_mul]
  norm_num

/-- The word 0xFF800000 is −∞: sign 1, exponent all ones, significand 0. -/
theorem pay_word_neg_inf : Ideal.ofBits .f32 0xFF800000#32 = (⊥ : EReal) := by
  show Ideal.ieee 8 23 (0xFF800000#32 : BitVec 32) = _
  delta Ideal.ieee
  simp

/-! ## Columns: a [1024, 1] column against a [1024] vector and against a [1024, 512] block -/

/-- A column [1024, 1] cast to a vector [1024] reads, at p, the column at (p, 0): both sit at row-major position p. -/
theorem pay_cast_col_vec {α : Type} (x : S1024x1.Idx → α) (h : S1024x1.ShapeCasts S1024) (p : Fin 1024) :
    shapeCast S1024 x h (ix1 p) = x (ix2 p (0 : Fin 1)) :=
  shapeCast_apply x h _ _ (by
    rw [Shape.rowMajor_val_two, Shape.rowMajor_val_one]
    show p.val * 1 + 0 = p.val
    omega)

/-- A vector [1024] cast to a column [1024, 1] reads, at (p, u), the vector at p: the unit coordinate u is 0. -/
theorem pay_cast_vec_col {α : Type} (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    omega)

/-- A column [1024, 1] broadcast along the lanes to [1024, 512] reads, at (p, q), the column at (p, 0). -/
theorem pay_bcast_col {α : Type} (v : S1024x1.Idx → α) (h : S1024x1.Broadcasts S1024x512) (p : Fin 1024) (q : Fin 512) :
    broadcastTo S1024x512 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## Lane reductions of a [1024, 512] block -/

/-- Inserting the lane coordinate q into the row index p gives the index (p, q). -/
theorem pay_lift_row (h : S1024x512.Reduces [1] S1024) (p : Fin 1024) (q : Fin 512) :
    h.lift (ix1 p) q = ix2 p q :=
  funext fun a => Fin.ext (by match a with | ⟨0, _⟩ => rfl | ⟨1, _⟩ => rfl)

/-- The lane sum of a block, read at row p: the sum over the 512 lanes of that row. -/
theorem pay_rowSum (f : FVec Ideal S1024x512 .f32) (p : Fin 1024) :
    multiReduction (F := Ideal) .add [1] S1024 f 0x00000000#32 reduces_S1024x512_S1024 (.inl rfl) rfl (ix1 p)
      = ∑ q : Fin 512, (f (ix2 p q) : EReal) := by
  refine (Ideal.multiReduction_add_single f _ reduces_S1024x512_S1024 _ _ (ix1 p)).trans ?_
  exact Finset.sum_congr rfl fun q _ => congrArg f (pay_lift_row _ p q)

/-- The lane maximum of a block started from −∞, read at row p: the supremum over the 512 lanes of that row (on the
    extended reals the join is the maximum and the least element is −∞, so the fold of max from −∞ is the supremum). -/
theorem pay_rowMax (f : FVec Ideal S1024x512 .f32) (p : Fin 1024) :
    multiReduction (F := Ideal) .maximumf [1] S1024 f 0xFF800000#32 reduces_S1024x512_S1024 (.inl rfl) rfl (ix1 p)
      = Finset.univ.sup fun q : Fin 512 => (f (ix2 p q) : EReal) := by
  refine (Ideal.multiReduction_maximumf_single f _ reduces_S1024x512_S1024 _ _ (ix1 p)).trans ?_
  have hf : (f ∘ reduces_S1024x512_S1024.lift (ix1 p)) = fun q : Fin 512 => (f (ix2 p q) : EReal) :=
    funext fun q => congrArg f (pay_lift_row _ p q)
  show (Finset.univ : Finset (Fin 512)).fold max (Ideal.ofBits .f32 0xFF800000#32) (f ∘ reduces_S1024x512_S1024.lift (ix1 p)) = _
  rw [hf, pay_word_neg_inf]
  rfl

/-! ## The product of a [1024, 256] block with a [256, 512] block -/

/-- The left operand's row is the output's row. -/
theorem pay_lhs_0 (j : S1024x512.Idx) (c : dot_S1024x256_S256x512_S1024x512_1_0_0_1_n_n.contr.Idx) :
    (dot_S1024x256_S256x512_S1024x512_1_0_0_1_n_n.lhsIdx j c 0).val = (j 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
/-- The left operand's column is the contracted coordinate. -/
theorem pay_lhs_1 (j : S1024x512.Idx) (c : dot_S1024x256_S256x512_S1024x512_1_0_0_1_n_n.contr.Idx) :
    (dot_S1024x256_S256x512_S1024x512_1_0_0_1_n_n.lhsIdx j c 1).val = (c ⟨0, by decide⟩).val :=
  dot_S1024x256_S256x512_S1024x512_1_0_0_1_n_n.lhsIdx_val_of_single rfl j c
/-- The right operand's row is the contracted coordinate. -/
theorem pay_rhs_0 (j : S1024x512.Idx) (c : dot_S1024x256_S256x512_S1024x512_1_0_0_1_n_n.contr.Idx) :
    (dot_S1024x256_S256x512_S1024x512_1_0_0_1_n_n.rhsIdx j c 0).val = (c ⟨0, by decide⟩).val :=
  dot_S1024x256_S256x512_S1024x512_1_0_0_1_n_n.rhsIdx_val_of_single rfl j c
/-- The right operand's column is the output's column. -/
theorem pay_rhs_1 (j : S1024x512.Idx) (c : dot_S1024x256_S256x512_S1024x512_1_0_0_1_n_n.contr.Idx) :
    (dot_S1024x256_S256x512_S1024x512_1_0_0_1_n_n.rhsIdx j c 1).val = (j 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The product accumulated into zero, read at (p, q): the sum over the 256 contracted coordinates f of
    left (p, f) times right (f, q). -/
theorem pay_matmul (A : FVec Ideal S1024x256 .bf16) (B : FVec Ideal S256x512 .bf16) (p : Fin 1024) (q : Fin 512) :
    (FloatOps.matmul dot_S1024x256_S256x512_S1024x512_1_0_0_1_n_n none A B (constant (F := Ideal) S1024x512 .f32 0x00000000#32) (ix2 p q) : EReal)
      = ∑ f : Fin 256, (A (ix2 p f) : EReal) * (B (ix2 f q) : EReal) := by
  rw [Ideal.matmul_constant_zero_apply, ← Equiv.sum_comp (contrEquiv1 dot_S1024x256_S256x512_S1024x512_1_0_0_1_n_n 256 rfl rfl).symm]
  refine Finset.sum_congr rfl fun f _ => ?_
  have hk := contrEquiv1_symm_val dot_S1024x256_S256x512_S1024x512_1_0_0_1_n_n 256 rfl rfl f
  have el : dot_S1024x256_S256x512_S1024x512_1_0_0_1_n_n.lhsIdx (ix2 p q) ((contrEquiv1 dot_S1024x256_S256x512_S1024x512_1_0_0_1_n_n 256 rfl rfl).symm f) = ix2 p f := funext fun a => Fin.ext (by
    match a with
    | ⟨0, _⟩ => exact pay_lhs_0 _ _
    | ⟨1, _⟩ => exact (pay_lhs_1 _ _).trans hk)
  have er : dot_S1024x256_S256x512_S1024x512_1_0_0_1_n_n.rhsIdx (ix2 p q) ((contrEquiv1 dot_S1024x256_S256x512_S1024x512_1_0_0_1_n_n 256 rfl rfl).symm f) = ix2 f q := funext fun a => Fin.ext (by
    match a with
    | ⟨0, _⟩ => exact (pay_rhs_0 _ _).trans hk
    | ⟨1, _⟩ => exact pay_rhs_1 _ _)
  rw [el, er]

/-! ## The payloads -/

theorem pay8_apply (x0 : Vec Ideal S1024x256 .bf16) (x1 : Vec Ideal S512x256 .bf16) (p : Fin 1024) (q : Fin 512) :
    (k0_pay8 (F := Ideal) x0 x1 (ix2 p q) : EReal) = (∑ f : Fin 256, (x0 (ix2 p f) : EReal) * (x1 (ix2 q f) : EReal)) * kap := by
  unfold k0_pay8
  rw [shapeCast_self, shapeCast_self]
  show (FloatOps.matmul dot_S1024x256_S256x512_S1024x512_1_0_0_1_n_n none (x0 : FVec Ideal S1024x256 .bf16)
        (transpose S256x512 [1, 0] (x1 : FVec Ideal S512x256 .bf16) transposes_S512x256_p1_0_S256x512)
        (constant (F := Ideal) S1024x512 .f32 0x00000000#32) (ix2 p q) : EReal)
      * Named.named (F := Ideal) κ "inv_temp" (φ := .f32) 0x41200000#32 = _
  rw [pay_inv_temp, pay_matmul]
  refine congrArg (· * kap) (Finset.sum_congr rfl fun f _ => ?_)
  rw [transpose_ix2_apply]

theorem pay9_apply (i : grid0.Coords) (p : Fin 1024) (q : Fin 512) :
    k0_pay9 i (ix2 p q) = if 1024 * (i 0).val + p.val = 512 * (i 1).val + q.val then 1#1 else 0#1 := by
  have h0 : (i 0).val < 8 := (i 0).isLt
  have h1 : (i 1).val < 16 := (i 1).isLt
  have hp := p.isLt
  have hq := q.isLt
  unfold k0_pay9
  show BitVec.ofBool ((BitVec.ofNat 32 (i 0).val * 1024#32 + iota .tc S1024x512 32 [0] iota_S1024x512_d0_w32 (ix2 p q))
        == (BitVec.ofNat 32 (i 1).val * 512#32 + iota .tc S1024x512 32 [1] iota_S1024x512_d1_w32 (ix2 p q))) = _
  rw [iota_single_apply, iota_single_apply]
  show BitVec.ofBool ((BitVec.ofNat 32 (i 0).val * 1024#32 + BitVec.ofNat 32 p.val)
        == (BitVec.ofNat 32 (i 1).val * 512#32 + BitVec.ofNat 32 q.val)) = _
  -- both sides stay below 2³², so the words are equal exactly when the naturals are
  have hl : (BitVec.ofNat 32 (i 0).val * 1024#32 + BitVec.ofNat 32 p.val).toNat = 1024 * (i 0).val + p.val := by
    simp only [BitVec.toNat_add, BitVec.toNat_mul, BitVec.toNat_ofNat]
    omega
  have hr : (BitVec.ofNat 32 (i 1).val * 512#32 + BitVec.ofNat 32 q.val).toNat = 512 * (i 1).val + q.val := by
    simp only [BitVec.toNat_add, BitVec.toNat_mul, BitVec.toNat_ofNat]
    omega
  by_cases h : 1024 * (i 0).val + p.val = 512 * (i 1).val + q.val
  · rw [if_pos h, beq_iff_eq.mpr (BitVec.eq_of_toNat_eq (by rw [hl, hr, h]))]
    rfl
  · rw [if_neg h, beq_eq_false_iff_ne.mpr (fun e => h (by rw [← hl, ← hr, e]))]
    rfl

theorem pay10_apply (i : grid0.Coords) (x0 : Vec Ideal S1024x256 .bf16) (x1 : Vec Ideal S512x256 .bf16) (p : Fin 1024) (q : Fin 512) :
    (k0_pay10 (F := Ideal) i x0 x1 (ix2 p q) : EReal)
      = if 1024 * (i 0).val + p.val = 512 * (i 1).val + q.val then (⊥ : EReal) else (k0_pay8 (F := Ideal) x0 x1 (ix2 p q) : EReal) := by
  unfold k0_pay10
  show Scalar.select (k0_pay9 i (ix2 p q)) (Named.named (F := Ideal) κ "neg_big" (φ := .f32) 0xFF333332#32) (k0_pay8 (F := Ideal) x0 x1 (ix2 p q)) = _
  rw [pay9_apply, pay_neg_big]
  by_cases h : 1024 * (i 0).val + p.val = 512 * (i 1).val + q.val
  · rw [if_pos h, if_pos h, select_one]
  · rw [if_neg h, if_neg h, select_zero]

theorem pay11_apply (i : grid0.Coords) (x0 : Vec Ideal S1024x256 .bf16) (x1 : Vec Ideal S512x256 .bf16) (v24 : Vec Ideal S1024x1 .f32) (p : Fin 1024) :
    (k0_pay11 (F := Ideal) i x0 x1 v24 (ix2 p (0 : Fin 1)) : EReal)
      = max (v24 (ix2 p (0 : Fin 1)) : EReal) (Finset.univ.sup fun q : Fin 512 => (k0_pay10 (F := Ideal) i x0 x1 (ix2 p q) : EReal)) := by
  unfold k0_pay11
  show max (v24 (ix2 p (0 : Fin 1)) : EReal) (shapeCast S1024x1 (multiReduction (F := Ideal) .maximumf [1] S1024 (k0_pay10 (F := Ideal) i x0 x1) 0xFF800000#32 reduces_S1024x512_S1024 (.inl rfl) rfl) shapeCasts_S1024_S1024x1 (ix2 p (0 : Fin 1))) = _
  rw [pay_cast_vec_col, pay_rowMax]

theorem pay12_apply (i : grid0.Coords) (x0 : Vec Ideal S1024x256 .bf16) (x1 : Vec Ideal S512x256 .bf16) (v24 v26 v32 : Vec Ideal S1024x1 .f32) (p : Fin 1024) :
    (k0_pay12 (F := Ideal) i x0 x1 v24 v26 v32 (ix2 p (0 : Fin 1)) : EReal)
      = Ideal.exp ((v26 (ix2 p (0 : Fin 1)) : EReal) - (k0_pay11 (F := Ideal) i x0 x1 v24 (ix2 p (0 : Fin 1)) : EReal)) * (v32 (ix2 p (0 : Fin 1)) : EReal)
        + ∑ q : Fin 512, Ideal.exp ((k0_pay10 (F := Ideal) i x0 x1 (ix2 p q) : EReal) - (k0_pay11 (F := Ideal) i x0 x1 v24 (ix2 p (0 : Fin 1)) : EReal)) := by
  unfold k0_pay12
  show Ideal.exp ((v26 (ix2 p (0 : Fin 1)) : EReal) - (k0_pay11 (F := Ideal) i x0 x1 v24 (ix2 p (0 : Fin 1)) : EReal)) * (v32 (ix2 p (0 : Fin 1)) : EReal)
      + shapeCast S1024x1 (multiReduction (F := Ideal) .add [1] S1024 (exp (subf (k0_pay10 (F := Ideal) i x0 x1) (broadcastTo S1024x512 (k0_pay11 (F := Ideal) i x0 x1 v24) broadcasts_S1024x1_S1024x512))) 0x00000000#32 reduces_S1024x512_S1024 (.inl rfl) rfl) shapeCasts_S1024_S1024x1 (ix2 p (0 : Fin 1)) = _
  rw [pay_cast_vec_col, pay_rowSum]
  refine congrArg (_ + ·) (Finset.sum_congr rfl fun q _ => ?_)
  show Ideal.exp ((k0_pay10 (F := Ideal) i x0 x1 (ix2 p q) : EReal) - broadcastTo S1024x512 (k0_pay11 (F := Ideal) i x0 x1 v24) broadcasts_S1024x1_S1024x512 (ix2 p q)) = _
  rw [pay_bcast_col]

theorem pay2_apply (v10 : FVec Ideal S1024x512 .f32) (v19 : IVec S1024x512 1) (v40 : Vec Ideal S1024x1 .f32) (p : Fin 1024) :
    (k0_pay2 (F := Ideal) v10 v19 v40 (ix2 p (0 : Fin 1)) : EReal)
      = (v40 (ix2 p (0 : Fin 1)) : EReal) + ∑ q : Fin 512, (if v19 (ix2 p q) = 1#1 then (0 : EReal) else (v10 (ix2 p q) : EReal)) := by
  unfold k0_pay2
  rw [shapeCast_self]
  show (v40 (ix2 p (0 : Fin 1)) : EReal) + shapeCast S1024x1 (multiReduction (F := Ideal) .add [1] S1024 (select v19 (broadcast S1024x512 (Scalar.ofBits .f32 0x00000000#32)) v10) 0x00000000#32 reduces_S1024x512_S1024 (.inl rfl) rfl) shapeCasts_S1024_S1024x1 (ix2 p (0 : Fin 1)) = _
  rw [pay_cast_vec_col, pay_rowSum]
  refine congrArg (_ + ·) (Finset.sum_congr rfl fun q _ => ?_)
  show Scalar.select (v19 (ix2 p q)) (Ideal.ofBits .f32 0x00000000#32) (v10 (ix2 p q)) = _
  rw [Ideal.ofBits_zero_f32]
  rfl

theorem pay1_eq (v : FVec Ideal S1024x1 .f32) : k0_pay1 (F := Ideal) v = v := by
  unfold k0_pay1
  exact shapeCast_self _ _

theorem pay3_eq (v : FVec Ideal S1024x1 .f32) : k0_pay3 (F := Ideal) v = v := by
  unfold k0_pay3
  exact shapeCast_self _ _

theorem pay4_apply (v55 v56 v60 : Vec Ideal S1024x1 .f32) (p : Fin 1024) :
    (k0_pay4 (F := Ideal) v55 v56 v60 (ix1 p) : EReal)
      = ((v55 (ix2 p (0 : Fin 1)) : EReal) - ((8191 : ℝ) : EReal) * (v56 (ix2 p (0 : Fin 1)) : EReal)) - ((8191 : ℝ) : EReal) * Ideal.log (v60 (ix2 p (0 : Fin 1)) : EReal) := by
  unfold k0_pay4
  rw [pay_cast_col_vec]
  show ((v55 (ix2 p (0 : Fin 1)) : EReal) - Ideal.ofBits .f32 0x45FFF800#32 * (v56 (ix2 p (0 : Fin 1)) : EReal))
      - Ideal.ofBits .f32 0x45FFF800#32 * Ideal.log (v60 (ix2 p (0 : Fin 1)) : EReal) = _
  rw [pay_word_8191]

theorem pay5_apply (p : Fin 1024) : (k0_pay5 (F := Ideal) (ix2 p (0 : Fin 1)) : EReal) = ⊥ := by
  unfold k0_pay5
  rw [shapeCast_self]
  exact pay_neg_big

theorem pay6_apply (p : Fin 1024) : (k0_pay6 (F := Ideal) (ix2 p (0 : Fin 1)) : EReal) = 0 := by
  unfold k0_pay6
  rw [shapeCast_self]
  exact Ideal.ofBits_zero_f32

theorem pay7_apply (p : Fin 1024) : (k0_pay7 (F := Ideal) (ix2 p (0 : Fin 1)) : EReal) = 0 := by
  unfold k0_pay7
  rw [shapeCast_self]
  exact Ideal.ofBits_zero_f32

end Cert.KernelIdeal.Hand

end
-- ==== Proof.Ideal.Points.lean ====
/-
  The region's output array, row by row, is the kernel's row formula of the scores.

  The scores are the pairwise inner products of the rows of the array both input windows read, times the named
  scale. Point t = 16·i + j handles row tile i (rows 1024·i + p) against column tile j (columns 512·j + q). By
  induction on j, after point 16·i + j the three scratch buffers hold, at row p, the running maximum, rescaled sum
  and plain sum of row 1024·i + p after its first j + 1 column blocks (Spec.run); at j = 15 the output window's
  buffer holds the row results (Spec.rowKer), which the pipeline writes back as block i of the output array; the
  eight blocks tile the array.
-/
import proofs.«136477_j12128987644289_1_alg».proof.Proof.Ideal.Pieces
import proofs.«136477_j12128987644289_1_alg».proof.Proof.Ideal.Payload
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The array both input windows read, as the region finds it. -/
abbrev xarr (c : Dev nD) : Vec Ideal S8192x256 .bf16 := V m c main_v19

/-- The kernel's score of rows r and k: the inner product of rows r and k of the array both windows read, times the
    named scale. -/
def kscore (c : Dev nD) (r k : Cert.Spec.R) : EReal :=
  (∑ f : Fin 256, (xarr m c (ix2 r f) : EReal) * (xarr m c (ix2 k f) : EReal)) * kap

/-! ## The grid and the windows' blocks -/

/-- Point t of the 8 × 16 grid has row tile t / 16 and column tile t % 16. -/
theorem coords_facts : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- The windows' block indices at point t: the left operand's follows the row tile, the right operand's the column
    tile, the output's the row tile. -/
theorem index_facts : ∀ t : Fin cfg0.N, win0_0.index t (0 : Fin 2) = t.val / 16 ∧ win0_0.index t (1 : Fin 2) = 0
    ∧ win0_1.index t (0 : Fin 2) = t.val % 16 ∧ win0_1.index t (1 : Fin 2) = 0 ∧ win0_2.index t (0 : Fin 1) = t.val / 16 :=
  (by decide +kernel : ∀ t : Fin grid0.N, win0_0.index t (0 : Fin 2) = t.val / 16 ∧ win0_0.index t (1 : Fin 2) = 0
    ∧ win0_1.index t (0 : Fin 2) = t.val % 16 ∧ win0_1.index t (1 : Fin 2) = 0 ∧ win0_2.index t (0 : Fin 1) = t.val / 16)

/-- The left operand's block at point t. -/
abbrev xblk (c : Dev nD) (t : Fin cfg0.N) : Vec Ideal S1024x256 .bf16 := iblk m c 0 t
/-- The right operand's block at point t. -/
abbrev yblk (c : Dev nD) (t : Fin cfg0.N) : Vec Ideal S512x256 .bf16 := iblk m c 1 t

/-- The left operand's block at point t is rows 1024·(t / 16) + p of the array. -/
theorem xblk_apply (c : Dev nD) (t : Fin cfg0.N) (p : Fin 1024) (f : Fin 256) (k : Fin 8192)
    (hk : k.val = 1024 * (t.val / 16) + p.val) :
    xblk m c t (ix2 p f) = xarr m c (ix2 k f) := by
  obtain ⟨e0, e1, -⟩ := index_facts t
  unfold xblk iblk
  rw [View.read_apply]
  show V m c main_v19 _ = V m c main_v19 _
  congr 1
  funext a
  apply Fin.ext
  match a with
  | ⟨0, _⟩ => show win0_0.index t 0 * 1024 + 1 * p.val = k.val; rw [e0, hk]; omega
  | ⟨1, _⟩ => show win0_0.index t 1 * 256 + 1 * f.val = f.val; rw [e1]; omega

/-- The right operand's block at point t is rows 512·(t % 16) + q of the array. -/
theorem yblk_apply (c : Dev nD) (t : Fin cfg0.N) (q : Fin 512) (f : Fin 256) (k : Fin 8192)
    (hk : k.val = 512 * (t.val % 16) + q.val) :
    yblk m c t (ix2 q f) = xarr m c (ix2 k f) := by
  obtain ⟨-, -, e0, e1, -⟩ := index_facts t
  unfold yblk iblk
  rw [View.read_apply]
  show V m c main_v19 _ = V m c main_v19 _
  congr 1
  funext a
  apply Fin.ext
  match a with
  | ⟨0, _⟩ => show win0_1.index t 0 * 512 + 1 * q.val = k.val; rw [e0, hk]; omega
  | ⟨1, _⟩ => show win0_1.index t 1 * 256 + 1 * f.val = f.val; rw [e1]; omega

/-! ## One column block of one row, as the payloads compute it -/

/-- The running quantities after k + 1 blocks are one step from those after k. -/
theorem run_succ (s : Cert.Spec.R → Cert.Spec.R → EReal) (r : Cert.Spec.R) (k : ℕ) (hk : k < 16) :
    Cert.Spec.run s r (k + 1) = Cert.Spec.step s r ⟨k, hk⟩ (Cert.Spec.run s r k) := by
  simp only [Cert.Spec.run, hk, dite_true]

/-- Row p of a tile: the tile sits at grid coordinates i, its row p is row r of the score matrix, its columns are
    column block j; x0 and x1 are the tile's left and right blocks of the array A, and s is A's score matrix. -/
structure Tile (A : Vec Ideal S8192x256 .bf16) (s : Cert.Spec.R → Cert.Spec.R → EReal) (i : grid0.Coords)
    (r : Cert.Spec.R) (j : Fin 16) (p : Fin 1024) (x0 : Vec Ideal S1024x256 .bf16) (x1 : Vec Ideal S512x256 .bf16) : Prop where
  hs : ∀ r k, s r k = (∑ f : Fin 256, (A (ix2 r f) : EReal) * (A (ix2 k f) : EReal)) * kap
  hr : r.val = 1024 * (i 0).val + p.val
  hj : (i 1).val = j.val
  hx0 : ∀ f : Fin 256, x0 (ix2 p f) = A (ix2 r f)
  hx1 : ∀ (q : Fin 512) (f : Fin 256), x1 (ix2 q f) = A (ix2 (Cert.Spec.col j q) f)

section Step

variable {A : Vec Ideal S8192x256 .bf16} {s : Cert.Spec.R → Cert.Spec.R → EReal} {i : grid0.Coords}
  {r : Cert.Spec.R} {j : Fin 16} {p : Fin 1024} {x0 : Vec Ideal S1024x256 .bf16} {x1 : Vec Ideal S512x256 .bf16}

/-- The scaled product of the tile at (p, q) is the score of row r and column 512·j + q. -/
theorem pay8_tile (h : Tile A s i r j p x0 x1) (q : Fin 512) :
    (k0_pay8 (F := Ideal) x0 x1 (ix2 p q) : EReal) = s r (Cert.Spec.col j q) := by
  rw [pay8_apply, h.hs]
  congr 1
  refine Finset.sum_congr rfl fun f _ => ?_
  rw [h.hx0 f, h.hx1 q f]

/-- The tile's diagonal test at (p, q) asks whether column 512·j + q is row r. -/
theorem diag_iff (h : Tile A s i r j p x0 x1) (q : Fin 512) :
    1024 * (i 0).val + p.val = 512 * (i 1).val + q.val ↔ Cert.Spec.col j q = r := by
  rw [Fin.ext_iff]
  show _ ↔ 512 * j.val + q.val = r.val
  rw [h.hr, h.hj]
  exact eq_comm

/-- The masked scaled product of the tile at (p, q) is the masked score. -/
theorem pay10_tile (h : Tile A s i r j p x0 x1) (q : Fin 512) :
    (k0_pay10 (F := Ideal) i x0 x1 (ix2 p q) : EReal) = Cert.Spec.msk s r (Cert.Spec.col j q) := by
  rw [pay10_apply, pay8_tile h]
  unfold Cert.Spec.msk
  exact if_congr (diag_iff h q) rfl rfl

/-- The new running maximum of row p. -/
theorem pay11_tile (h : Tile A s i r j p x0 x1) (v24 : Vec Ideal S1024x1 .f32) :
    (k0_pay11 (F := Ideal) i x0 x1 v24 (ix2 p (0 : Fin 1)) : EReal)
      = max (v24 (ix2 p (0 : Fin 1)) : EReal) (Cert.Spec.blkMax s r j) := by
  rw [pay11_apply]
  congr 1
  unfold Cert.Spec.blkMax
  exact Finset.sup_congr rfl fun q _ => pay10_tile h q

/-- The new rescaled sum of exponentials of row p. -/
theorem pay12_tile (h : Tile A s i r j p x0 x1) (v24 v26 v32 : Vec Ideal S1024x1 .f32) :
    (k0_pay12 (F := Ideal) i x0 x1 v24 v26 v32 (ix2 p (0 : Fin 1)) : EReal)
      = Ideal.exp ((v26 (ix2 p (0 : Fin 1)) : EReal) - max (v24 (ix2 p (0 : Fin 1)) : EReal) (Cert.Spec.blkMax s r j)) * (v32 (ix2 p (0 : Fin 1)) : EReal)
        + ∑ q : Fin 512, Ideal.exp (Cert.Spec.msk s r (Cert.Spec.col j q) - max (v24 (ix2 p (0 : Fin 1)) : EReal) (Cert.Spec.blkMax s r j)) := by
  rw [pay12_apply, pay11_tile h]
  congr 1
  refine Finset.sum_congr rfl fun q _ => ?_
  rw [pay10_tile h q]

/-- The new plain sum of row p. -/
theorem pay2_tile (h : Tile A s i r j p x0 x1) (v40 : Vec Ideal S1024x1 .f32) :
    (k0_pay2 (F := Ideal) (k0_pay8 (F := Ideal) x0 x1) (k0_pay9 i) v40 (ix2 p (0 : Fin 1)) : EReal)
      = (v40 (ix2 p (0 : Fin 1)) : EReal) + ∑ q : Fin 512, (if Cert.Spec.col j q = r then (0 : EReal) else s r (Cert.Spec.col j q)) := by
  rw [pay2_apply]
  congr 1
  refine Finset.sum_congr rfl fun q _ => ?_
  rw [pay9_apply, pay8_tile h q]
  by_cases hc : 1024 * (i 0).val + p.val = 512 * (i 1).val + q.val
  · rw [if_pos hc, if_pos rfl, if_pos ((diag_iff h q).mp hc)]
  · rw [if_neg hc, if_neg (by decide), if_neg fun e => hc ((diag_iff h q).mpr e)]

/-- ONE STEP. What the body leaves at row p of the three scratch buffers, from what it found there, is one step of
    the kernel's row recurrence at column block j. -/
theorem step_tile (h : Tile A s i r j p x0 x1) (xs0 xs1 xs2 : Vec Ideal S1024x1 .f32) :
    (⟨(k0_pay3 (F := Ideal) (k0_pay11 (F := Ideal) i x0 x1 xs0) (ix2 p (0 : Fin 1)) : EReal),
      (k0_pay1 (F := Ideal) (k0_pay12 (F := Ideal) i x0 x1 xs0 xs0 xs1) (ix2 p (0 : Fin 1)) : EReal),
      (k0_pay2 (F := Ideal) (k0_pay8 (F := Ideal) x0 x1) (k0_pay9 i) xs2 (ix2 p (0 : Fin 1)) : EReal)⟩ : Cert.Spec.St)
      = Cert.Spec.step s r j ⟨(xs0 (ix2 p (0 : Fin 1)) : EReal), (xs1 (ix2 p (0 : Fin 1)) : EReal), (xs2 (ix2 p (0 : Fin 1)) : EReal)⟩ := by
  rw [pay3_eq, pay1_eq, pay11_tile h, pay12_tile h, pay2_tile h]
  rfl

end Step

/-! ## The scratch buffers point by point -/

/-- The row of the score matrix that row p of point t's row tile is. -/
def rowOf (t : Fin cfg0.N) (p : Fin 1024) : Cert.Spec.R :=
  ⟨1024 * (t.val / 16) + p.val, by
    have h := lt_of_lt_of_eq t.isLt (show cfg0.N = 128 from N_0)
    have := p.isLt
    omega⟩

/-- Point t's column block. -/
def colOf (t : Fin cfg0.N) : Fin 16 := ⟨t.val % 16, Nat.mod_lt _ (by decide)⟩

/-- Point t's tile, at its row p, is a tile of the array the windows read, with the kernel's scores. -/
theorem tile_at (c : Dev nD) (t : Fin cfg0.N) (p : Fin 1024) :
    Tile (xarr m c) (kscore m c) (grid0.coords t) (rowOf t p) (colOf t) p (xblk m c t) (yblk m c t) where
  hs := fun _ _ => rfl
  hr := by rw [(coords_facts t).1]; rfl
  hj := (coords_facts t).2
  hx0 := fun f => xblk_apply m c t p f (rowOf t p) rfl
  hx1 := fun q f => yblk_apply m c t q f (Cert.Spec.col (colOf t) q) rfl

/-- If row p of the scratch holds the running quantities of its row after the column blocks before point t's, then
    what the body leaves there holds them after point t's block too. -/
theorem inv_step (c : Dev nD) (t : Fin cfg0.N) (p : Fin 1024) (xs0 xs1 xs2 : Vec Ideal S1024x1 .f32)
    (hprev : (⟨(xs0 (ix2 p (0 : Fin 1)) : EReal), (xs1 (ix2 p (0 : Fin 1)) : EReal), (xs2 (ix2 p (0 : Fin 1)) : EReal)⟩ : Cert.Spec.St)
      = Cert.Spec.run (kscore m c) (rowOf t p) (t.val % 16)) :
    (⟨(k0_pay3 (F := Ideal) (k0_pay11 (F := Ideal) (grid0.coords t) (xblk m c t) (yblk m c t) xs0) (ix2 p (0 : Fin 1)) : EReal),
      (k0_pay1 (F := Ideal) (k0_pay12 (F := Ideal) (grid0.coords t) (xblk m c t) (yblk m c t) xs0 xs0 xs1) (ix2 p (0 : Fin 1)) : EReal),
      (k0_pay2 (F := Ideal) (k0_pay8 (F := Ideal) (xblk m c t) (yblk m c t)) (k0_pay9 (grid0.coords t)) xs2 (ix2 p (0 : Fin 1)) : EReal)⟩ : Cert.Spec.St)
      = Cert.Spec.run (kscore m c) (rowOf t p) (t.val % 16 + 1) := by
  rw [step_tile (tile_at m c t p), hprev, run_succ _ _ (t.val % 16) (Nat.mod_lt _ (by decide))]
  rfl

/-- What the buffers hold after a point of the first case, as the body's arithmetic over the reset values. -/
theorem outs_first (c : Dev nD) (t : Fin cfg0.N) (h0 : t.val % 16 = 0) (h1 : ¬t.val % 16 = 15) :
    outsAt0 m c t.val t.isLt
      = (outIdle (F := Ideal),
         k0_pay3 (F := Ideal) (k0_pay11 (F := Ideal) (grid0.coords t) (xblk m c t) (yblk m c t) (k0_pay5 (F := Ideal))),
         k0_pay1 (F := Ideal) (k0_pay12 (F := Ideal) (grid0.coords t) (xblk m c t) (yblk m c t) (k0_pay5 (F := Ideal)) (k0_pay5 (F := Ideal)) (k0_pay6 (F := Ideal))),
         k0_pay2 (F := Ideal) (k0_pay8 (F := Ideal) (xblk m c t) (yblk m c t)) (k0_pay9 (grid0.coords t)) (k0_pay7 (F := Ideal))) := by
  rw [outsAt0_First m c t h0 h1,
    soutFirst_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    soutFirst_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    soutFirst_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)]

/-- What the buffers hold after a point of the middle case, as the body's arithmetic over what the point before left. -/
theorem outs_mid (c : Dev nD) (t : Fin cfg0.N) (h0 : ¬t.val % 16 = 0) (h1 : ¬t.val % 16 = 15) :
    outsAt0 m c t.val t.isLt
      = (outIdle (F := Ideal),
         k0_pay3 (F := Ideal) (k0_pay11 (F := Ideal) (grid0.coords t) (xblk m c t) (yblk m c t) (outsAt0 m c (t.val - 1) (Nat.lt_of_le_of_lt (Nat.sub_le _ _) t.isLt)).2.1),
         k0_pay1 (F := Ideal) (k0_pay12 (F := Ideal) (grid0.coords t) (xblk m c t) (yblk m c t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1),
         k0_pay2 (F := Ideal) (k0_pay8 (F := Ideal) (xblk m c t) (yblk m c t)) (k0_pay9 (grid0.coords t)) (outsAt0 m c (t.val - 1) (Nat.lt_of_le_of_lt (Nat.sub_le _ _) t.isLt)).2.2.2) := by
  rw [outsAt0_Mid m c t h0 h1,
    soutMid_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    soutMid_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    soutMid_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

/-- What the buffers hold after a point of the last case: the same arithmetic, and the row results in the output
    window's buffer. -/
theorem outs_last (c : Dev nD) (t : Fin cfg0.N) (h0 : ¬t.val % 16 = 0) (h1 : t.val % 16 = 15) :
    outsAt0 m c t.val t.isLt
      = (k0_pay4 (F := Ideal)
           (k0_pay2 (F := Ideal) (k0_pay8 (F := Ideal) (xblk m c t) (yblk m c t)) (k0_pay9 (grid0.coords t)) (outsAt0 m c (t.val - 1) (Nat.lt_of_le_of_lt (Nat.sub_le _ _) t.isLt)).2.2.2)
           (k0_pay3 (F := Ideal) (k0_pay11 (F := Ideal) (grid0.coords t) (xblk m c t) (yblk m c t) (outsAt0 m c (t.val - 1) (Nat.lt_of_le_of_lt (Nat.sub_le _ _) t.isLt)).2.1))
           (k0_pay1 (F := Ideal) (k0_pay12 (F := Ideal) (grid0.coords t) (xblk m c t) (yblk m c t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1)),
         k0_pay3 (F := Ideal) (k0_pay11 (F := Ideal) (grid0.coords t) (xblk m c t) (yblk m c t) (outsAt0 m c (t.val - 1) (Nat.lt_of_le_of_lt (Nat.sub_le _ _) t.isLt)).2.1),
         k0_pay1 (F := Ideal) (k0_pay12 (F := Ideal) (grid0.coords t) (xblk m c t) (yblk m c t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1),
         k0_pay2 (F := Ideal) (k0_pay8 (F := Ideal) (xblk m c t) (yblk m c t)) (k0_pay9 (grid0.coords t)) (outsAt0 m c (t.val - 1) (Nat.lt_of_le_of_lt (Nat.sub_le _ _) t.isLt)).2.2.2) := by
  rw [outsAt0_Last m c t h0 h1,
    outLast_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    soutLast_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    soutLast_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    soutLast_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

/-- Row p of the three scratch buffers after point t. -/
def scrAt (c : Dev nD) (t : Fin cfg0.N) (p : Fin 1024) : Cert.Spec.St :=
  ⟨((outsAt0 m c t.val t.isLt).2.1 (ix2 p (0 : Fin 1)) : EReal), ((outsAt0 m c t.val t.isLt).2.2.1 (ix2 p (0 : Fin 1)) : EReal),
   ((outsAt0 m c t.val t.isLt).2.2.2 (ix2 p (0 : Fin 1)) : EReal)⟩

/-- The point before t. -/
def prevPt (t : Fin cfg0.N) : Fin cfg0.N := ⟨t.val - 1, Nat.lt_of_le_of_lt (Nat.sub_le _ _) t.isLt⟩

/-- At column tile 0 the scratch holds the running quantities after the first column block: one step from the
    reset values −∞, 0, 0. -/
theorem scr_first (c : Dev nD) (t : Fin cfg0.N) (h0 : t.val % 16 = 0) (h1 : ¬t.val % 16 = 15) (p : Fin 1024) :
    scrAt m c t p = Cert.Spec.run (kscore m c) (rowOf t p) (t.val % 16 + 1) := by
  unfold scrAt
  rw [outs_first m c t h0 h1]
  dsimp only
  refine inv_step m c t p (k0_pay5 (F := Ideal)) (k0_pay6 (F := Ideal)) (k0_pay7 (F := Ideal)) ?_
  rw [pay5_apply, pay6_apply, pay7_apply, h0]
  rfl

/-- At a later column tile the scratch holds one step more than at the point before, which was in the same row tile. -/
theorem scr_next (c : Dev nD) (t : Fin cfg0.N) (h0 : ¬t.val % 16 = 0) (p : Fin 1024)
    (hprev : scrAt m c (prevPt t) p = Cert.Spec.run (kscore m c) (rowOf (prevPt t) p) ((prevPt t).val % 16 + 1)) :
    scrAt m c t p = Cert.Spec.run (kscore m c) (rowOf t p) (t.val % 16 + 1) := by
  have e1 : rowOf (prevPt t) p = rowOf t p :=
    Fin.ext (by show 1024 * ((t.val - 1) / 16) + p.val = 1024 * (t.val / 16) + p.val; omega)
  have e2 : (t.val - 1) % 16 + 1 = t.val % 16 := by omega
  have hp : scrAt m c (prevPt t) p = Cert.Spec.run (kscore m c) (rowOf t p) (t.val % 16) := by
    rw [hprev, e1]
    show Cert.Spec.run _ _ ((t.val - 1) % 16 + 1) = _
    rw [e2]
  unfold scrAt
  by_cases h1 : t.val % 16 = 15
  · rw [outs_last m c t h0 h1]
    dsimp only
    exact inv_step m c t p (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 hp
  · rw [outs_mid m c t h0 h1]
    dsimp only
    exact inv_step m c t p (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 hp

/-- THE INVARIANT. After point t the scratch holds, at row p, the running quantities of row 1024·(t / 16) + p after
    its first t % 16 + 1 column blocks. -/
theorem scrAt_eq (c : Dev nD) : ∀ (n : ℕ) (t : Fin cfg0.N), t.val = n → ∀ p : Fin 1024,
    scrAt m c t p = Cert.Spec.run (kscore m c) (rowOf t p) (t.val % 16 + 1) := by
  intro n
  induction n with
  | zero =>
    intro t ht p
    exact scr_first m c t (by rw [ht]) (by rw [ht]; decide) p
  | succ n ih =>
    intro t ht p
    by_cases h0 : t.val % 16 = 0
    · exact scr_first m c t h0 (by omega) p
    · exact scr_next m c t h0 p (ih (prevPt t) (by show t.val - 1 = n; omega) p)

/-- At column tile 15 the output window's buffer holds, at row p, the kernel's row formula of row 1024·(t / 16) + p. -/
theorem out_row (c : Dev nD) (t : Fin cfg0.N) (h1 : t.val % 16 = 15) (p : Fin 1024) :
    ((outsAt0 m c t.val t.isLt).1 (ix1 p) : EReal) = Cert.Spec.rowKer (kscore m c) (rowOf t p) := by
  have h0 : ¬t.val % 16 = 0 := by omega
  have hs := scrAt_eq m c t.val t rfl p
  rw [h1] at hs
  unfold scrAt at hs
  rw [outs_last m c t h0 h1] at hs ⊢
  dsimp only at hs ⊢
  rw [pay4_apply]
  have hm := congrArg Cert.Spec.St.m hs
  have hl := congrArg Cert.Spec.St.l hs
  have hrs := congrArg Cert.Spec.St.rs hs
  dsimp only at hm hl hrs
  rw [hm, hl, hrs]
  rfl

/-! ## From the blocks to the array -/

/-- The row results: what the output array ends holding. -/
abbrev rowsOut (c : Dev nD) : Buf (Elt Ideal) ((c : Thread nD τ).loc main_v20) :=
  (fun idx => Cert.Spec.rowKer (kscore m c) ⟨(idx 0).val, (idx 0).isLt⟩ : S8192.Idx → EReal)

/-- What a point of column tile 15 writes back is its block of the row results. -/
theorem flushed_eq (c : Dev nD) (t : Fin cfg0.N) (hf : (cfg0.win 2).flush t = true) :
    (dats (F := Ideal) m 0 c).flushed 2 t = ((cfg0.win 2).blk t).view.read (Elt Ideal) (rowsOut m c) := by
  have h1 : t.val % 16 = 15 := (flush0_2 t).mp hf
  obtain ⟨-, -, -, -, e2⟩ := index_facts t
  show (cfg0.win 2).cut (grid0.coords t) ((dats m 0 c).after 2 t) = _
  rw [after0_2]
  funext y
  obtain ⟨p, rfl⟩ : ∃ p : Fin 1024, y = ix1 p := ⟨y 0, eq_ix1 y⟩
  rw [View.read_apply]
  show ((outsAt0 m c t.val t.isLt).1 (ix1 p) : EReal)
    = Cert.Spec.rowKer (kscore m c) ⟨((((cfg0.win 2).blk t).view.emb (ix1 p)) 0).val, ((((cfg0.win 2).blk t).view.emb (ix1 p)) 0).isLt⟩
  rw [out_row m c t h1 p]
  congr 1
  apply Fin.ext
  show 1024 * (t.val / 16) + p.val = win0_2.index t 0 * 1024 + 1 * p.val
  rw [e2]
  omega

/-- After the region the output array holds, at row r, the kernel's row formula of the scores. -/
theorem arrAt_out (c : Dev nD) :
    ((dats (F := Ideal) m 0 c).arrAt 2 cfg0.N : S8192.Idx → EReal)
      = fun idx => Cert.Spec.rowKer (kscore m c) ⟨(idx 0).val, (idx 0).isLt⟩ :=
  (dats (F := Ideal) m 0 c).arrAt_eq_of_cover 2 (rowsOut m c) (flushed_eq m c) fun i => by
    have hi : ((i 0 : Fin 8192) : ℕ) < 8192 := (i 0).isLt
    have hN : (16 * ((i 0 : Fin 8192).val / 1024) + 15) < cfg0.N := by rw [show cfg0.N = 128 from N_0]; omega
    refine ⟨⟨16 * ((i 0 : Fin 8192).val / 1024) + 15, hN⟩, (flush0_2 _).mpr (by show (16 * ((i 0 : Fin 8192).val / 1024) + 15) % 16 = 15; omega), ?_⟩
    obtain ⟨-, -, -, -, e2⟩ := index_facts ⟨16 * ((i 0 : Fin 8192).val / 1024) + 15, hN⟩
    show i ∈ ((View.whole main_v20).slice (win0_2.rect ⟨16 * ((i 0 : Fin 8192).val / 1024) + 15, hN⟩)).set
    rw [View.set_slice_whole, Rect.mem_set_unit]
    intro a
    match a with
    | ⟨0, _⟩ =>
      show win0_2.index ⟨16 * ((i 0 : Fin 8192).val / 1024) + 15, hN⟩ 0 * 1024 ≤ (i 0 : Fin 8192).val
        ∧ (i 0 : Fin 8192).val < win0_2.index ⟨16 * ((i 0 : Fin 8192).val / 1024) + 15, hN⟩ 0 * 1024 + 1024
      rw [e2]
      show (16 * ((i 0 : Fin 8192).val / 1024) + 15) / 16 * 1024 ≤ _ ∧ _ < (16 * ((i 0 : Fin 8192).val / 1024) + 15) / 16 * 1024 + 1024
      omega

end Cert.KernelIdeal.Hand

end
-- ==== Proof.Ideal.Value.lean ====
/-
  The idealized kernel's result is the loss.

  After the lines that follow the region the result buffer holds minus the mean of the rows' inner products over
  the temperature, plus the sum of the output array over 4·4096². The output array holds the kernel's row formula
  of its scores; its scores are the inner products of the normalised rows times the named scale, which is the
  quotient by the temperature (x / T = x · (1/T) for the real T ≠ 0); the scores of real inputs are real, so the
  kernel's row formula is the reference's (Spec.rowKer_eq_rowRef).
-/
import proofs.«136477_j12128987644289_1_alg».proof.Proof.Ideal.Launch
import proofs.«136477_j12128987644289_1_alg».proof.Proof.Ideal.Host
import proofs.«136477_j12128987644289_1_alg».proof.Proof.Ideal.Points
import proofs.«136477_j12128987644289_1_alg».proof.Proof.Loss

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Dividing by the temperature is multiplying by the named scale: the temperature is a nonzero real. -/
theorem div_temp (x : EReal) : Ideal.div x Cert.Spec.temp = x * kap := by
  rw [Cert.Spec.temp_eq, Ideal.div_coe (by norm_num)]
  unfold kap
  exact congrArg (fun y : ℝ => x * (y : EReal)) (by norm_num)

/-- The kernel's scores are the target's: the array both windows read holds the normalised rows of both inputs. -/
theorem kscore_eq (c : Dev nD) : kscore m c = Cert.Spec.score (inp0 m c) (inp1 m c) := by
  funext r k
  unfold kscore Cert.Spec.score
  rw [div_temp]
  refine congrArg (fun s : EReal => s * kap) (Finset.sum_congr rfl fun f _ => ?_)
  exact congrArg₂ (fun a b : EReal => a * b) (V_main_v19_apply m c r f) (V_main_v19_apply m c k f)

/-- The result buffer after the lines that follow the region is the loss of the two inputs, when they are real. -/
theorem kernel_value (c : Dev nD) (h0 : Cert.Spec.Real (inp0 m c)) (h1 : Cert.Spec.Real (inp1 m c)) :
    (finW (F := Ideal) m c (Proc.devRef .tc main_v28) : S_.Idx → EReal) = fun _ => Cert.Spec.loss (inp0 m c) (inp1 m c) := by
  -- the rows' inner products bypass the region
  have hA : ∀ r : Fin 4096, ((exitW (F := Ideal) m c (Proc.devRef .tc main_v17) : S4096.Idx → EReal) (ix1 r))
      = ∑ f : Fin 256, Cert.Spec.nrm (inp0 m c) r f * Cert.Spec.nrm (inp1 m c) r f := by
    intro r
    rw [exitW_of_ne m c main_v17 (by decide)]
    exact V_main_v17_apply m c r
  -- the output array holds the kernel's row formula of real scores, which is the reference's
  have hB : ∀ r : Fin 8192, ((exitW (F := Ideal) m c (Proc.devRef .tc main_v20) : S8192.Idx → EReal) (ix1 r))
      = Cert.Spec.rowRef (Cert.Spec.score (inp0 m c) (inp1 m c)) r := by
    intro r
    rw [exitW_out, arrAt_out]
    show Cert.Spec.rowKer (kscore m c) r = _
    rw [kscore_eq, Cert.Spec.rowKer_eq_rowRef _ (Cert.Spec.score_real _ _ h0 h1)]
  refine (tail_value (exitW (F := Ideal) m c)).trans ?_
  funext _
  unfold Cert.Spec.loss Cert.Spec.posTerm
  exact congrArg₂ (fun a b : EReal => a + b)
    (congrArg (fun s : EReal => -(Ideal.div s Cert.Spec.nRows))
      (Finset.sum_congr rfl fun r _ => congrArg (fun s : EReal => Ideal.div s Cert.Spec.temp) (hA r)))
    (congrArg (fun s : EReal => Ideal.div s Cert.Spec.cnt) (Finset.sum_congr rfl fun r _ => hB r))

end Cert.KernelIdeal.Hand

end
-- ==== Proof.RefFold.lean ====
/-
  The reference program's result buffer after its 71 host operations, stage by stage.

  The run leaves the result buffer at the fold of the operations over the launch contents. Each operation writes
  one buffer from buffers written before it, so the fold at the result buffer is the last stage's value, each stage
  one operation applied to earlier stages: the product of an input with itself, its row sums, … , the final sum.

  The list of operations is cut into nine stretches. For each stretch, from any contents in which the buffers the
  stretch (or a later one) reads hold their stages, the contents after the stretch hold the stages of the buffers
  that later stretches read. Only those buffers are followed: an input until its last use, the two normalized inputs,
  their row-wise inner products, the similarity matrix and its masked and shifted forms, the mask, and the two means.
-/
import proofs.«136477_j12128987644289_1_alg».proof.Proof.RefReadP
import Idealize.ShloMosaic.Lib.Pipeline.Frame

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 to 10 of the reference program, in order. -/
abbrev seg1 : List (HloOp τ sig (Elt F)) :=
  [ binary main_arg0 main_arg0 main_v0 (mulf : (⟨S4096x256, .f32⟩ : BufTy).Contents (Elt F) → (⟨S4096x256, .f32⟩ : BufTy).Contents (Elt F) → (⟨S4096x256, .f32⟩ : BufTy).Contents (Elt F)),
    nullary main_cst (constant S_ .f32 0x00000000#32),
    binary main_v0 main_cst main_v1 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v2 main_v3 (Host.sqrt : (⟨S4096x1, .f32⟩ : BufTy).Contents (Elt F) → (⟨S4096x1, .f32⟩ : BufTy).Contents (Elt F)),
    nullary main_cst_0 (constant S_ .f32 0x33D6BF95#32),
    unary main_cst_0 main_v4 (broadcastInDim S4096x1 ![] bcast_S_S4096x1 : (⟨S_, .f32⟩ : BufTy).Contents (Elt F) → (⟨S4096x1, .f32⟩ : BufTy).Contents (Elt F)),
    binary main_v3 main_v4 main_v5 (maximumf : (⟨S4096x1, .f32⟩ : BufTy).Contents (Elt F) → (⟨S4096x1, .f32⟩ : BufTy).Contents (Elt F) → (⟨S4096x1, .f32⟩ : BufTy).Contents (Elt F)),
    unary main_v5 main_v6 (broadcastInDim S4096x256 ![0, 1] bcast_S4096x1_S4096x256_0_1 : (⟨S4096x1, .f32⟩ : BufTy).Contents (Elt F) → (⟨S4096x256, .f32⟩ : BufTy).Contents (Elt F)),
    binary main_arg0 main_v6 main_v7 (Host.divf : (⟨S4096x256, .f32⟩ : BufTy).Contents (Elt F) → (⟨S4096x256, .f32⟩ : BufTy).Contents (Elt F) → (⟨S4096x256, .f32⟩ : BufTy).Contents (Elt F)) ]

/-- Operations 11 to 20 of the reference program, in order. -/
abbrev seg2 : List (HloOp τ sig (Elt F)) :=
  [ binary main_arg1 main_arg1 main_v8 (mulf : (⟨S4096x256, .f32⟩ : BufTy).Contents (Elt F) → (⟨S4096x256, .f32⟩ : BufTy).Contents (Elt F) → (⟨S4096x256, .f32⟩ : BufTy).Contents (Elt F)),
    nullary main_cst_1 (constant S_ .f32 0x00000000#32),
    binary main_v8 main_cst_1 main_v9 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v9 main_v10 (broadcastInDim S4096x1 ![0] bcast_S4096_S4096x1_0 : (⟨S4096, .f32⟩ : BufTy).Contents (Elt F) → (⟨S4096x1, .f32⟩ : BufTy).Contents (Elt F)),
    unary main_v10 main_v11 (Host.sqrt : (⟨S4096x1, .f32⟩ : BufTy).Contents (Elt F) → (⟨S4096x1, .f32⟩ : BufTy).Contents (Elt F)),
    nullary main_cst_2 (constant S_ .f32 0x33D6BF95#32),
    unary main_cst_2 main_v12 (broadcastInDim S4096x1 ![] bcast_S_S4096x1 : (⟨S_, .f32⟩ : BufTy).Contents (Elt F) → (⟨S4096x1, .f32⟩ : BufTy).Contents (Elt F)),
    binary main_v11 main_v12 main_v13 (maximumf : (⟨S4096x1, .f32⟩ : BufTy).Contents (Elt F) → (⟨S4096x1, .f32⟩ : BufTy).Contents (Elt F) → (⟨S4096x1, .f32⟩ : BufTy).Contents (Elt F)),
    unary main_v13 main_v14 (broadcastInDim S4096x256 ![0, 1] bcast_S4096x1_S4096x256_0_1 : (⟨S4096x1, .f32⟩ : BufTy).Contents (Elt F) → (⟨S4096x256, .f32⟩ : BufTy).Contents (Elt F)),
    binary main_arg1 main_v14 main_v15 (Host.divf : (⟨S4096x256, .f32⟩ : BufTy).Contents (Elt F) → (⟨S4096x256, .f32⟩ : BufTy).Contents (Elt F) → (⟨S4096x256, .f32⟩ : BufTy).Contents (Elt F)) ]

/-- Operations 21 to 26 of the reference program, in order. -/
abbrev seg3 : List (HloOp τ sig (Elt F)) :=
  [ binary main_v7 main_v15 main_v16 (mulf : (⟨S4096x256, .f32⟩ : BufTy).Contents (Elt F) → (⟨S4096x256, .f32⟩ : BufTy).Contents (Elt F) → (⟨S4096x256, .f32⟩ : BufTy).Contents (Elt F)),
    nullary main_cst_3 (constant S_ .f32 0x00000000#32),
    binary main_v16 main_cst_3 main_v17 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    binary main_v7 main_v15 main_v18 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    unary main_v18 main_v19 ((transpose S256x8192 [1, 0] · transposes_S8192x256_S256x8192_1_0) : (⟨S8192x256, .f32⟩ : BufTy).Contents (Elt F) → (⟨S256x8192, .f32⟩ : BufTy).Contents (Elt F)),
    binary main_v18 main_v19 main_v20 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)) ]

/-- Operations 27 to 35 of the reference program, in order. -/
abbrev seg4 : List (HloOp τ sig (Elt F)) :=
  [ nullary main_v21 (iotaInDim S8192x8192 32 0),
    nullary main_v22 (iotaInDim S8192x8192 32 1),
    nullary main_c (constantI S_ 32 0#32),
    unary main_c main_v23 (broadcastInDim S8192x8192 ![] bcast_S_S8192x8192 : (⟨S_, .i32⟩ : BufTy).Contents (Elt F) → (⟨S8192x8192, .i32⟩ : BufTy).Contents (Elt F)),
    binary main_v21 main_v23 main_v24 (addi : (⟨S8192x8192, .i32⟩ : BufTy).Contents (Elt F) → (⟨S8192x8192, .i32⟩ : BufTy).Contents (Elt F) → (⟨S8192x8192, .i32⟩ : BufTy).Contents (Elt F)),
    binary main_v24 main_v22 main_v25 (cmpi .eq : (⟨S8192x8192, .i32⟩ : BufTy).Contents (Elt F) → (⟨S8192x8192, .i32⟩ : BufTy).Contents (Elt F) → (⟨S8192x8192, .i1⟩ : BufTy).Contents (Elt F)),
    nullary main_cst_4 (constant S_ .f32 0x3DCCCCCD#32),
    unary main_cst_4 main_v26 (broadcastInDim S8192x8192 ![] bcast_S_S8192x8192 : (⟨S_, .f32⟩ : BufTy).Contents (Elt F) → (⟨S8192x8192, .f32⟩ : BufTy).Contents (Elt F)),
    binary main_v20 main_v26 main_v27 (Host.divf : (⟨S8192x8192, .f32⟩ : BufTy).Contents (Elt F) → (⟨S8192x8192, .f32⟩ : BufTy).Contents (Elt F) → (⟨S8192x8192, .f32⟩ : BufTy).Contents (Elt F)) ]

/-- Operations 36 to 39 of the reference program, in order. -/
abbrev seg5 : List (HloOp τ sig (Elt F)) :=
  [ nullary main_cst_5 (constant S_ .f32 0xFF800000#32),
    TRef.unary (TRef.of (T := ⟨S_, .f32⟩) main_cst_5) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v25) (TRef.of (T := ⟨S8192x8192, .f32⟩) main_call0_v1) (TRef.of (T := ⟨S8192x8192, .f32⟩) main_v27) (TRef.of (T := ⟨S8192x8192, .f32⟩) main_v28) select ]

/-- Operations 40 to 47 of the reference program, in order. -/
abbrev seg6 : List (HloOp τ sig (Elt F)) :=
  [ TRef.nullary (TRef.of (T := ⟨S_, .f32⟩) main_call1_cst) (constant S_ .f32 0xFF800000#32),
    TRef.binary (TRef.of (T := ⟨S8192x8192, .f32⟩) main_v28) (TRef.of (T := ⟨S_, .f32⟩) main_call1_cst) (TRef.of (T := ⟨S8192, .f32⟩) main_call1_v0) (fun x v => Host.reduce FloatOps.maximumf x v reducesTo_S8192x8192_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8192, .f32⟩) main_call1_v4) (broadcastInDim S8192x8192 ![0, 1] bcast_S8192x1_S8192x8192_0_1),
    TRef.binary (TRef.of (T := ⟨S8192x8192, .f32⟩) main_v28) (TRef.of (T := ⟨S8192x8192, .f32⟩) main_call1_v4) (TRef.of (T := ⟨S8192x8192, .f32⟩) main_call1_v5) subf ]

/-- Operations 48 to 54 of the reference program, in order. -/
abbrev seg7 : List (HloOp τ sig (Elt F)) :=
  [ TRef.unary (TRef.of (T := ⟨S8192x8192, .f32⟩) main_call1_v5) (TRef.of (T := ⟨S8192x8192, .f32⟩) main_call1_v6) Host.exp,
    TRef.nullary (TRef.of (T := ⟨S_, .f32⟩) main_call1_cst_1) (constant S_ .f32 0x00000000#32),
    TRef.binary (TRef.of (T := ⟨S8192x8192, .f32⟩) main_call1_v6) (TRef.of (T := ⟨S_, .f32⟩) main_call1_cst_1) (TRef.of (T := ⟨S8192, .f32⟩) main_call1_v7) (fun x v => Host.reduceAdd x v reducesTo_S8192x8192_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8192, .f32⟩) main_call1_v10) (broadcastInDim S8192x8192 ![0, 1] bcast_S8192x1_S8192x8192_0_1),
    TRef.binary (TRef.of (T := ⟨S8192x8192, .f32⟩) main_call1_v5) (TRef.of (T := ⟨S8192x8192, .f32⟩) main_call1_v10) (TRef.of (T := ⟨S8192x8192, .f32⟩) main_v29) subf ]

/-- Operations 55 to 62 of the reference program, in order. -/
abbrev seg8 : List (HloOp τ sig (Elt F)) :=
  [ nullary main_cst_6 (constant S_ .f32 0x00000000#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v25) (TRef.of (T := ⟨S8192x8192, .f32⟩) main_call2_v1) (TRef.of (T := ⟨S8192x8192, .f32⟩) main_v29) (TRef.of (T := ⟨S8192x8192, .f32⟩) main_v30) select,
    nullary main_cst_7 (constant S_ .f32 0x00000000#32),
    binary main_v30 main_cst_7 main_v31 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_8 (constant S_ .f32 0x4C800000#32),
    binary main_v31 main_cst_8 main_v32 (Host.divf : (⟨S_, .f32⟩ : BufTy).Contents (Elt F) → (⟨S_, .f32⟩ : BufTy).Contents (Elt F) → (⟨S_, .f32⟩ : BufTy).Contents (Elt F)) ]

/-- Operations 63 to 71 of the reference program, in order. -/
abbrev seg9 : List (HloOp τ sig (Elt F)) :=
  [ nullary main_cst_9 (constant S_ .f32 0x3DCCCCCD#32),
    unary main_cst_9 main_v33 (broadcastInDim S4096 ![] bcast_S_S4096 : (⟨S_, .f32⟩ : BufTy).Contents (Elt F) → (⟨S4096, .f32⟩ : BufTy).Contents (Elt F)),
    binary main_v17 main_v33 main_v34 (Host.divf : (⟨S4096, .f32⟩ : BufTy).Contents (Elt F) → (⟨S4096, .f32⟩ : BufTy).Contents (Elt F) → (⟨S4096, .f32⟩ : BufTy).Contents (Elt F)),
    nullary main_cst_10 (constant S_ .f32 0x00000000#32),
    binary main_v34 main_cst_10 main_v35 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_11 (constant S_ .f32 0x45800000#32),
    binary main_v35 main_cst_11 main_v36 (Host.divf : (⟨S_, .f32⟩ : BufTy).Contents (Elt F) → (⟨S_, .f32⟩ : BufTy).Contents (Elt F) → (⟨S_, .f32⟩ : BufTy).Contents (Elt F)),
    unary main_v36 main_v37 (Host.negf : (⟨S_, .f32⟩ : BufTy).Contents (Elt F) → (⟨S_, .f32⟩ : BufTy).Contents (Elt F)),
    binary main_v37 main_v32 main_v38 (addf : (⟨S_, .f32⟩ : BufTy).Contents (Elt F) → (⟨S_, .f32⟩ : BufTy).Contents (Elt F) → (⟨S_, .f32⟩ : BufTy).Contents (Elt F)) ]

/-- After operations 1 to 10: the first input divided by its clamped row norms. -/
theorem stretch1 (x0 x1 : (⟨S4096x256, .f32⟩ : BufTy).Contents (Elt F)) (W : Valuation τ sig (Elt F))
    (h_arg0 : W (Proc.devRef .tc main_arg0) = x0)
    (h_arg1 : W (Proc.devRef .tc main_arg1) = x1) :
    after (seg1 (F := F)) W (Proc.devRef .tc main_arg1) = x1
    ∧ after (seg1 (F := F)) W (Proc.devRef .tc main_v7) = ReadP.val_main_v7 (F := F) x0 := by
  refine ⟨?_, ?_⟩
  · unfold seg1; after_results; exact h_arg1
  · unfold seg1; after_results; rw [h_arg0]; rfl

/-- After operations 11 to 20: the second input divided by its clamped row norms. -/
theorem stretch2 (x0 x1 : (⟨S4096x256, .f32⟩ : BufTy).Contents (Elt F)) (W : Valuation τ sig (Elt F))
    (h_arg1 : W (Proc.devRef .tc main_arg1) = x1)
    (h_v7 : W (Proc.devRef .tc main_v7) = ReadP.val_main_v7 (F := F) x0) :
    after (seg2 (F := F)) W (Proc.devRef .tc main_v7) = ReadP.val_main_v7 (F := F) x0
    ∧ after (seg2 (F := F)) W (Proc.devRef .tc main_v15) = ReadP.val_main_v15 (F := F) x1 := by
  refine ⟨?_, ?_⟩
  · unfold seg2; after_results; exact h_v7
  · unfold seg2; after_results; rw [h_arg1]; rfl

/-- After operations 21 to 26: the row-wise inner products of the two normalized inputs, and the matrix of all inner products of their concatenation. -/
theorem stretch3 (x0 x1 : (⟨S4096x256, .f32⟩ : BufTy).Contents (Elt F)) (W : Valuation τ sig (Elt F))
    (h_v7 : W (Proc.devRef .tc main_v7) = ReadP.val_main_v7 (F := F) x0)
    (h_v15 : W (Proc.devRef .tc main_v15) = ReadP.val_main_v15 (F := F) x1) :
    after (seg3 (F := F)) W (Proc.devRef .tc main_v17) = ReadP.val_main_v17 (F := F) x0 x1
    ∧ after (seg3 (F := F)) W (Proc.devRef .tc main_v20) = ReadP.val_main_v20 (F := F) x0 x1 := by
  refine ⟨?_, ?_⟩
  · unfold seg3; after_results; rw [h_v7, h_v15]; rfl
  · unfold seg3; after_results; rw [h_v7, h_v15]; rfl

/-- After operations 27 to 35: the diagonal mask and the similarity matrix divided by the temperature. -/
theorem stretch4 (x0 x1 : (⟨S4096x256, .f32⟩ : BufTy).Contents (Elt F)) (W : Valuation τ sig (Elt F))
    (h_v17 : W (Proc.devRef .tc main_v17) = ReadP.val_main_v17 (F := F) x0 x1)
    (h_v20 : W (Proc.devRef .tc main_v20) = ReadP.val_main_v20 (F := F) x0 x1) :
    after (seg4 (F := F)) W (Proc.devRef .tc main_v17) = ReadP.val_main_v17 (F := F) x0 x1
    ∧ after (seg4 (F := F)) W (Proc.devRef .tc main_v25) = ReadP.val_main_v25 (F := F)
    ∧ after (seg4 (F := F)) W (Proc.devRef .tc main_v27) = ReadP.val_main_v27 (F := F) x0 x1 := by
  refine ⟨?_, ?_, ?_⟩
  · unfold seg4; after_results; exact h_v17
  · unfold seg4; after_results; rfl
  · unfold seg4; after_results; rw [h_v20]; rfl

/-- After operations 36 to 39: the similarity matrix with its diagonal at minus infinity. -/
theorem stretch5 (x0 x1 : (⟨S4096x256, .f32⟩ : BufTy).Contents (Elt F)) (W : Valuation τ sig (Elt F))
    (h_v17 : W (Proc.devRef .tc main_v17) = ReadP.val_main_v17 (F := F) x0 x1)
    (h_v25 : W (Proc.devRef .tc main_v25) = ReadP.val_main_v25 (F := F))
    (h_v27 : W (Proc.devRef .tc main_v27) = ReadP.val_main_v27 (F := F) x0 x1) :
    after (seg5 (F := F)) W (Proc.devRef .tc main_v17) = ReadP.val_main_v17 (F := F) x0 x1
    ∧ after (seg5 (F := F)) W (Proc.devRef .tc main_v25) = ReadP.val_main_v25 (F := F)
    ∧ after (seg5 (F := F)) W (Proc.devRef .tc main_v28) = ReadP.val_main_v28 (F := F) x0 x1 := by
  refine ⟨?_, ?_, ?_⟩
  · unfold seg5; after_results; exact h_v17
  · unfold seg5; after_results; exact h_v25
  · unfold seg5; after_results; rw [h_v25, h_v27]; rfl

/-- After operations 40 to 47: the masked matrix minus its row maxima. -/
theorem stretch6 (x0 x1 : (⟨S4096x256, .f32⟩ : BufTy).Contents (Elt F)) (W : Valuation τ sig (Elt F))
    (h_v17 : W (Proc.devRef .tc main_v17) = ReadP.val_main_v17 (F := F) x0 x1)
    (h_v25 : W (Proc.devRef .tc main_v25) = ReadP.val_main_v25 (F := F))
    (h_v28 : W (Proc.devRef .tc main_v28) = ReadP.val_main_v28 (F := F) x0 x1) :
    after (seg6 (F := F)) W (Proc.devRef .tc main_v17) = ReadP.val_main_v17 (F := F) x0 x1
    ∧ after (seg6 (F := F)) W (Proc.devRef .tc main_v25) = ReadP.val_main_v25 (F := F)
    ∧ after (seg6 (F := F)) W (Proc.devRef .tc main_call1_v5) = ReadP.val_main_call1_v5 (F := F) x0 x1 := by
  refine ⟨?_, ?_, ?_⟩
  · unfold seg6; after_results; exact h_v17
  · unfold seg6; after_results; exact h_v25
  · unfold seg6; after_results; rw [h_v28]; simp only [TRef.ofBuf, TRef.toBuf]; repeat rw [cast_eq]
    rfl

/-- After operations 48 to 54: the row-wise log-softmax. -/
theorem stretch7 (x0 x1 : (⟨S4096x256, .f32⟩ : BufTy).Contents (Elt F)) (W : Valuation τ sig (Elt F))
    (h_v17 : W (Proc.devRef .tc main_v17) = ReadP.val_main_v17 (F := F) x0 x1)
    (h_v25 : W (Proc.devRef .tc main_v25) = ReadP.val_main_v25 (F := F))
    (h_call1_v5 : W (Proc.devRef .tc main_call1_v5) = ReadP.val_main_call1_v5 (F := F) x0 x1) :
    after (seg7 (F := F)) W (Proc.devRef .tc main_v17) = ReadP.val_main_v17 (F := F) x0 x1
    ∧ after (seg7 (F := F)) W (Proc.devRef .tc main_v25) = ReadP.val_main_v25 (F := F)
    ∧ after (seg7 (F := F)) W (Proc.devRef .tc main_v29) = ReadP.val_main_v29 (F := F) x0 x1 := by
  refine ⟨?_, ?_, ?_⟩
  · unfold seg7; after_results; exact h_v17
  · unfold seg7; after_results; exact h_v25
  · unfold seg7; after_results; rw [h_call1_v5]; rfl

/-- After operations 55 to 62: the mean of the log-softmax off the diagonal. -/
theorem stretch8 (x0 x1 : (⟨S4096x256, .f32⟩ : BufTy).Contents (Elt F)) (W : Valuation τ sig (Elt F))
    (h_v17 : W (Proc.devRef .tc main_v17) = ReadP.val_main_v17 (F := F) x0 x1)
    (h_v25 : W (Proc.devRef .tc main_v25) = ReadP.val_main_v25 (F := F))
    (h_v29 : W (Proc.devRef .tc main_v29) = ReadP.val_main_v29 (F := F) x0 x1) :
    after (seg8 (F := F)) W (Proc.devRef .tc main_v17) = ReadP.val_main_v17 (F := F) x0 x1
    ∧ after (seg8 (F := F)) W (Proc.devRef .tc main_v32) = ReadP.val_main_v32 (F := F) x0 x1 := by
  refine ⟨?_, ?_⟩
  · unfold seg8; after_results; exact h_v17
  · unfold seg8; after_results; rw [h_v25, h_v29]; rfl

/-- After operations 63 to 71: the negated mean of the scaled row-wise inner products plus the log-softmax mean. -/
theorem stretch9 (x0 x1 : (⟨S4096x256, .f32⟩ : BufTy).Contents (Elt F)) (W : Valuation τ sig (Elt F))
    (h_v17 : W (Proc.devRef .tc main_v17) = ReadP.val_main_v17 (F := F) x0 x1)
    (h_v32 : W (Proc.devRef .tc main_v32) = ReadP.val_main_v32 (F := F) x0 x1) :
    after (seg9 (F := F)) W (Proc.devRef .tc main_v38) = ReadP.val_main_v38 (F := F) x0 x1 := by
  unfold seg9; after_results; rw [h_v17, h_v32]; rfl

/-- The whole list is the nine stretches in a row. -/
theorem ops_eq : Cert.ReferenceIdeal.ValueP.ops (F := F)
    = seg1 ++ (seg2 ++ (seg3 ++ (seg4 ++ (seg5 ++ (seg6 ++ (seg7 ++ (seg8 ++ seg9))))))) := rfl

/-- The fold of the reference's operations at its result buffer is the last stage's value of the two inputs. -/
theorem fold_eq_stage (m : (ℓ : Loc nD τ sig) → Buf (Elt F) ℓ) (c : Dev nD) :
    after (Cert.ReferenceIdeal.ValueP.ops (F := F)) (launchContents m c) (Proc.devRef .tc main_v38)
      = Cert.ReferenceIdeal.ReadP.val_main_v38 (F := F) (m ((c.tc : Thread nD τ).loc main_arg0)) (m ((c.tc : Thread nD τ).loc main_arg1)) := by
  have H1 := stretch1 (F := F) _ _ (launchContents m c) rfl rfl
  have H2 := stretch2 (F := F) _ _ (after (seg1 (F := F)) (launchContents m c)) H1.1 H1.2
  have H3 := stretch3 (F := F) _ _ (after (seg2 (F := F)) (after (seg1 (F := F)) (launchContents m c))) H2.1 H2.2
  have H4 := stretch4 (F := F) _ _ (after (seg3 (F := F)) (after (seg2 (F := F)) (after (seg1 (F := F)) (launchContents m c)))) H3.1 H3.2
  have H5 := stretch5 (F := F) _ _ (after (seg4 (F := F)) (after (seg3 (F := F)) (after (seg2 (F := F)) (after (seg1 (F := F)) (launchContents m c))))) H4.1 H4.2.1 H4.2.2
  have H6 := stretch6 (F := F) _ _ (after (seg5 (F := F)) (after (seg4 (F := F)) (after (seg3 (F := F)) (after (seg2 (F := F)) (after (seg1 (F := F)) (launchContents m c)))))) H5.1 H5.2.1 H5.2.2
  have H7 := stretch7 (F := F) _ _ (after (seg6 (F := F)) (after (seg5 (F := F)) (after (seg4 (F := F)) (after (seg3 (F := F)) (after (seg2 (F := F)) (after (seg1 (F := F)) (launchContents m c))))))) H6.1 H6.2.1 H6.2.2
  have H8 := stretch8 (F := F) _ _ (after (seg7 (F := F)) (after (seg6 (F := F)) (after (seg5 (F := F)) (after (seg4 (F := F)) (after (seg3 (F := F)) (after (seg2 (F := F)) (after (seg1 (F := F)) (launchContents m c)))))))) H7.1 H7.2.1 H7.2.2
  have H9 := stretch9 (F := F) _ _ (after (seg8 (F := F)) (after (seg7 (F := F)) (after (seg6 (F := F)) (after (seg5 (F := F)) (after (seg4 (F := F)) (after (seg3 (F := F)) (after (seg2 (F := F)) (after (seg1 (F := F)) (launchContents m c))))))))) H8.1 H8.2
  rw [ops_eq, after_append, after_append, after_append, after_append, after_append, after_append, after_append, after_append]
  exact H9

end Cert.ReferenceIdeal.Hand

end
-- ==== Proof.RefLoss.lean ====
/-
  The reference program's last stage, read at an index at the ideal instance, is the loss.

  Stage by stage the reference computes exactly the formula of Spec.loss: the normalised rows, their inner
  products over the temperature, the identity mask as "row index = column index", the masked row maximum (a
  maximum against −∞ is the identity), the shifted exponentials' row sums, the log-softmax entries with the
  diagonal put to 0, their sum over all entries, and the positive-pair term.
-/
import proofs.«136477_j12128987644289_1_alg».proof.Proof.RefReadP
import proofs.«136477_j12128987644289_1_alg».proof.Proof.Loss
import Idealize.ShloMosaic.Lib.ReduceAll
import Idealize.ShloMosaic.Lib.StableHlo.Predicate

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

open Idealize.ShloMosaic.ValueIdx

/-- The two input arrays' type at the ideal instance. -/
abbrev A : Type := (⟨S4096x256, .f32⟩ : BufTy).Contents (Elt Ideal)

/-! ## The index maps of the layout operations, at coordinates -/

theorem idx_v1_ix (r : Fin 4096) (f k : Fin 256) :
    ReadP.idx_main_v1 (ReadP.idx_main_v2 (ReadP.idx_main_v6 (ix2 r f))) k = ix2 r k := by
  funext a; match a with | ⟨0, _⟩ => rfl | ⟨1, _⟩ => rfl

theorem idx_v9_ix (r : Fin 4096) (f k : Fin 256) :
    ReadP.idx_main_v9 (ReadP.idx_main_v10 (ReadP.idx_main_v14 (ix2 r f))) k = ix2 r k := by
  funext a; match a with | ⟨0, _⟩ => rfl | ⟨1, _⟩ => rfl

theorem idx_v17_ix (r : Fin 4096) (k : Fin 256) : ReadP.idx_main_v17 (ix1 r) k = ix2 r k := by
  funext a; match a with | ⟨0, _⟩ => rfl | ⟨1, _⟩ => rfl

theorem lidx_v20_ix (r k : Fin 8192) (f : Fin 256) : ReadP.lidx_main_v20 (ix2 r k) f = ix2 r f := by
  funext a; match a with | ⟨0, _⟩ => rfl | ⟨1, _⟩ => rfl

theorem ridx_v20_ix (r k : Fin 8192) (f : Fin 256) :
    ReadP.idx_main_v19 (ReadP.ridx_main_v20 (ix2 r k) f) = ix2 k f := by
  funext a; match a with | ⟨0, _⟩ => rfl | ⟨1, _⟩ => rfl

/-! ## The normalised rows -/

/-- Stage 7 is the first input's normalised array. -/
theorem v7_eq (a : A) (r : Fin 4096) (f : Fin 256) :
    ReadP.val_main_v7 (F := Ideal) a (ix2 r f) = Cert.Spec.nrm a r f := by
  rw [ReadP.val_main_v7_apply, ReadP.val_main_v6_apply, ReadP.val_main_v5_apply, ReadP.val_main_v3_apply,
    ReadP.val_main_v2_apply, ReadP.val_main_v1_apply, ReadP.val_main_v4_apply, ReadP.val_main_cst_0_apply,
    ReadP.val_main_cst_apply]
  simp only [idx_v1_ix, ReadP.val_main_v0_apply, Ideal.hostDivf_def, Ideal.maximumf_def, Ideal.hostUnary_sqrt_def,
    Ideal.ofBits_def, Ideal.mulf_def, Ideal.ofBits_zero_f32, zero_add]
  rfl

/-- Stage 15 is the second input's normalised array. -/
theorem v15_eq (a : A) (r : Fin 4096) (f : Fin 256) :
    ReadP.val_main_v15 (F := Ideal) a (ix2 r f) = Cert.Spec.nrm a r f := by
  rw [ReadP.val_main_v15_apply, ReadP.val_main_v14_apply, ReadP.val_main_v13_apply, ReadP.val_main_v11_apply,
    ReadP.val_main_v10_apply, ReadP.val_main_v9_apply, ReadP.val_main_v12_apply, ReadP.val_main_cst_2_apply,
    ReadP.val_main_cst_1_apply]
  simp only [idx_v9_ix, ReadP.val_main_v8_apply, Ideal.hostDivf_def, Ideal.maximumf_def, Ideal.hostUnary_sqrt_def,
    Ideal.ofBits_def, Ideal.mulf_def, Ideal.ofBits_zero_f32, zero_add]
  rfl

/-- Stage 17 is the row-wise inner product of the two normalised arrays. -/
theorem v17_eq (a0 a1 : A) (r : Fin 4096) :
    ReadP.val_main_v17 (F := Ideal) a0 a1 (ix1 r) = ∑ f : Fin 256, Cert.Spec.nrm a0 r f * Cert.Spec.nrm a1 r f := by
  rw [ReadP.val_main_v17_apply, ReadP.val_main_cst_3_apply]
  simp only [idx_v17_ix, ReadP.val_main_v16_apply, v7_eq, v15_eq, Ideal.ofBits_def, Ideal.mulf_def,
    Ideal.ofBits_zero_f32, zero_add]

/-! ## The 8192 rows, their inner products, the mask, the masked scores -/

/-- Stage 18, the two normalised arrays one under the other, is the combined array. -/
theorem v18_eq (a0 a1 : A) (r : Fin 8192) (f : Fin 256) :
    ReadP.val_main_v18 (F := Ideal) a0 a1 (ix2 r f) = Cert.Spec.cmb a0 a1 r f := by
  unfold ReadP.val_main_v18 Cert.Spec.cmb
  by_cases h : r.val < 4096
  · rw [dif_pos h]
    rw [concatenate_pair_apply_left (s₁ := S4096x256) (s₂ := S4096x256) (0 : Fin S8192x256.rank)
      (ReadP.val_main_v7 (F := Ideal) a0) (ReadP.val_main_v15 (F := Ideal) a1) _ (ix2 r f) rfl (ix2 (⟨r.val, h⟩ : Fin 4096) f)
      (fun b => match b with | ⟨0, _⟩ => rfl | ⟨1, _⟩ => rfl)]
    exact v7_eq a0 _ f
  · rw [dif_neg h]
    rw [concatenate_pair_apply_right (s₁ := S4096x256) (s₂ := S4096x256) (0 : Fin S8192x256.rank)
      (ReadP.val_main_v7 (F := Ideal) a0) (ReadP.val_main_v15 (F := Ideal) a1) _ (ix2 r f) rfl rfl
      (ix2 (⟨r.val - 4096, by have := r.isLt; omega⟩ : Fin 4096) f)
      (fun b => match b with | ⟨0, _⟩ => fun hb => absurd rfl hb | ⟨1, _⟩ => fun _ => rfl)
      (by show r.val - 4096 + 4096 = r.val; omega)]
    exact v15_eq a1 _ f

/-- Stage 20 is the matrix of pairwise inner products of the combined rows. -/
theorem v20_eq (a0 a1 : A) (r k : Fin 8192) :
    ReadP.val_main_v20 (F := Ideal) a0 a1 (ix2 r k)
      = ∑ f : Fin 256, Cert.Spec.cmb a0 a1 r f * Cert.Spec.cmb a0 a1 k f := by
  rw [ReadP.val_main_v20_apply]
  refine Finset.sum_congr rfl fun f _ => ?_
  rw [ReadP.val_main_v19_apply, lidx_v20_ix, ridx_v20_ix, v18_eq, v18_eq]

/-- Stage 25, the comparison of the row iota with the column iota, is the identity mask. -/
theorem v25_iff (r k : Fin 8192) : ReadP.val_main_v25 (F := Ideal) (ix2 r k) = 1#1 ↔ r = k := by
  rw [ReadP.val_main_v25_apply, ReadP.val_main_v24_apply, ReadP.val_main_v21_apply, ReadP.val_main_v22_apply,
    ReadP.val_main_v23_apply, ReadP.val_main_c_apply, Predicate.cmpi_eq_iff]
  show IntOp.addi (BitVec.ofNat 32 r.val) 0#32 = BitVec.ofNat 32 k.val ↔ r = k
  unfold IntOp.addi
  rw [BitVec.add_zero]
  constructor
  · intro h
    have h' := congrArg BitVec.toNat h
    simp only [BitVec.toNat_ofNat] at h'
    have := r.isLt
    have := k.isLt
    exact Fin.ext (by omega)
  · intro h
    rw [h]

/-- The word of −∞ denotes −∞. -/
theorem ofBits_ninf : Ideal.ofBits .f32 0xFF800000#32 = ⊥ := by simp [Ideal.ofBits, Ideal.ieee]

/-- Stage 28 is the masked score matrix: −∞ on the diagonal, the score elsewhere. -/
theorem v28_eq (a0 a1 : A) (r k : Fin 8192) :
    ReadP.val_main_v28 (F := Ideal) a0 a1 (ix2 r k) = Cert.Spec.msk (Cert.Spec.score a0 a1) r k := by
  rw [ReadP.val_main_v28_apply]
  unfold Cert.Spec.msk
  by_cases h : k = r
  · rw [if_pos h, (v25_iff r k).mpr h.symm, select_one, ReadP.val_main_call0_v1_apply,
      ReadP.val_main_call0_v0_apply, ReadP.val_main_cst_5_apply]
    exact ofBits_ninf
  · rw [if_neg h, eq_zero_of_ne_one (fun e => h ((v25_iff r k).mp e).symm), select_zero,
      ReadP.val_main_v27_apply, v20_eq, ReadP.val_main_v26_apply, ReadP.val_main_cst_4_apply]
    rfl

/-! ## The row maximum, the shifted exponentials' row sums, the log-softmax entries -/

theorem idx_c1v3_ix (r k : Fin 8192) :
    ReadP.idx_main_call1_v3 (ReadP.idx_main_call1_v4 (ix2 r k)) = ix1 r := by
  funext a; match a with | ⟨0, _⟩ => rfl

theorem idx_c1v7_ix (r k : Fin 8192) : ReadP.idx_main_call1_v7 (ix1 r) k = ix2 r k := by
  funext a; match a with | ⟨0, _⟩ => rfl | ⟨1, _⟩ => rfl

theorem idx_c1v8_ix (r k : Fin 8192) :
    ReadP.idx_main_call1_v8 (ReadP.idx_main_call1_v10 (ix2 r k)) = ix1 r := by
  funext a; match a with | ⟨0, _⟩ => rfl

/-- The index over row r with column k put back is (r, k). -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- A fold of the maximum from b is the maximum of b and the supremum. -/
theorem fold_max_eq_sup {ι : Type} (s : Finset ι) (b : EReal) (g : ι → EReal) :
    s.fold max b g = max b (s.sup g) := by
  classical
  refine Finset.induction_on s ?_ ?_
  · rw [Finset.fold_empty, Finset.sup_empty, max_bot_right]
  · intro j t hj ih
    rw [Finset.fold_insert hj, Finset.sup_insert, ih, max_left_comm]

/-- The reduction with a maximum body from −∞ along a row is the row maximum of the masked scores. -/
theorem call1_v0_eq (a0 a1 : A) (r : Fin 8192) :
    ReadP.val_main_call1_v0 (F := Ideal) a0 a1 (ix1 r) = Cert.Spec.rowMax (Cert.Spec.score a0 a1) r := by
  unfold ReadP.val_main_call1_v0
  have h : S8192x8192.Reduces [1] S8192 := by decide
  rw [Host.reduce_eq_fold_single FloatOps.maximumf _ _ _ h h_S_]
  have hf : (ReadP.val_main_v28 (F := Ideal) a0 a1 ∘ h.lift (ix1 r))
      = fun k : Fin 8192 => Cert.Spec.msk (Cert.Spec.score a0 a1) r k :=
    funext fun k => (congrArg (ReadP.val_main_v28 (F := Ideal) a0 a1) (lift_row h r k)).trans (v28_eq a0 a1 r _)
  rw [hf]
  show Finset.fold max (Ideal.ofBits .f32 0xFF800000#32)
      (fun k : Fin 8192 => Cert.Spec.msk (Cert.Spec.score a0 a1) r k) Finset.univ
    = Finset.univ.sup (Cert.Spec.msk (Cert.Spec.score a0 a1) r)
  rw [fold_max_eq_sup, ofBits_ninf, max_bot_left]

/-- Stage 2 of the log-softmax, the maximum of −∞ and the reduction, is the row maximum. -/
theorem call1_v2_eq (a0 a1 : A) (r : Fin 8192) :
    ReadP.val_main_call1_v2 (F := Ideal) a0 a1 (ix1 r) = Cert.Spec.rowMax (Cert.Spec.score a0 a1) r := by
  rw [ReadP.val_main_call1_v2_apply, ReadP.val_main_call1_v1_apply, ReadP.val_main_call1_cst_0_apply, call1_v0_eq]
  show max (Ideal.ofBits .f32 0xFF800000#32) _ = _
  rw [ofBits_ninf, max_bot_left]

/-- Stage 5 of the log-softmax is the masked score less the row maximum. -/
theorem call1_v5_eq (a0 a1 : A) (r k : Fin 8192) :
    ReadP.val_main_call1_v5 (F := Ideal) a0 a1 (ix2 r k)
      = Cert.Spec.msk (Cert.Spec.score a0 a1) r k - Cert.Spec.rowMax (Cert.Spec.score a0 a1) r := by
  rw [ReadP.val_main_call1_v5_apply, v28_eq, ReadP.val_main_call1_v4_apply, ReadP.val_main_call1_v3_apply,
    idx_c1v3_ix, call1_v2_eq]
  rfl

/-- Stage 7 of the log-softmax is the row's sum of shifted exponentials. -/
theorem call1_v7_eq (a0 a1 : A) (r : Fin 8192) :
    ReadP.val_main_call1_v7 (F := Ideal) a0 a1 (ix1 r) = Cert.Spec.rowZ (Cert.Spec.score a0 a1) r := by
  rw [ReadP.val_main_call1_v7_apply, ReadP.val_main_call1_cst_1_apply]
  simp only [idx_c1v7_ix, ReadP.val_main_call1_v6_apply, call1_v5_eq, Ideal.hostUnary_exp_def, Ideal.ofBits_def,
    Ideal.ofBits_zero_f32, zero_add]
  rfl

/-- Stage 29 is the log-softmax entry of the masked scores. -/
theorem v29_eq (a0 a1 : A) (r k : Fin 8192) :
    ReadP.val_main_v29 (F := Ideal) a0 a1 (ix2 r k)
      = (Cert.Spec.msk (Cert.Spec.score a0 a1) r k - Cert.Spec.rowMax (Cert.Spec.score a0 a1) r)
        - Ideal.log (Cert.Spec.rowZ (Cert.Spec.score a0 a1) r) := by
  rw [ReadP.val_main_v29_apply, call1_v5_eq, ReadP.val_main_call1_v10_apply, ReadP.val_main_call1_v9_apply,
    ReadP.val_main_call1_v8_apply, idx_c1v8_ix, call1_v7_eq]
  rfl

/-- Stage 30 puts the diagonal of the log-softmax to 0. -/
theorem v30_eq (a0 a1 : A) (r k : Fin 8192) :
    ReadP.val_main_v30 (F := Ideal) a0 a1 (ix2 r k)
      = if k = r then (0 : EReal)
        else (Cert.Spec.msk (Cert.Spec.score a0 a1) r k - Cert.Spec.rowMax (Cert.Spec.score a0 a1) r)
          - Ideal.log (Cert.Spec.rowZ (Cert.Spec.score a0 a1) r) := by
  rw [ReadP.val_main_v30_apply]
  by_cases h : k = r
  · rw [if_pos h, (v25_iff r k).mpr h.symm, select_one, ReadP.val_main_call2_v1_apply,
      ReadP.val_main_call2_v0_apply, ReadP.val_main_cst_6_apply]
    exact Ideal.ofBits_zero_f32
  · rw [if_neg h, eq_zero_of_ne_one (fun e => h ((v25_iff r k).mp e).symm), select_zero, v29_eq]

/-! ## The two sums and the result -/

/-- Stage 31, the sum over all entries, is the sum over the rows of the reference's row sums. -/
theorem v31_eq (a0 a1 : A) (i : S_.Idx) :
    ReadP.val_main_v31 (F := Ideal) a0 a1 i = ∑ r : Fin 8192, Cert.Spec.rowRef (Cert.Spec.score a0 a1) r := by
  rw [ReadP.val_main_v31_apply, ReadP.val_main_cst_7_apply]
  show Ideal.ofBits .f32 0x00000000#32 + _ = _
  rw [Ideal.ofBits_zero_f32, zero_add, sum_idx2]
  refine Finset.sum_congr rfl fun r _ => ?_
  unfold Cert.Spec.rowRef
  exact Finset.sum_congr rfl fun k _ => v30_eq a0 a1 r k

/-- A rank-1 index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {n : Nat} (g : (⟨1, ![n]⟩ : Shape).Idx → EReal) : ∑ i, g i = ∑ a : Fin n, g (ix1 a) := by
  rw [← Equiv.sum_comp (idxEquiv1 (n := n)).symm g]
  rfl

/-- Stage 35 is the sum over the rows of the positive pairs' inner products over the temperature. -/
theorem v35_eq (a0 a1 : A) (i : S_.Idx) :
    ReadP.val_main_v35 (F := Ideal) a0 a1 i
      = ∑ r : Fin 4096, Ideal.div (∑ f : Fin 256, Cert.Spec.nrm a0 r f * Cert.Spec.nrm a1 r f) Cert.Spec.temp := by
  rw [ReadP.val_main_v35_apply, ReadP.val_main_cst_10_apply]
  show Ideal.ofBits .f32 0x00000000#32 + _ = _
  rw [Ideal.ofBits_zero_f32, zero_add, sum_idx1]
  refine Finset.sum_congr rfl fun r _ => ?_
  rw [ReadP.val_main_v34_apply, v17_eq, ReadP.val_main_v33_apply, ReadP.val_main_cst_9_apply]
  rfl
/-- The last stage at the ideal instance is the loss of the two inputs. -/
theorem stage_eq_loss (a0 a1 : (⟨S4096x256, .f32⟩ : BufTy).Contents (Elt Ideal)) :
    (Cert.ReferenceIdeal.ReadP.val_main_v38 (F := Ideal) a0 a1 : S_.Idx → EReal) = fun _ => Cert.Spec.loss a0 a1 := by
  funext i
  rw [ReadP.val_main_v38_apply, ReadP.val_main_v37_apply, ReadP.val_main_v36_apply, ReadP.val_main_v32_apply,
    v35_eq, v31_eq, ReadP.val_main_cst_11_apply, ReadP.val_main_cst_8_apply]
  rfl

end Cert.ReferenceIdeal.Hand

end
-- ==== Proof.Finite.lean ====
/-
  What the precondition says of the inputs at the ideal instance.

  The precondition is: every entry of both inputs has absolute value below +∞. An extended real whose absolute
  value (the larger of itself and its negative) is below +∞ is neither −∞ nor +∞, so it is a real number.
-/
import proofs.«136477_j12128987644289_1_alg».proof.Pre_finite_inputs
import proofs.«136477_j12128987644289_1_alg».proof.Proof.Gen.Pre_finite_inputs
import proofs.«136477_j12128987644289_1_alg».proof.Proof.Loss
import Idealize.ShloMosaic.Lib.ReduceAll

noncomputable section

namespace Cert.Spec

open Idealize.ShloMosaic

/-- An extended real whose absolute value (the larger of it and its negative) compares below the f32 pattern of
    +∞ is a real number: at −∞ and at +∞ that larger value is +∞, which is not below +∞. -/
theorem real_of_abs_lt_inf (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at hx
  induction x using EReal.rec with
  | bot => simp [Ideal.cmp] at hx
  | coe r => exact ⟨r, rfl⟩
  | top => simp [Ideal.cmp] at hx

/-- If the printed precondition of two input arrays is all ones, every entry of both is a real number. -/
theorem real_of_fn (a0 a1 : FVec Ideal Cert.Pre_finite_inputs.S4096x256 .f32)
    (h : Cert.Pre_finite_inputs.fn (F := Ideal) a0 a1 = fun _ => 1#1) : Real a0 ∧ Real a1 := by
  haveI : Subsingleton Cert.Pre_finite_inputs.S_.Idx := ⟨fun a b => funext fun d => d.elim0⟩
  have h0 := congrFun h ValueIdx.ix0
  dsimp only [Cert.Pre_finite_inputs.fn] at h0
  change IntOp.andi _ _ = 1#1 at h0
  obtain ⟨h1, h2⟩ := IntOp.andi_eq_one.1 h0
  exact ⟨fun i => real_of_abs_lt_inf (a0 i) (Host.reduce_andi_all _ _ _ _ _ h1 i),
    fun i => real_of_abs_lt_inf (a1 i) (Host.reduce_andi_all _ _ _ _ _ h2 i)⟩

end Cert.Spec

end
-- ==== Proof.lean ====
/-
  The certificate's five claims.

  The kernel scales its inner products by a constant whose ideal reading is the reciprocal of the temperature's
  exact value, and masks the diagonal with a large negative constant whose ideal reading is −∞; the reference
  divides by the temperature and masks with −∞. At the ideal instance both programs end with the same loss of
  the two inputs: the reference computes the masked row-wise log-softmax directly, the kernel block by block with
  a running maximum, and the two agree on real scores (Spec.rowKer_eq_rowRef); everything around the pairwise
  term is the same host arithmetic on both sides. The three frames: the kernel's (at both instances) from the
  region's body obligation and the launch over the array the two input windows share, the reference's from its run.
-/
import proofs.«136477_j12128987644289_1_alg».proof.Defs
import proofs.«136477_j12128987644289_1_alg».proof.Proof.Bits.Launch
import proofs.«136477_j12128987644289_1_alg».proof.Proof.Ideal.Value
import proofs.«136477_j12128987644289_1_alg».proof.Proof.RefFold
import proofs.«136477_j12128987644289_1_alg».proof.Proof.RefLoss
import proofs.«136477_j12128987644289_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- The idealized kernel runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The three named constants: the table gives each name its value, and the printed constant is that value at the
    ideal instance. -/
theorem preserves : Cert.preserves_Kernel_KernelIdeal :=
  ⟨IdealRules.named_const.statement Cert.KernelIdeal.κ "neg_big" .f32 0xFF333332#32 ⊥ rfl,
   IdealRules.named_const.statement Cert.KernelIdeal.κ "inv_temp" .f32 0x41200000#32 ((134217728 / 13421773 : ℝ) : EReal) rfl,
   IdealRules.named_const.statement Cert.KernelIdeal.κ "neg_big" .f32 0xFF333332#32 ⊥ rfl⟩

/-- Both idealized programs end at the loss of the inputs. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => (fun _ => Cert.Spec.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) : Cert.KernelIdeal.S_.Idx → EReal), ?_, ?_⟩
  · refine (θ_run Cert.KernelIdeal.defs _ _).mono (fun _ h c => ⟨(h c).1.trans ?_, (h c).2⟩) (Cert.KernelIdeal.Hand.run_main (F := Ideal) m ρ)
    obtain ⟨h0, h1⟩ := Cert.Spec.real_of_fn _ _ (hpre c)
    exact Cert.KernelIdeal.Hand.kernel_value m c h0 h1
  · refine (θ_run Cert.ReferenceIdeal.defs _ _).mono (fun _ h c => ⟨(h c).1.trans ?_, (h c).2⟩) (Cert.ReferenceIdeal.ValueP.run (F := Ideal) m' ρ')
    rw [Cert.ReferenceIdeal.Hand.fold_eq_stage, (hagree c).1, (hagree c).2]
    exact Cert.ReferenceIdeal.Hand.stage_eq_loss _ _

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
